-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1x512 : Shape := ⟨2, ![1, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg3 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg3 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x512 .f32) (main_arg1 : FVec F S1x512 .f32) (main_arg2 : FVec F S1x512 .f32) (main_arg3 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg3 main_v14
  let main_c_5 : IVec S_ 32 := constantI S_ 32 16#32
  fn_part1 (F := F) main_arg3 main_v13 main_v15 main_c_5
-- ==== Kernel.lean ====
abbrev S131072x512 : Shape := ⟨2, ![131072, 512]⟩
abbrev S1x512 : Shape := ⟨2, ![1, 512]⟩
abbrev S131072 : Shape := ⟨1, ![131072]⟩
abbrev S_ : Shape := ⟨0, ![]⟩
abbrev S1x131072 : Shape := ⟨2, ![1, 131072]⟩
abbrev S2x128x3 : Shape := ⟨3, ![2, 128, 3]⟩
abbrev S4096x512 : Shape := ⟨2, ![4096, 512]⟩
abbrev S1x4096 : Shape := ⟨2, ![1, 4096]⟩
abbrev S1x128x3 : Shape := ⟨3, ![1, 128, 3]⟩
abbrev S128x3 : Shape := ⟨2, ![128, 3]⟩
abbrev S4096 : Shape := ⟨1, ![4096]⟩
abbrev S128x4096 : Shape := ⟨2, ![128, 4096]⟩
abbrev S128x512 : Shape := ⟨2, ![128, 512]⟩
abbrev S128 : Shape := ⟨1, ![128]⟩
abbrev S128x1 : Shape := ⟨2, ![128, 1]⟩
abbrev S4096x1 : Shape := ⟨2, ![4096, 1]⟩
abbrev S16x1 : Shape := ⟨2, ![16, 1]⟩
abbrev S16 : Shape := ⟨1, ![16]⟩
abbrev S131072x1 : Shape := ⟨2, ![131072, 1]⟩

abbrev nBuf : Space → Nat
  | .hbm => 66
  | .vmem => 17
  | .smem => 0
  | _ => 0

abbrev bufTy : (tb : Table) → Fin (tcTables nBuf tb) → BufTy
  | .hbm, ⟨0, _⟩ => ⟨S131072x512, .f32⟩
  | .hbm, ⟨1, _⟩ => ⟨S1x512, .f32⟩
  | .hbm, ⟨2, _⟩ => ⟨S1x512, .f32⟩
  | .hbm, ⟨3, _⟩ => ⟨S131072, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S1x131072, .i32⟩
  | .hbm, ⟨13, _⟩ => ⟨S2x128x3, .f32⟩
  | .hbm, ⟨14, _⟩ => ⟨S_, .f32⟩
  | .hbm, ⟨15, _⟩ => ⟨S128x3, .f32⟩
  | .hbm, ⟨16, _⟩ => ⟨S16x1, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16x1, .f32⟩
  | .hbm, ⟨22, _⟩ => ⟨S16, .f32⟩
  | .hbm, ⟨23, _⟩ => ⟨S16x1, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072, .f32⟩
  | .hbm, ⟨54, _⟩ => ⟨S131072x1, .f32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S131072x1, .i32⟩
  | .hbm, ⟨63, _⟩ => ⟨S131072, .f32⟩
  | .hbm, ⟨64, _⟩ => ⟨S131072x1, .f32⟩
  | .hbm, ⟨65, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S1x4096, .i32⟩
  | .local _ .vmem, ⟨3, _⟩ => ⟨S1x4096, .i32⟩
  | .local _ .vmem, ⟨4, _⟩ => ⟨S1x128x3, .f32⟩
  | .local _ .vmem, ⟨5, _⟩ => ⟨S1x128x3, .f32⟩
  | .local _ .vmem, ⟨6, _⟩ => ⟨S128x3, .f32⟩
  | .local _ .vmem, ⟨7, _⟩ => ⟨S4096x512, .f32⟩
  | .local _ .vmem, ⟨8, _⟩ => ⟨S4096x512, .f32⟩
  | .local _ .vmem, ⟨9, _⟩ => ⟨S4096x1, .f32⟩
  | .local _ .vmem, ⟨10, _⟩ => ⟨S4096x1, .f32⟩
  | .local _ .vmem, ⟨11, _⟩ => ⟨S4096x1, .f32⟩
  | .local _ .vmem, ⟨12, _⟩ => ⟨S4096x1, .f32⟩
  | .local _ .vmem, ⟨13, _⟩ => ⟨S1x512, .f32⟩
  | .local _ .vmem, ⟨14, _⟩ => ⟨S1x512, .f32⟩
  | .local _ .vmem, ⟨15, _⟩ => ⟨S4096x512, .f32⟩
  | .local _ .vmem, ⟨16, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S131072 : S_.BroadcastsInDim S131072 (![] : Fin 0 → Fin S131072.rank)
  shapeCasts_S131072_S1x131072 : S131072.ShapeCasts S1x131072
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  iota_S128x4096_d0_w32 : S128x4096.Iotas .tc 32 [0]
  shapeCasts_S4096_S1x4096 : S4096.ShapeCasts S1x4096
  broadcasts_S1x4096_S128x4096 : S1x4096.Broadcasts S128x4096
  natLt_1_32 : 1 < 32
  reduces_S128x512_S128 : S128x512.Reduces [1] S128
  shapeCasts_S128_S128x1 : S128.ShapeCasts S128x1
  concatenates_S128x1_S128x1_S128x1_S128x3_d1 : Shape.Concatenates [S128x1, S128x1, S128x1] S128x3 1
  shapeCasts_S128x3_S1x128x3 : S128x3.ShapeCasts S1x128x3
  inb_S1x128x3_S1x128x3_0_0_0 : ∀ a, (![0, 0, 0] : Fin 3 → Nat) a + S1x128x3.size a ≤ S1x128x3.size a
  h_S1x128x3 : 0 < S1x128x3.numel
  reducesTo_S2x128x3_S128x3_d0 : S2x128x3.ReducesTo [0] S128x3
  h_S_ : 0 < S_.numel
  slices_S128x3_S16x1_0_2 : S128x3.Slices ![0, 2] S16x1
  shapeCasts_S16x1_S16 : S16x1.ShapeCasts S16
  bcast_S_S16 : S_.BroadcastsInDim S16 (![] : Fin 0 → Fin S16.rank)
  slices_S128x3_S16x1_0_0 : S128x3.Slices ![0, 0] S16x1
  slices_S128x3_S16x1_0_1 : S128x3.Slices ![0, 1] S16x1
  bcast_S131072_S131072x1_0 : S131072.BroadcastsInDim S131072x1 (![0] : Fin 1 → Fin S131072x1.rank)
  shapeCasts_S131072_S131072x1 : S131072.ShapeCasts S131072x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x512 : S4096x1.Broadcasts S4096x512
  inb_S1x512_S1x512_0_0 : ∀ a, (![0, 0] : Fin 2 → Nat) a + S1x512.size a ≤ S1x512.size a
  h_S1x512 : 0 < S1x512.numel
  broadcasts_S1x512_S4096x512 : S1x512.Broadcasts S4096x512
  dot_S128x4096_S4096x512_S128x512_1_0_0_1_n_n_wf : DotDims.WF S128x4096 S4096x512 S128x512 [1] [0] [0] [1] [] []
  dot_S128x4096_S4096x1_S128x1_1_0_0_1_n_n_wf : DotDims.WF S128x4096 S4096x1 S128x1 [1] [0] [0] [1] [] []
  gather_S16_S131072x1_S131072_n_0_n_n_0_1_1_wf : GatherDims.WF S16 S131072x1 S131072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x131072.size a
  hwx0_1 : ∀ i : grid0.Coords, EltTy.bits .i32 = 32 ∨ (Rect.block (s := S1x131072) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3.size a ≤ S2x128x3.size a
  hwx0_2 : ∀ i : grid0.Coords, EltTy.bits .f32 = 32 ∨ (Rect.block (s := S2x128x3) S1x128x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S131072x512.size a
  hwx1_0 : ∀ i : grid1.Coords, EltTy.bits .f32 = 32 ∨ (Rect.block (s := S131072x512) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .f32 = 32 ∨ (Rect.block (s := S131072x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x512.size a ≤ S131072x512.size a
  hwx1_5 : ∀ i : grid1.Coords, EltTy.bits .f32 = 32 ∨ (Rect.block (s := S131072x512) S4096x512.size (cc1_transform_5 i) (hinb1_5 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf
def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4096x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x512 : Shape := ⟨2, ![131072, 512]⟩
abbrev S1x512 : Shape := ⟨2, ![1, 512]⟩
abbrev S131072 : Shape := ⟨1, ![131072]⟩
abbrev S_ : Shape := ⟨0, ![]⟩
abbrev S16 : Shape := ⟨1, ![16]⟩
abbrev S131072x1 : Shape := ⟨2, ![131072, 1]⟩
abbrev S16x512 : Shape := ⟨2, ![16, 512]⟩
abbrev S16x1 : Shape := ⟨2, ![16, 1]⟩

abbrev nBuf : Space → Nat
  | .hbm => 71
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1x512, .f32⟩
  | .hbm, ⟨2, _⟩ => ⟨S1x512, .f32⟩
  | .hbm, ⟨3, _⟩ => ⟨S131072, .i32⟩
  | .hbm, ⟨4, _⟩ => ⟨S_, .f32⟩
  | .hbm, ⟨5, _⟩ => ⟨S131072, .f32⟩
  | .hbm, ⟨6, _⟩ => ⟨S_, .f32⟩
  | .hbm, ⟨7, _⟩ => ⟨S16, .f32⟩
  | .hbm, ⟨8, _⟩ => ⟨S131072x1, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S131072, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S_, .f32⟩
  | .hbm, ⟨19, _⟩ => ⟨S16, .f32⟩
  | .hbm, ⟨20, _⟩ => ⟨S131072x1, .i32⟩
  | .hbm, ⟨21, _⟩ => ⟨S16, .f32⟩
  | .hbm, ⟨22, _⟩ => ⟨S16, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072, .f32⟩
  | .hbm, ⟨32, _⟩ => ⟨S131072x1, .f32⟩
  | .hbm, ⟨33, _⟩ => ⟨S131072x512, .f32⟩
  | .hbm, ⟨34, _⟩ => ⟨S131072x512, .f32⟩
  | .hbm, ⟨35, _⟩ => ⟨S131072x512, .f32⟩
  | .hbm, ⟨36, _⟩ => ⟨S_, .f32⟩
  | .hbm, ⟨37, _⟩ => ⟨S16x512, .f32⟩
  | .hbm, ⟨38, _⟩ => ⟨S131072x1, .i32⟩
  | .hbm, ⟨39, _⟩ => ⟨S16x512, .f32⟩
  | .hbm, ⟨40, _⟩ => ⟨S16x1, .f32⟩
  | .hbm, ⟨41, _⟩ => ⟨S16x512, .f32⟩
  | .hbm, ⟨42, _⟩ => ⟨S16x512, .f32⟩
  | .hbm, ⟨43, _⟩ => ⟨S_, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S131072x1, .i32⟩
  | .hbm, ⟨63, _⟩ => ⟨S131072, .f32⟩
  | .hbm, ⟨64, _⟩ => ⟨S131072x1, .f32⟩
  | .hbm, ⟨65, _⟩ => ⟨S131072x512, .f32⟩
  | .hbm, ⟨66, _⟩ => ⟨S131072x512, .f32⟩
  | .hbm, ⟨67, _⟩ => ⟨S131072x512, .f32⟩
  | .hbm, ⟨68, _⟩ => ⟨S131072x512, .f32⟩
  | .hbm, ⟨69, _⟩ => ⟨S131072x512, .f32⟩
  | .hbm, ⟨70, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S16 : S_.BroadcastsInDim S16 (![] : Fin 0 → Fin S16.rank)
  bcast_S131072_S131072x1_0 : S131072.BroadcastsInDim S131072x1 (![0] : Fin 1 → Fin S131072x1.rank)
  reducesTo_S131072x512_S131072_d1 : S131072x512.ReducesTo [1] S131072
  h_S_ : 0 < S_.numel
  bcast_S131072x1_S131072x512_0_1 : S131072x1.BroadcastsInDim S131072x512 (![0, 1] : Fin 2 → Fin S131072x512.rank)
  bcast_S_S16x512 : S_.BroadcastsInDim S16x512 (![] : Fin 0 → Fin S16x512.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  reducesTo_S16x512_S16_d1 : S16x512.ReducesTo [1] S16
  bcast_S1x512_S131072x512_0_1 : S1x512.BroadcastsInDim S131072x512 (![0, 1] : Fin 2 → Fin S131072x512.rank)
  scatter_S16_S131072x1_S131072_n_0_0_1_wf : ScatterDims.WF S16 S131072x1 S131072 [] [0] [0] 1
  gather_S16_S131072x1_S131072_n_0_n_n_0_1_1_wf : GatherDims.WF S16 S131072x1 S131072 [] [0] [] [0] [] 1 ![1]
  scatter_S16x512_S131072x1_S131072x512_1_0_0_1_wf : ScatterDims.WF S16x512 S131072x1 S131072x512 [1] [0] [0] 1

variable [Facts₀]

def scatter_S16_S131072x1_S131072_n_0_0_1 : ScatterDims S16 S131072x1 S131072 where
  updateWindowDims := []
  insertedWindowDims := [0]
  scatterDimsToOperandDims := [0]
  indexVectorDim := 1
  wf := scatter_S16_S131072x1_S131072_n_0_0_1_wf
def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf
def scatter_S16x512_S131072x1_S131072x512_1_0_0_1 : ScatterDims S16x512 S131072x1 S131072x512 where
  updateWindowDims := [1]
  insertedWindowDims := [0]
  scatterDimsToOperandDims := [0]
  indexVectorDim := 1
  wf := scatter_S16x512_S131072x1_S131072x512_1_0_0_1_wf

class Facts : Prop extends Facts₀ where

variable [Facts]
-- ==== Proof.StatsRuns.lean ====
/- The statistics region of the kernel (pipeline 0), first half: its grid's three control cases, where its windows
   are idle, the memrefs its body is called with, and the body's run in each case. Generic in the float type. -/
import proofs.«418694_j85023172591851_3_alg».proof.Proof.Gen.KernelIdeal.Launch
import proofs.«418694_j85023172591851_3_alg».proof.Proof.Gen.KernelIdeal.Skeleton
import proofs.«418694_j85023172591851_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents (`View.cover_of_tiledL`): the structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the statistics region is entered: the parameter everything here is stated at
variable (V : (c : Dev nD) → (b : Ref sig .tc) → Buf (Elt F) ((c : Thread nD τ).loc b))

/-! # The statistics region (pipeline 0): what its three control cases share

The grid is (2, 16): point `t` is core-half `t / 16`, step `j = t % 16`. At `j = 0` the body first resets the
accumulator (the scratch, 128×3) to zero; at every step it adds the block's partial sums; at `j = 15` it copies
the accumulator into the output block. So three cases: A (`j = 0`), B (`0 < j < 15`), C (`j = 15`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block)'s current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the group indices' block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The reset's condition (`j = 0`), from the grid coordinates, as the body computes it. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16): decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The copy-out's condition (`j = 15`). -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output block is idle (nothing is stored into it) and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same at the points of case B. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the points of case C the output block is live: the accumulator is copied into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated (the choice does not matter). -/
abbrev VO0_2 : View sig .tc .vmem S1x128x3 .f32 := (Memref.whole cc0_stg2_0 : Memref sig .tc .vmem S1x128x3 .f32).view
/-- Each window's current staging memref at point `t`, spelled as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows and CARRIED between points. -/
abbrev scM0_0 : Memref sig .tc .vmem S128x3 .f32 := Memref.whole cc0_scratch0
/-- The same as a view: what it holds is stated through it. -/
abbrev VS0_0 : View sig .tc .vmem S128x3 .f32 := scM0_0.view

/-- The core's other scoped buffers that are no staging buffer of this pipeline (the next region's staging buffers),
    each whole at some contents: the body never touches them. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant with the accumulator as a memref owned at some contents, the other scoped buffers beside it,
    then the generator register: what the body obligation hands the run and takes back. -/
theorem PhiA0_eq (c : Dev nD) :
    (Pipeline.ΦA spec0 c : sProp 𝕄)
      = iprop(iprop((∃ d, owns (c : Thread nD τ) scM0_0 fullShare d) ∗ otherScoped0 (F := F) c) ∗ (∃ r, prngReg c r)) := by
  unfold Pipeline.ΦA; rw [scopedRest0_eq]; simp only [scM0_0, owns_whole]; try rfl

/-! ## The body on any whole memrefs, case by case: a subtype the run finds -/

-- (the run's proof term is large: the definition's epilogue walks it past the default budget)
set_option maxHeartbeats 1000000 in
/-- CASE A (`j = 0`: reset taken, copy-out not). What the body's stores leave in the accumulator, as pieces (last
    first), WITH the proof that on whole memrefs — the two inputs' at their contents `x0`, `x1`, the idle output's at
    contents `xi2` handed back untouched, the accumulator at anything (it is reset before it is read for the sum) — the
    body runs to the continuation holding the inputs' as they were and the accumulator with its pieces written. -/
noncomputable def kernelRun0_A (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) :
    Σ' (L2 : List (View.Piece (Elt F) S1x128x3 .f32)), { LS0 : List (View.Piece (Elt F) S128x3 .f32) //
      ∀ (xi2 : Vec F S1x128x3 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (`0 < j < 15`: neither branch). The accumulator comes at what the point before left (`xs0`); the rest as in
    case A. -/
noncomputable def kernelRun0_B (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) :
    Σ' (L2 : List (View.Piece (Elt F) S1x128x3 .f32)), { LS0 : List (View.Piece (Elt F) S128x3 .f32) //
      ∀ (xi2 : Vec F S1x128x3 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (`j = 15`: no reset, copy-out taken). The accumulator comes at what the point before left (`xs0`), the
    output's buffer at anything (it is stored whole); the body ends with the output's pieces written too. -/
noncomputable def kernelRun0_C (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) :
    Σ' (L2 : List (View.Piece (Elt F) S1x128x3 .f32)), { LS0 : List (View.Piece (Elt F) S128x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.StatsFrame.lean ====
/- The statistics region of the kernel (pipeline 0), second half: what the output block and the accumulator hold after
   each point, the pipeline's proof data and its body obligation. Generic in the float type. -/
import proofs.«418694_j85023172591851_3_alg».proof.Proof.StatsRuns

-- membership in a rectangle of long extents (`View.cover_of_tiledL`): the structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the statistics region is entered: the parameter everything here is stated at
variable (V : (c : Dev nD) → (b : Ref sig .tc) → Buf (Elt F) ((c : Thread nD τ).loc b))

/-! # The statistics region (pipeline 0), second half: what the output block and the accumulator hold, point by point -/

/-! ## What each case leaves -/

/-- Case A stores nothing into the output block (idle at its points and not written back there): no pieces — a
    placeholder (junk read back) that nothing consults. -/
def out0_A_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) : Vec F S1x128x3 .f32 :=
  VO0_2.read (Elt F) (VO0_2.writes (Elt F) VO0_2.junk (kernelRun0_A c i arg2 harg2 arg3 harg3 arg4 harg4 arg5 harg5 hc0 hc1 x0 x1).1)

/-- Case A's pieces for the accumulator cover it: the reset and the sum are both stored whole. -/
theorem scover0_A_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) (y : S128x3.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x3.size (by sl_kernel_rfl) y

/-- What case A leaves in the accumulator: its pieces read back over junk. -/
def sout0_A_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) : Vec F S128x3 .f32 :=
  VS0_0.read (Elt F) (VS0_0.writes (Elt F) VS0_0.junk (kernelRun0_A c i arg2 harg2 arg3 harg3 arg4 harg4 arg5 harg5 hc0 hc1 x0 x1).2.1)

/-- Case B stores nothing into the output block either. -/
def out0_B_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) : Vec F S1x128x3 .f32 :=
  VO0_2.read (Elt F) (VO0_2.writes (Elt F) VO0_2.junk (kernelRun0_B c i arg2 harg2 arg3 harg3 arg4 harg4 arg5 harg5 hc0 hc1 x0 x1 xs0).1)

/-- Case B's piece for the accumulator covers it: the sum is stored whole. -/
theorem scover0_B_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) (y : S128x3.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x3.size (by sl_kernel_rfl) y

/-- What case B leaves in the accumulator. -/
def sout0_B_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) : Vec F S128x3 .f32 :=
  VS0_0.read (Elt F) (VS0_0.writes (Elt F) VS0_0.junk (kernelRun0_B c i arg2 harg2 arg3 harg3 arg4 harg4 arg5 harg5 hc0 hc1 x0 x1 xs0).2.1)

/-- Case C's piece for the output block covers it: the accumulator is copied into it whole. -/
theorem cover0_C_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) (y : S1x128x3.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x3.size (by sl_kernel_rfl) y

/-- What case C leaves in the output block's staging buffer: its piece read back over junk. -/
def out0_C_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) : Vec F S1x128x3 .f32 :=
  VO0_2.read (Elt F) (VO0_2.writes (Elt F) VO0_2.junk (kernelRun0_C c i arg2 harg2 arg3 harg3 arg4 harg4 arg5 harg5 hc0 hc1 x0 x1 xs0).1)

/-- Case C's piece for the accumulator covers it. -/
theorem scover0_C_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) (y : S128x3.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x3.size (by sl_kernel_rfl) y

/-- What case C leaves in the accumulator. -/
def sout0_C_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) : Vec F S128x3 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION. What the output block's staging buffer and the accumulator hold after the body at position `n`
    (a pair: the output block, then the accumulator): the case `n % 16` selects, run at the point's memrefs and the two
    input blocks, the accumulator coming at what this leaves at `n - 1`. -/
def outsAt0 (c : Dev nD) : (n : ℕ) → n < cfg0.N → Vec F S1x128x3 .f32 × Vec F S128x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it (`outsAt0`'s second component), the other scoped
    buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ otherScoped0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 (F := F) c) ∗ (∃ r, prngReg c r)) := by
  cases n with
  | zero => exact absurd rfl hz
  | succ n => rfl

/-! ## The pipeline's proof data -/

/-- The proof data of the statistics pipeline on core `c`: the arrays as the region finds them (`V`); after the body at
    point `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; `t % 16` says which case the point is in; the invariant
    hands the body the accumulator at what the point before left (at anything at the first point) and takes it back at
    this point's contents; the other scoped buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · -- case A: the reset, then the block's sums
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · -- the first point: the accumulator comes at anything
        rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · -- a later first step of a core-half: the accumulator's contents are forgotten
        rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · -- case C: the block's sums, then the copy into the output block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · -- case B: the block's sums only
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.NormFrame.lean ====
/- REGION 1 of the kernel (the normalisation pass `cc1__norm_kernel`), its class-A half, at any float model `F` and
   at a PARAMETER `V` — the TensorCore's buffer contents when the region is entered.

   The pass runs over 32 row blocks. At point `t` it finds block `t` of the data `x` (4096 × 512), block `t` of the
   two per-row columns (the row's centre `μ` and the row's scale `σ`, 4096 × 1 each) and the whole of the two per-column
   rows (weight `w` and bias `b`, 1 × 512 each: these two windows have a constant block index, so they are fetched at the
   first point only and stay in place), and stores `((x − μ)·σ)·w + b` over the whole output block, which is written
   back at every point. Stated here: each window's block at a point (`iblk1`), what the body finds in each input's
   staging buffer (`before1_W`: the block, fetched there or not), what it leaves in the output's (`out1_5`: the one
   store's payload over the whole-block rectangle), the body's triple (`sound_kernel1`), the proof data (`dat1`) and the
   body obligation (`body_obligation1`). -/
import proofs.«418694_j85023172591851_3_alg».proof.Proof.Gen.KernelIdeal.Launch
import proofs.«418694_j85023172591851_3_alg».proof.Proof.Gen.KernelIdeal.Skeleton
import proofs.«418694_j85023172591851_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # The normalisation pass, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the data block): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the rows' centres): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the rows' scales): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the weight row, fetched at the first point only): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, fetched at the first point only): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S4096x512 := Rect.unit (s := S4096x512) ![0, 0] S4096x512.size inb_S4096x512_S4096x512_0_0
abbrev r1_1 : Rect S4096x1 := Rect.unit (s := S4096x1) ![0, 0] S4096x1.size inb_S4096x1_S4096x1_0_0
abbrev r1_2 : Rect S1x512 := Rect.unit (s := S1x512) ![0, 0] S1x512.size inb_S1x512_S1x512_0_0

/-! ## What the body leaves in the output window's buffer -/

/-- Window 5's staging buffer after the body, from the input windows' blocks: its one store — `((x − μ)·σ)·w + b`
    of the loaded blocks (the skeleton's payload `k1_pay1`) — through the whole-block rectangle. -/
def out1_5 (x0 : Vec F S4096x512 .f32) (x1 x2 : Vec F S4096x1 .f32) (x3 x4 : Vec F S1x512 .f32) : Vec F S4096x512 .f32 :=
  View.canon [⟨r1_0, k1_pay1 (View.ld x0 r1_0) (View.ld x1 r1_1) (View.ld x2 r1_1) (View.ld x3 r1_2) (View.ld x4 r1_2)⟩]

/-- The one store's rectangle is the whole buffer, so it covers it. -/
theorem cover1_5 (p0 : Vec F S4096x512 .f32) (y : S4096x512.Idx) :
    ∃ pc ∈ ([⟨r1_0, p0⟩] : List (View.Piece (Elt F) S4096x512 .f32)), y ∈ pc.1.set :=
  View.cover_of_tiled [⟨r1_0, p0⟩] S4096x512.size (by rfl) y

/-! ## The body's triple -/

set_option maxHeartbeats 1000000 in
/-- The kernel body on whole staging memrefs, the inputs' at read contents `xW` and the output's at anything, runs to
    the continuation holding the inputs' as they were and the output's at `out1_5` of the inputs': the printed function
    is its skeleton of five loads of the inputs, one (unused) load of the output's buffer and one store. -/
theorem sound_kernel1 (c : Dev nD) (E : Set ℕ) (i : grid1.Coords)
    (arg1 : Memref sig .tc .vmem S4096x512 .f32) (harg1 : arg1.IsWhole) (arg2 : Memref sig .tc .vmem S4096x1 .f32) (harg2 : arg2.IsWhole)
    (arg3 : Memref sig .tc .vmem S4096x1 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S4096x512 .f32) (harg6 : arg6.IsWhole)
    (x0 : Vec F S4096x512 .f32) (x1 x2 : Vec F S4096x1 .f32) (x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pass on core `c`: the arrays as the region finds them (`V`); after the body at point `t` each
    input's buffer at its block and the output's at `out1_5` of the input blocks; the invariant the class's (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  THE RUN of the kernel's @main, at any float model: three host stretches (the segment ids clipped into [0, 15] and laid
  out as one row), the statistics pass (region 0), the host stretch that turns the per-core sums into each row's centre
  and scale, and the normalisation pass (region 1).

  The buffers' contents at each boundary are a fold from the launch memory: a host stretch applies its operations, a
  region leaves each of its arrays at what its write-backs fold to and every other buffer as it found it. Over these
  boundaries each region is a segment whose proof data is stated at its entry contents: region 0's invariant names the
  accumulator it carries from point to point, region 1's is the untouched rest. The launch over the six segments gives:
  every weakly fair execution terminates, nothing faults, and every unscoped buffer ends at the last boundary's
  contents — hence the four argument arrays end as launched (the frame), and the result array ends at region 1's
  folded write-backs.
-/
import proofs.«418694_j85023172591851_3_alg».proof.Proof.Gen.KernelIdeal.Launch
import proofs.«418694_j85023172591851_3_alg».proof.Proof.Gen.KernelIdeal.Skeleton
import proofs.«418694_j85023172591851_3_alg».proof.Proof.Gen.KernelIdeal.Points
import proofs.«418694_j85023172591851_3_alg».proof.Proof.Gen.KernelIdeal.Regions
import proofs.«418694_j85023172591851_3_alg».proof.Proof.StatsFrame
import proofs.«418694_j85023172591851_3_alg».proof.Proof.NormFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory

Before region 0 the contents are the launch memory after the three host stretches (the clip of the segment ids and
its reshape); a region leaves its arrays at what its write-backs fold to and every other buffer as entered. -/

/-- The contents when region 0 is entered, read at the TensorCore's references. -/
abbrev E3 : (c : Dev nD) → (b : Ref sig .tc) → Buf (Elt F) ((c : Thread nD τ).loc b) := fun c b => Gen.V3 m c b

/-- At region 0's exit: its arrays at what the pipeline leaves, every other buffer as entered. -/
def Bd4 (c : Dev nD) : Valuation τ sig (Elt F) :=
  Pipeline.withArrays spec0 c (Gen.V3 m c) fun w => (dat0 (E3 m) c).arrAt w cfg0.N
theorem Bd4_arr (c : Dev nD) (w : Fin cfg0.W) :
    Bd4 m c (Proc.devRef .tc (Pipeline.arrRef spec0 w)) = (dat0 (E3 m) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m c (Proc.devRef .tc b) = Gen.V3 m c (Proc.devRef .tc b) := by
  unfold Bd4; exact Pipeline.withArrays_of_ne spec0 c _ _ b hb
abbrev E4 : (c : Dev nD) → (b : Ref sig .tc) → Buf (Elt F) ((c : Thread nD τ).loc b) := fun c b => Bd4 m c b
theorem hF0 (c : Dev nD) (w : Fin cfg0.W) : (dat0 (E3 m) c).arrAt w cfg0.N = E4 m c (Pipeline.arrRef spec0 w) :=
  (Bd4_arr m c w).symm
theorem hrest0 (c : Dev nD) : ∀ b, b ∉ Finset.univ.image (Pipeline.arrRef spec0) → E4 m c b = E3 m c b :=
  fun b hb => Bd4_of_ne m c b fun w e => hb (Finset.mem_image.mpr ⟨w, Finset.mem_univ _, e⟩)

/-- After the host stretch between the regions (the per-segment mean and inverse deviation, gathered per row). -/
abbrev Bd5 : Dev nD → Valuation τ sig (Elt F) := fun c => StableHlo.after hostOps1 (Bd4 m c)
abbrev E5 : (c : Dev nD) → (b : Ref sig .tc) → Buf (Elt F) ((c : Thread nD τ).loc b) := fun c b => Bd5 m c b
/-- At region 1's exit. -/
def Bd6 (c : Dev nD) : Valuation τ sig (Elt F) :=
  Pipeline.withArrays spec1 c (Bd5 m c) fun w => (dat1 (E5 m) c).arrAt w cfg1.N
theorem Bd6_arr (c : Dev nD) (w : Fin cfg1.W) :
    Bd6 m c (Proc.devRef .tc (Pipeline.arrRef spec1 w)) = (dat1 (E5 m) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m c (Proc.devRef .tc b) = Bd5 m c (Proc.devRef .tc b) := by
  unfold Bd6; exact Pipeline.withArrays_of_ne spec1 c _ _ b hb
abbrev E6 : (c : Dev nD) → (b : Ref sig .tc) → Buf (Elt F) ((c : Thread nD τ).loc b) := fun c b => Bd6 m c b
theorem hF1 (c : Dev nD) (w : Fin cfg1.W) : (dat1 (E5 m) c).arrAt w cfg1.N = E6 m c (Pipeline.arrRef spec1 w) :=
  (Bd6_arr m c w).symm
theorem hrest1 (c : Dev nD) : ∀ b, b ∉ Finset.univ.image (Pipeline.arrRef spec1) → E6 m c b = E5 m c b :=
  fun b hb => Bd6_of_ne m c b fun w e => hb (Finset.mem_image.mpr ⟨w, Finset.mem_univ _, e⟩)

/-- A buffer the host stretch between the regions does not write keeps region 0's exit contents. -/
theorem Bd5_of (c : Dev nD) (r : Ref sig .tc) (h : r ∉ hostOps1_W) : Bd5 m c r = Bd4 m c r :=
  StableHlo.after_of_writes_sub hostOps1 _ hostOps1_writes h

/-! ### The arguments end as launched -/

theorem V3_launch (c : Dev nD) (r : Ref sig .tc) (h2 : r ∉ hostOps0_2_W) (h1 : r ∉ hostOps0_1_W) (h0 : r ∉ hostOps0_W) :
    Gen.V3 m c r = m ((c : Thread nD τ).loc r) :=
  (Gen.V3_of m c r h2).trans <| (Gen.V2_of m c r h1).trans <| (Gen.V1_of m c r h0).trans rfl

theorem Bd6_main_arg0 (c : Dev nD) : Bd6 m c (Proc.devRef .tc main_arg0) = m ((c : Thread nD τ).loc main_arg0) :=
  calc Bd6 m c (Proc.devRef .tc main_arg0)
    _ = Bd5 m c (Proc.devRef .tc main_arg0) := (Bd6_arr m c 0).trans (((dat1 (E5 m) c).arrAt_in 0 rfl _).trans (A_eq1 (E5 m) c 0))
    _ = Bd4 m c (Proc.devRef .tc main_arg0) := Bd5_of m c main_arg0 (by decide)
    _ = Gen.V3 m c (Proc.devRef .tc main_arg0) := (Bd4_arr m c 0).trans (((dat0 (E3 m) c).arrAt_in 0 rfl _).trans (A_eq0 (E3 m) c 0))
    _ = m ((c : Thread nD τ).loc main_arg0) := V3_launch m c main_arg0 (by decide) (by decide) (by decide)
theorem Bd6_main_arg1 (c : Dev nD) : Bd6 m c (Proc.devRef .tc main_arg1) = m ((c : Thread nD τ).loc main_arg1) :=
  calc Bd6 m c (Proc.devRef .tc main_arg1)
    _ = Bd5 m c (Proc.devRef .tc main_arg1) := (Bd6_arr m c 3).trans (((dat1 (E5 m) c).arrAt_in 3 rfl _).trans (A_eq1 (E5 m) c 3))
    _ = Bd4 m c (Proc.devRef .tc main_arg1) := Bd5_of m c main_arg1 (by decide)
    _ = Gen.V3 m c (Proc.devRef .tc main_arg1) := Bd4_of_ne m c main_arg1 (by decide)
    _ = m ((c : Thread nD τ).loc main_arg1) := V3_launch m c main_arg1 (by decide) (by decide) (by decide)
theorem Bd6_main_arg2 (c : Dev nD) : Bd6 m c (Proc.devRef .tc main_arg2) = m ((c : Thread nD τ).loc main_arg2) :=
  calc Bd6 m c (Proc.devRef .tc main_arg2)
    _ = Bd5 m c (Proc.devRef .tc main_arg2) := (Bd6_arr m c 4).trans (((dat1 (E5 m) c).arrAt_in 4 rfl _).trans (A_eq1 (E5 m) c 4))
    _ = Bd4 m c (Proc.devRef .tc main_arg2) := Bd5_of m c main_arg2 (by decide)
    _ = Gen.V3 m c (Proc.devRef .tc main_arg2) := Bd4_of_ne m c main_arg2 (by decide)
    _ = m ((c : Thread nD τ).loc main_arg2) := V3_launch m c main_arg2 (by decide) (by decide) (by decide)
theorem Bd6_main_arg3 (c : Dev nD) : Bd6 m c (Proc.devRef .tc main_arg3) = m ((c : Thread nD τ).loc main_arg3) :=
  calc Bd6 m c (Proc.devRef .tc main_arg3)
    _ = Bd5 m c (Proc.devRef .tc main_arg3) := Bd6_of_ne m c main_arg3 (by decide)
    _ = Bd4 m c (Proc.devRef .tc main_arg3) := Bd5_of m c main_arg3 (by decide)
    _ = Gen.V3 m c (Proc.devRef .tc main_arg3) := Bd4_of_ne m c main_arg3 (by decide)
    _ = m ((c : Thread nD τ).loc main_arg3) := V3_launch m c main_arg3 (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E3 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (Bd6 m c) ∗ ∃ r, prngReg c r)

/-! ## The regions as segments -/

set_option backward.isDefEq.respectTransparency.types false in
/-- Region 0 over the thread state: entered from every unscoped buffer at the contents after the three host stretches,
    left at its exit contents. Its arrays are split out of the unscoped buffers and put back; the generator register and
    the scoped rest go into the region's invariant (whose carried accumulator is named from the first point on) and
    come back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop(Pipeline.scopedRest (Ix := Unit) (Name := ℕ) (U := UR sig nD τ) (Lvl := ℕ) (Val := Elt F) spec0 c ∗ ∃ r, prngReg c r) : sProp 𝕄)
        ⊢ (pdats m 0 c).Φ 0 := by
      have h := hin0 (E3 m) c; unfold Pipeline.ΦA at h; exact h
    iintro ⟨Hp, -, Hr⟩
    iapply h0
    isplitl [Hr]; · iexact Hr
    iexact Hp
  hout c := by
    rw [Pipeline.ownSems0_none]
    have h0 : (pdats m 0 c).Φ (Fin.last _)
        ⊢ (iprop(Pipeline.scopedRest (Ix := Unit) (Name := ℕ) (U := UR sig nD τ) (Lvl := ℕ) (Val := Elt F) spec0 c ∗ ∃ r, prngReg c r) : sProp 𝕄) := by
      have h := hout0 (E3 m) c; unfold Pipeline.ΦA at h; exact h
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the host stretch between the regions, left at the
    last boundary's contents; its invariant is the scoped rest and the generator register, untouched. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Bd5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (Bd4 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h c => h c)

/-- THE FRAME at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_main m ρ)

/-- The run with the result named: the output array ends at what region 1's write-backs fold to. -/
theorem run_out : θ_run defs (onTc (τ := τ) (main (F := F))) ⟨m, fun _ => 0, ρ⟩ (fun r => ∀ c : Dev nD,
      r.2.mem ((c.tc : Thread nD τ).loc main_v43) = (dat1 (E5 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v43 (by decide))).trans (Bd6_arr m c 5),
     (h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_main m ρ)

end Cert.KernelIdeal.Hand

end
-- ==== Proof.KStatsRuns.lean ====
/- The statistics region of the kernel (pipeline 0), first half: its grid's three control cases, where its windows
   are idle, the memrefs its body is called with, and the body's run in each case. Generic in the float type. -/
import proofs.«418694_j85023172591851_3_alg».proof.Proof.Gen.Kernel.Launch
import proofs.«418694_j85023172591851_3_alg».proof.Proof.Gen.Kernel.Skeleton
import proofs.«418694_j85023172591851_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents (`View.cover_of_tiledL`): the structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the statistics region is entered: the parameter everything here is stated at
variable (V : (c : Dev nD) → (b : Ref sig .tc) → Buf (Elt F) ((c : Thread nD τ).loc b))

/-! # The statistics region (pipeline 0): what its three control cases share

The grid is (2, 16): point `t` is core-half `t / 16`, step `j = t % 16`. At `j = 0` the body first resets the
accumulator (the scratch, 128×3) to zero; at every step it adds the block's partial sums; at `j = 15` it copies
the accumulator into the output block. So three cases: A (`j = 0`), B (`0 < j < 15`), C (`j = 15`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block)'s current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the group indices' block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The reset's condition (`j = 0`), from the grid coordinates, as the body computes it. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16): decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The copy-out's condition (`j = 15`). -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output block is idle (nothing is stored into it) and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same at the points of case B. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the points of case C the output block is live: the accumulator is copied into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated (the choice does not matter). -/
abbrev VO0_2 : View sig .tc .vmem S1x128x3 .f32 := (Memref.whole cc0_stg2_0 : Memref sig .tc .vmem S1x128x3 .f32).view
/-- Each window's current staging memref at point `t`, spelled as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows and CARRIED between points. -/
abbrev scM0_0 : Memref sig .tc .vmem S128x3 .f32 := Memref.whole cc0_scratch0
/-- The same as a view: what it holds is stated through it. -/
abbrev VS0_0 : View sig .tc .vmem S128x3 .f32 := scM0_0.view

/-- The core's other scoped buffers that are no staging buffer of this pipeline (the next region's staging buffers),
    each whole at some contents: the body never touches them. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant with the accumulator as a memref owned at some contents, the other scoped buffers beside it,
    then the generator register: what the body obligation hands the run and takes back. -/
theorem PhiA0_eq (c : Dev nD) :
    (Pipeline.ΦA spec0 c : sProp 𝕄)
      = iprop(iprop((∃ d, owns (c : Thread nD τ) scM0_0 fullShare d) ∗ otherScoped0 (F := F) c) ∗ (∃ r, prngReg c r)) := by
  unfold Pipeline.ΦA; rw [scopedRest0_eq]; simp only [scM0_0, owns_whole]; try rfl

/-! ## The body on any whole memrefs, case by case: a subtype the run finds -/

-- (the run's proof term is large: the definition's epilogue walks it past the default budget)
set_option maxHeartbeats 1000000 in
/-- CASE A (`j = 0`: reset taken, copy-out not). What the body's stores leave in the accumulator, as pieces (last
    first), WITH the proof that on whole memrefs — the two inputs' at their contents `x0`, `x1`, the idle output's at
    contents `xi2` handed back untouched, the accumulator at anything (it is reset before it is read for the sum) — the
    body runs to the continuation holding the inputs' as they were and the accumulator with its pieces written. -/
noncomputable def kernelRun0_A (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) :
    Σ' (L2 : List (View.Piece (Elt F) S1x128x3 .f32)), { LS0 : List (View.Piece (Elt F) S128x3 .f32) //
      ∀ (xi2 : Vec F S1x128x3 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (`0 < j < 15`: neither branch). The accumulator comes at what the point before left (`xs0`); the rest as in
    case A. -/
noncomputable def kernelRun0_B (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) :
    Σ' (L2 : List (View.Piece (Elt F) S1x128x3 .f32)), { LS0 : List (View.Piece (Elt F) S128x3 .f32) //
      ∀ (xi2 : Vec F S1x128x3 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (`j = 15`: no reset, copy-out taken). The accumulator comes at what the point before left (`xs0`), the
    output's buffer at anything (it is stored whole); the body ends with the output's pieces written too. -/
noncomputable def kernelRun0_C (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) :
    Σ' (L2 : List (View.Piece (Elt F) S1x128x3 .f32)), { LS0 : List (View.Piece (Elt F) S128x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KStatsFrame.lean ====
/- The statistics region of the kernel (pipeline 0), second half: what the output block and the accumulator hold after
   each point, the pipeline's proof data and its body obligation. Generic in the float type. -/
import proofs.«418694_j85023172591851_3_alg».proof.Proof.KStatsRuns

-- membership in a rectangle of long extents (`View.cover_of_tiledL`): the structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the statistics region is entered: the parameter everything here is stated at
variable (V : (c : Dev nD) → (b : Ref sig .tc) → Buf (Elt F) ((c : Thread nD τ).loc b))

/-! # The statistics region (pipeline 0), second half: what the output block and the accumulator hold, point by point -/

/-! ## What each case leaves -/

/-- Case A stores nothing into the output block (idle at its points and not written back there): no pieces — a
    placeholder (junk read back) that nothing consults. -/
def out0_A_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) : Vec F S1x128x3 .f32 :=
  VO0_2.read (Elt F) (VO0_2.writes (Elt F) VO0_2.junk (kernelRun0_A c i arg2 harg2 arg3 harg3 arg4 harg4 arg5 harg5 hc0 hc1 x0 x1).1)

/-- Case A's pieces for the accumulator cover it: the reset and the sum are both stored whole. -/
theorem scover0_A_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) (y : S128x3.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x3.size (by sl_kernel_rfl) y

/-- What case A leaves in the accumulator: its pieces read back over junk. -/
def sout0_A_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) : Vec F S128x3 .f32 :=
  VS0_0.read (Elt F) (VS0_0.writes (Elt F) VS0_0.junk (kernelRun0_A c i arg2 harg2 arg3 harg3 arg4 harg4 arg5 harg5 hc0 hc1 x0 x1).2.1)

/-- Case B stores nothing into the output block either. -/
def out0_B_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) : Vec F S1x128x3 .f32 :=
  VO0_2.read (Elt F) (VO0_2.writes (Elt F) VO0_2.junk (kernelRun0_B c i arg2 harg2 arg3 harg3 arg4 harg4 arg5 harg5 hc0 hc1 x0 x1 xs0).1)

/-- Case B's piece for the accumulator covers it: the sum is stored whole. -/
theorem scover0_B_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) (y : S128x3.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x3.size (by sl_kernel_rfl) y

/-- What case B leaves in the accumulator. -/
def sout0_B_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) : Vec F S128x3 .f32 :=
  VS0_0.read (Elt F) (VS0_0.writes (Elt F) VS0_0.junk (kernelRun0_B c i arg2 harg2 arg3 harg3 arg4 harg4 arg5 harg5 hc0 hc1 x0 x1 xs0).2.1)

/-- Case C's piece for the output block covers it: the accumulator is copied into it whole. -/
theorem cover0_C_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) (y : S1x128x3.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x3.size (by sl_kernel_rfl) y

/-- What case C leaves in the output block's staging buffer: its piece read back over junk. -/
def out0_C_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) : Vec F S1x128x3 .f32 :=
  VO0_2.read (Elt F) (VO0_2.writes (Elt F) VO0_2.junk (kernelRun0_C c i arg2 harg2 arg3 harg3 arg4 harg4 arg5 harg5 hc0 hc1 x0 x1 xs0).1)

/-- Case C's piece for the accumulator covers it. -/
theorem scover0_C_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) (y : S128x3.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x3.size (by sl_kernel_rfl) y

/-- What case C leaves in the accumulator. -/
def sout0_C_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) : Vec F S128x3 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION. What the output block's staging buffer and the accumulator hold after the body at position `n`
    (a pair: the output block, then the accumulator): the case `n % 16` selects, run at the point's memrefs and the two
    input blocks, the accumulator coming at what this leaves at `n - 1`. -/
def outsAt0 (c : Dev nD) : (n : ℕ) → n < cfg0.N → Vec F S1x128x3 .f32 × Vec F S128x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it (`outsAt0`'s second component), the other scoped
    buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ otherScoped0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 (F := F) c) ∗ (∃ r, prngReg c r)) := by
  cases n with
  | zero => exact absurd rfl hz
  | succ n => rfl

/-! ## The pipeline's proof data -/

/-- The proof data of the statistics pipeline on core `c`: the arrays as the region finds them (`V`); after the body at
    point `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; `t % 16` says which case the point is in; the invariant
    hands the body the accumulator at what the point before left (at anything at the first point) and takes it back at
    this point's contents; the other scoped buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · -- case A: the reset, then the block's sums
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · -- the first point: the accumulator comes at anything
        rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · -- a later first step of a core-half: the accumulator's contents are forgotten
        rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · -- case C: the block's sums, then the copy into the output block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · -- case B: the block's sums only
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KNormFrame.lean ====
/- REGION 1 of the kernel (the normalisation pass `cc1__norm_kernel`), its class-A half, at any float model `F` and
   at a PARAMETER `V` — the TensorCore's buffer contents when the region is entered.

   The pass runs over 32 row blocks. At point `t` it finds block `t` of the data `x` (4096 × 512), block `t` of the
   two per-row columns (the row's centre `μ` and the row's scale `σ`, 4096 × 1 each) and the whole of the two per-column
   rows (weight `w` and bias `b`, 1 × 512 each: these two windows have a constant block index, so they are fetched at the
   first point only and stay in place), and stores `((x − μ)·σ)·w + b` over the whole output block, which is written
   back at every point. Stated here: each window's block at a point (`iblk1`), what the body finds in each input's
   staging buffer (`before1_W`: the block, fetched there or not), what it leaves in the output's (`out1_5`: the one
   store's payload over the whole-block rectangle), the body's triple (`sound_kernel1`), the proof data (`dat1`) and the
   body obligation (`body_obligation1`). -/
import proofs.«418694_j85023172591851_3_alg».proof.Proof.Gen.Kernel.Launch
import proofs.«418694_j85023172591851_3_alg».proof.Proof.Gen.Kernel.Skeleton
import proofs.«418694_j85023172591851_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # The normalisation pass, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the data block): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the rows' centres): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the rows' scales): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the weight row, fetched at the first point only): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, fetched at the first point only): its current staging buffer holds its block at every point, fetched there or not, for ANY
    proof data whose array is `V`'s (`hA`) and whose body leaves the block in place (`hafter`): an input not fetched
    at a point has the block index of the point before, so the buffer still holds this point's block
    (`Dat.before_in_eq_fetched`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S4096x512 := Rect.unit (s := S4096x512) ![0, 0] S4096x512.size inb_S4096x512_S4096x512_0_0
abbrev r1_1 : Rect S4096x1 := Rect.unit (s := S4096x1) ![0, 0] S4096x1.size inb_S4096x1_S4096x1_0_0
abbrev r1_2 : Rect S1x512 := Rect.unit (s := S1x512) ![0, 0] S1x512.size inb_S1x512_S1x512_0_0

/-! ## What the body leaves in the output window's buffer -/

/-- Window 5's staging buffer after the body, from the input windows' blocks: its one store — `((x − μ)·σ)·w + b`
    of the loaded blocks (the skeleton's payload `k1_pay1`) — through the whole-block rectangle. -/
def out1_5 (x0 : Vec F S4096x512 .f32) (x1 x2 : Vec F S4096x1 .f32) (x3 x4 : Vec F S1x512 .f32) : Vec F S4096x512 .f32 :=
  View.canon [⟨r1_0, k1_pay1 (View.ld x0 r1_0) (View.ld x1 r1_1) (View.ld x2 r1_1) (View.ld x3 r1_2) (View.ld x4 r1_2)⟩]

/-- The one store's rectangle is the whole buffer, so it covers it. -/
theorem cover1_5 (p0 : Vec F S4096x512 .f32) (y : S4096x512.Idx) :
    ∃ pc ∈ ([⟨r1_0, p0⟩] : List (View.Piece (Elt F) S4096x512 .f32)), y ∈ pc.1.set :=
  View.cover_of_tiled [⟨r1_0, p0⟩] S4096x512.size (by rfl) y

/-! ## The body's triple -/

set_option maxHeartbeats 1000000 in
/-- The kernel body on whole staging memrefs, the inputs' at read contents `xW` and the output's at anything, runs to
    the continuation holding the inputs' as they were and the output's at `out1_5` of the inputs': the printed function
    is its skeleton of five loads of the inputs, one (unused) load of the output's buffer and one store. -/
theorem sound_kernel1 (c : Dev nD) (E : Set ℕ) (i : grid1.Coords)
    (arg1 : Memref sig .tc .vmem S4096x512 .f32) (harg1 : arg1.IsWhole) (arg2 : Memref sig .tc .vmem S4096x1 .f32) (harg2 : arg2.IsWhole)
    (arg3 : Memref sig .tc .vmem S4096x1 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S4096x512 .f32) (harg6 : arg6.IsWhole)
    (x0 : Vec F S4096x512 .f32) (x1 x2 : Vec F S4096x1 .f32) (x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pass on core `c`: the arrays as the region finds them (`V`); after the body at point `t` each
    input's buffer at its block and the output's at `out1_5` of the input blocks; the invariant the class's (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  THE RUN of the kernel's @main, at any float model: three host stretches (the segment ids clipped into [0, 15] and laid
  out as one row), the statistics pass (region 0), the host stretch that turns the per-core sums into each row's centre
  and scale, and the normalisation pass (region 1).

  The buffers' contents at each boundary are a fold from the launch memory: a host stretch applies its operations, a
  region leaves each of its arrays at what its write-backs fold to and every other buffer as it found it. Over these
  boundaries each region is a segment whose proof data is stated at its entry contents: region 0's invariant names the
  accumulator it carries from point to point, region 1's is the untouched rest. The launch over the six segments gives:
  every weakly fair execution terminates, nothing faults, and every unscoped buffer ends at the last boundary's
  contents — hence the four argument arrays end as launched (the frame), and the result array ends at region 1's
  folded write-backs.
-/
import proofs.«418694_j85023172591851_3_alg».proof.Proof.Gen.Kernel.Launch
import proofs.«418694_j85023172591851_3_alg».proof.Proof.Gen.Kernel.Skeleton
import proofs.«418694_j85023172591851_3_alg».proof.Proof.Gen.Kernel.Points
import proofs.«418694_j85023172591851_3_alg».proof.Proof.Gen.Kernel.Regions
import proofs.«418694_j85023172591851_3_alg».proof.Proof.KStatsFrame
import proofs.«418694_j85023172591851_3_alg».proof.Proof.KNormFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory

Before region 0 the contents are the launch memory after the three host stretches (the clip of the segment ids and
its reshape); a region leaves its arrays at what its write-backs fold to and every other buffer as entered. -/

/-- The contents when region 0 is entered, read at the TensorCore's references. -/
abbrev E3 : (c : Dev nD) → (b : Ref sig .tc) → Buf (Elt F) ((c : Thread nD τ).loc b) := fun c b => Gen.V3 m c b

/-- At region 0's exit: its arrays at what the pipeline leaves, every other buffer as entered. -/
def Bd4 (c : Dev nD) : Valuation τ sig (Elt F) :=
  Pipeline.withArrays spec0 c (Gen.V3 m c) fun w => (dat0 (E3 m) c).arrAt w cfg0.N
theorem Bd4_arr (c : Dev nD) (w : Fin cfg0.W) :
    Bd4 m c (Proc.devRef .tc (Pipeline.arrRef spec0 w)) = (dat0 (E3 m) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m c (Proc.devRef .tc b) = Gen.V3 m c (Proc.devRef .tc b) := by
  unfold Bd4; exact Pipeline.withArrays_of_ne spec0 c _ _ b hb
abbrev E4 : (c : Dev nD) → (b : Ref sig .tc) → Buf (Elt F) ((c : Thread nD τ).loc b) := fun c b => Bd4 m c b
theorem hF0 (c : Dev nD) (w : Fin cfg0.W) : (dat0 (E3 m) c).arrAt w cfg0.N = E4 m c (Pipeline.arrRef spec0 w) :=
  (Bd4_arr m c w).symm
theorem hrest0 (c : Dev nD) : ∀ b, b ∉ Finset.univ.image (Pipeline.arrRef spec0) → E4 m c b = E3 m c b :=
  fun b hb => Bd4_of_ne m c b fun w e => hb (Finset.mem_image.mpr ⟨w, Finset.mem_univ _, e⟩)

/-- After the host stretch between the regions (the per-segment mean and inverse deviation, gathered per row). -/
abbrev Bd5 : Dev nD → Valuation τ sig (Elt F) := fun c => StableHlo.after hostOps1 (Bd4 m c)
abbrev E5 : (c : Dev nD) → (b : Ref sig .tc) → Buf (Elt F) ((c : Thread nD τ).loc b) := fun c b => Bd5 m c b
/-- At region 1's exit. -/
def Bd6 (c : Dev nD) : Valuation τ sig (Elt F) :=
  Pipeline.withArrays spec1 c (Bd5 m c) fun w => (dat1 (E5 m) c).arrAt w cfg1.N
theorem Bd6_arr (c : Dev nD) (w : Fin cfg1.W) :
    Bd6 m c (Proc.devRef .tc (Pipeline.arrRef spec1 w)) = (dat1 (E5 m) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m c (Proc.devRef .tc b) = Bd5 m c (Proc.devRef .tc b) := by
  unfold Bd6; exact Pipeline.withArrays_of_ne spec1 c _ _ b hb
abbrev E6 : (c : Dev nD) → (b : Ref sig .tc) → Buf (Elt F) ((c : Thread nD τ).loc b) := fun c b => Bd6 m c b
theorem hF1 (c : Dev nD) (w : Fin cfg1.W) : (dat1 (E5 m) c).arrAt w cfg1.N = E6 m c (Pipeline.arrRef spec1 w) :=
  (Bd6_arr m c w).symm
theorem hrest1 (c : Dev nD) : ∀ b, b ∉ Finset.univ.image (Pipeline.arrRef spec1) → E6 m c b = E5 m c b :=
  fun b hb => Bd6_of_ne m c b fun w e => hb (Finset.mem_image.mpr ⟨w, Finset.mem_univ _, e⟩)

/-- A buffer the host stretch between the regions does not write keeps region 0's exit contents. -/
theorem Bd5_of (c : Dev nD) (r : Ref sig .tc) (h : r ∉ hostOps1_W) : Bd5 m c r = Bd4 m c r :=
  StableHlo.after_of_writes_sub hostOps1 _ hostOps1_writes h

/-! ### The arguments end as launched -/

theorem V3_launch (c : Dev nD) (r : Ref sig .tc) (h2 : r ∉ hostOps0_2_W) (h1 : r ∉ hostOps0_1_W) (h0 : r ∉ hostOps0_W) :
    Gen.V3 m c r = m ((c : Thread nD τ).loc r) :=
  (Gen.V3_of m c r h2).trans <| (Gen.V2_of m c r h1).trans <| (Gen.V1_of m c r h0).trans rfl

theorem Bd6_main_arg0 (c : Dev nD) : Bd6 m c (Proc.devRef .tc main_arg0) = m ((c : Thread nD τ).loc main_arg0) :=
  calc Bd6 m c (Proc.devRef .tc main_arg0)
    _ = Bd5 m c (Proc.devRef .tc main_arg0) := (Bd6_arr m c 0).trans (((dat1 (E5 m) c).arrAt_in 0 rfl _).trans (A_eq1 (E5 m) c 0))
    _ = Bd4 m c (Proc.devRef .tc main_arg0) := Bd5_of m c main_arg0 (by decide)
    _ = Gen.V3 m c (Proc.devRef .tc main_arg0) := (Bd4_arr m c 0).trans (((dat0 (E3 m) c).arrAt_in 0 rfl _).trans (A_eq0 (E3 m) c 0))
    _ = m ((c : Thread nD τ).loc main_arg0) := V3_launch m c main_arg0 (by decide) (by decide) (by decide)
theorem Bd6_main_arg1 (c : Dev nD) : Bd6 m c (Proc.devRef .tc main_arg1) = m ((c : Thread nD τ).loc main_arg1) :=
  calc Bd6 m c (Proc.devRef .tc main_arg1)
    _ = Bd5 m c (Proc.devRef .tc main_arg1) := (Bd6_arr m c 3).trans (((dat1 (E5 m) c).arrAt_in 3 rfl _).trans (A_eq1 (E5 m) c 3))
    _ = Bd4 m c (Proc.devRef .tc main_arg1) := Bd5_of m c main_arg1 (by decide)
    _ = Gen.V3 m c (Proc.devRef .tc main_arg1) := Bd4_of_ne m c main_arg1 (by decide)
    _ = m ((c : Thread nD τ).loc main_arg1) := V3_launch m c main_arg1 (by decide) (by decide) (by decide)
theorem Bd6_main_arg2 (c : Dev nD) : Bd6 m c (Proc.devRef .tc main_arg2) = m ((c : Thread nD τ).loc main_arg2) :=
  calc Bd6 m c (Proc.devRef .tc main_arg2)
    _ = Bd5 m c (Proc.devRef .tc main_arg2) := (Bd6_arr m c 4).trans (((dat1 (E5 m) c).arrAt_in 4 rfl _).trans (A_eq1 (E5 m) c 4))
    _ = Bd4 m c (Proc.devRef .tc main_arg2) := Bd5_of m c main_arg2 (by decide)
    _ = Gen.V3 m c (Proc.devRef .tc main_arg2) := Bd4_of_ne m c main_arg2 (by decide)
    _ = m ((c : Thread nD τ).loc main_arg2) := V3_launch m c main_arg2 (by decide) (by decide) (by decide)
theorem Bd6_main_arg3 (c : Dev nD) : Bd6 m c (Proc.devRef .tc main_arg3) = m ((c : Thread nD τ).loc main_arg3) :=
  calc Bd6 m c (Proc.devRef .tc main_arg3)
    _ = Bd5 m c (Proc.devRef .tc main_arg3) := Bd6_of_ne m c main_arg3 (by decide)
    _ = Bd4 m c (Proc.devRef .tc main_arg3) := Bd5_of m c main_arg3 (by decide)
    _ = Gen.V3 m c (Proc.devRef .tc main_arg3) := Bd4_of_ne m c main_arg3 (by decide)
    _ = m ((c : Thread nD τ).loc main_arg3) := V3_launch m c main_arg3 (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E3 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (Bd6 m c) ∗ ∃ r, prngReg c r)

/-! ## The regions as segments -/

set_option backward.isDefEq.respectTransparency.types false in
/-- Region 0 over the thread state: entered from every unscoped buffer at the contents after the three host stretches,
    left at its exit contents. Its arrays are split out of the unscoped buffers and put back; the generator register and
    the scoped rest go into the region's invariant (whose carried accumulator is named from the first point on) and
    come back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop(Pipeline.scopedRest (Ix := Unit) (Name := ℕ) (U := UR sig nD τ) (Lvl := ℕ) (Val := Elt F) spec0 c ∗ ∃ r, prngReg c r) : sProp 𝕄)
        ⊢ (pdats m 0 c).Φ 0 := by
      have h := hin0 (E3 m) c; unfold Pipeline.ΦA at h; exact h
    iintro ⟨Hp, -, Hr⟩
    iapply h0
    isplitl [Hr]; · iexact Hr
    iexact Hp
  hout c := by
    rw [Pipeline.ownSems0_none]
    have h0 : (pdats m 0 c).Φ (Fin.last _)
        ⊢ (iprop(Pipeline.scopedRest (Ix := Unit) (Name := ℕ) (U := UR sig nD τ) (Lvl := ℕ) (Val := Elt F) spec0 c ∗ ∃ r, prngReg c r) : sProp 𝕄) := by
      have h := hout0 (E3 m) c; unfold Pipeline.ΦA at h; exact h
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the host stretch between the regions, left at the
    last boundary's contents; its invariant is the scoped rest and the generator register, untouched. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Bd5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (Bd4 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h c => h c)

/-- THE FRAME at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_main m ρ)

/-- The run with the result named: the output array ends at what region 1's write-backs fold to. -/
theorem run_out : θ_run defs (onTc (τ := τ) (main (F := F))) ⟨m, fun _ => 0, ρ⟩ (fun r => ∀ c : Dev nD,
      r.2.mem ((c.tc : Thread nD τ).loc main_v43) = (dat1 (E5 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v43 (by decide))).trans (Bd6_arr m c 5),
     (h c _ (mem_uc main_arg0 (by decide))).trans (Bd6_main_arg0 m c),
     (h c _ (mem_uc main_arg1 (by decide))).trans (Bd6_main_arg1 m c),
     (h c _ (mem_uc main_arg2 (by decide))).trans (Bd6_main_arg2 m c),
     (h c _ (mem_uc main_arg3 (by decide))).trans (Bd6_main_arg3 m c)⟩) (run_main m ρ)

end Cert.Kernel.Hand

end
-- ==== Proof.NormValue.lean ====
/- REGION 1 of the kernel, its VALUE at the extended reals: the array the normalisation pass leaves in its output
   window, as ONE function of the region-entry contents of its five input arrays, index by index.

   Point `t` of the pass writes back rows `4096·t … 4096·t + 4095` of the output, each element
   `((x[r,d] − μ[r])·σ[r])·w[d] + b[d]` of the data `x`, the rows' centres `μ` and scales `σ` (columns), and the weight
   and bias rows `w`, `b`. So what a point writes back is its block of the whole-array function `normOf`, and since
   row `r` lies in block `r / 4096` the 32 blocks cover the array: it ends holding `normOf` of the entry contents. -/
import proofs.«418694_j85023172591851_3_alg».proof.Proof.NormFrame
import Idealize.ShloMosaic.Lib.Pipeline.Value
import Idealize.ShloMosaic.Lib.ValueIdx
import Idealize.ShloMosaic.Lib.ValueIdxCoords
import Idealize.ShloMosaic.Lib.ValueLayout
import Idealize.ShloMosaic.Lib.Tactic

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The whole-array function -/

/-- The normalised array: element `(r, d)` is `((x[r,d] − μ[r])·σ[r])·w[d] + b[d]`. -/
def normOf (x : S131072x512.Idx → EReal) (mu sg : S131072x1.Idx → EReal) (w b : S1x512.Idx → EReal) : S131072x512.Idx → EReal :=
  fun i => ((x i - mu (ix2 (i 0) 0)) * sg (ix2 (i 0) 0)) * w (ix2 0 (i 1)) + b (ix2 0 (i 1))

/-! ## The body's payload at an index -/

theorem zeros2 : (![0, 0] : Fin 2 → Nat) = fun _ => 0 := funext fun a => by fin_cases a <;> rfl

/-- An `[a, 1]` column broadcast to `[a, b]` reads, at `(p, q)`, the column's element of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The store's payload at `(p, q)` of the block: the row's centre taken off, times the row's scale, times the column's
    weight, plus the column's bias. -/
theorem norm_pay_apply (x0 : Vec Ideal S4096x512 .f32) (x1 x2 : Vec Ideal S4096x1 .f32) (x3 x4 : Vec Ideal S1x512 .f32)
    (p : Fin 4096) (q : Fin 512) :
    k1_pay1 x0 x1 x2 x3 x4 (ix2 p q)
      = ((x0 (ix2 p q) - x1 (ix2 p (0 : Fin 1))) * x2 (ix2 p (0 : Fin 1))) * x3 (ix2 (0 : Fin 1) q) + x4 (ix2 (0 : Fin 1) q) := by
  unfold k1_pay1
  simp only [addf_apply, mulf_apply, subf_apply, shapeCast_self]
  rw [broadcastTo_a1_ab_apply x1, broadcastTo_a1_ab_apply x2, broadcastTo_1b_ab_apply x3, broadcastTo_1b_ab_apply x4]

section Region1
variable (V : (c : Dev nD) → (b : Ref sig .tc) → Buf (Elt Ideal) ((c : Thread nD τ).loc b))

/-! ## The printed index maps, decided once over the grid -/

/-- Point `t`'s blocks: row block `t` of the data, of the two columns and of the output; the one block of the two rows. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## A point's input blocks, read where the output's block says -/

/-- Where element `(p, q)` of point `t`'s output block sits in the array: row `4096·t + p`, column `q`. -/
theorem outEmb1 (t : Fin cfg1.N) (p : Fin 4096) (q : Fin 512) :
    ((((cfg1.win 5).blk t).view.emb (ix2 p q)) 0).val = 4096 * t.val + p.val
    ∧ ((((cfg1.win 5).blk t).view.emb (ix2 p q)) 1).val = q.val := by
  obtain ⟨-, -, -, -, -, -, -, -, -, -, e0, e1⟩ := blockIdx1 t
  constructor
  · show win1_5.index t (0 : Fin 2) * 4096 + 1 * p.val = _
    rw [e0]; omega
  · show win1_5.index t (1 : Fin 2) * 512 + 1 * q.val = _
    rw [e1]; omega

/-- The data block at `(p, q)` is the data at row `4096·t + p`, column `q`. -/
theorem iblk1_0_apply (c : Dev nD) (t : Fin cfg1.N) (p : Fin 4096) (q : Fin 512) (k : S131072x512.Idx)
    (hk0 : (k 0).val = 4096 * t.val + p.val) (hk1 : (k 1).val = q.val) :
    (iblk1 V c 0 t : Vec Ideal S4096x512 .f32) (ix2 p q) = (V c main_arg0 : S131072x512.Idx → EReal) k := by
  obtain ⟨e0, e1, -⟩ := blockIdx1 t
  unfold iblk1
  rw [View.read_apply]
  show V c main_arg0 _ = V c main_arg0 _
  congr 1
  funext a
  apply Fin.ext
  match a with
  | ⟨0, _⟩ => show win1_0.index t (0 : Fin 2) * 4096 + 1 * p.val = (k 0).val; rw [e0, hk0]; omega
  | ⟨1, _⟩ => show win1_0.index t (1 : Fin 2) * 512 + 1 * q.val = (k 1).val; rw [e1, hk1]; omega

/-- The centres' block at `(p, 0)` is the centre of row `4096·t + p`. -/
theorem iblk1_1_apply (c : Dev nD) (t : Fin cfg1.N) (p : Fin 4096) (k : S131072x1.Idx)
    (hk0 : (k 0).val = 4096 * t.val + p.val) :
    (iblk1 V c 1 t : Vec Ideal S4096x1 .f32) (ix2 p (0 : Fin 1)) = (V c main_v34 : S131072x1.Idx → EReal) k := by
  obtain ⟨-, -, e0, e1, -⟩ := blockIdx1 t
  unfold iblk1
  rw [View.read_apply]
  show V c main_v34 _ = V c main_v34 _
  congr 1
  funext a
  apply Fin.ext
  match a with
  | ⟨0, _⟩ => show win1_1.index t (0 : Fin 2) * 4096 + 1 * p.val = (k 0).val; rw [e0, hk0]; omega
  | ⟨1, _⟩ => show win1_1.index t (1 : Fin 2) * 1 + 1 * 0 = (k 1).val; rw [e1]; have := idx2_lt1 k; omega

/-- The scales' block at `(p, 0)` is the scale of row `4096·t + p`. -/
theorem iblk1_2_apply (c : Dev nD) (t : Fin cfg1.N) (p : Fin 4096) (k : S131072x1.Idx)
    (hk0 : (k 0).val = 4096 * t.val + p.val) :
    (iblk1 V c 2 t : Vec Ideal S4096x1 .f32) (ix2 p (0 : Fin 1)) = (V c main_v42 : S131072x1.Idx → EReal) k := by
  obtain ⟨-, -, -, -, e0, e1, -⟩ := blockIdx1 t
  unfold iblk1
  rw [View.read_apply]
  show V c main_v42 _ = V c main_v42 _
  congr 1
  funext a
  apply Fin.ext
  match a with
  | ⟨0, _⟩ => show win1_2.index t (0 : Fin 2) * 4096 + 1 * p.val = (k 0).val; rw [e0, hk0]; omega
  | ⟨1, _⟩ => show win1_2.index t (1 : Fin 2) * 1 + 1 * 0 = (k 1).val; rw [e1]; have := idx2_lt1 k; omega

/-- The weight row's one block at `(0, q)` is the weight of column `q`. -/
theorem iblk1_3_apply (c : Dev nD) (t : Fin cfg1.N) (q : Fin 512) (k : S1x512.Idx) (hk1 : (k 1).val = q.val) :
    (iblk1 V c 3 t : Vec Ideal S1x512 .f32) (ix2 (0 : Fin 1) q) = (V c main_arg1 : S1x512.Idx → EReal) k := by
  obtain ⟨-, -, -, -, -, -, e0, e1, -⟩ := blockIdx1 t
  unfold iblk1
  rw [View.read_apply]
  show V c main_arg1 _ = V c main_arg1 _
  congr 1
  funext a
  apply Fin.ext
  match a with
  | ⟨0, _⟩ => show win1_3.index t (0 : Fin 2) * 1 + 1 * 0 = (k 0).val; rw [e0]; have := idx2_lt0 k; omega
  | ⟨1, _⟩ => show win1_3.index t (1 : Fin 2) * 512 + 1 * q.val = (k 1).val; rw [e1, hk1]; omega

/-- The bias row's one block at `(0, q)` is the bias of column `q`. -/
theorem iblk1_4_apply (c : Dev nD) (t : Fin cfg1.N) (q : Fin 512) (k : S1x512.Idx) (hk1 : (k 1).val = q.val) :
    (iblk1 V c 4 t : Vec Ideal S1x512 .f32) (ix2 (0 : Fin 1) q) = (V c main_arg2 : S1x512.Idx → EReal) k := by
  obtain ⟨-, -, -, -, -, -, -, -, e0, e1, -⟩ := blockIdx1 t
  unfold iblk1
  rw [View.read_apply]
  show V c main_arg2 _ = V c main_arg2 _
  congr 1
  funext a
  apply Fin.ext
  match a with
  | ⟨0, _⟩ => show win1_4.index t (0 : Fin 2) * 1 + 1 * 0 = (k 0).val; rw [e0]; have := idx2_lt0 k; omega
  | ⟨1, _⟩ => show win1_4.index t (1 : Fin 2) * 512 + 1 * q.val = (k 1).val; rw [e1, hk1]; omega

/-! ## What a point writes back -/

/-- WHAT POINT `t` WRITES BACK is block `t` of `normOf` of the five input arrays as the region finds them. -/
theorem norm_flushed (c : Dev nD) (t : Fin cfg1.N) :
    (dat1 (F := Ideal) V c).flushed 5 t
      = ((cfg1.win 5).blk t).view.read (Elt Ideal)
          (normOf (V c main_arg0) (V c main_v34) (V c main_v42) (V c main_arg1) (V c main_arg2)) := by
  show (cfg1.win 5).cut (grid1.coords t) ((dat1 (F := Ideal) V c).after 5 t) = _
  rw [after1_5]
  unfold out1_5
  rw [View.canon_unit_zero zeros2]
  simp only [View.ld_unit_zero (S := S4096x512) zeros2, View.ld_unit_zero (S := S4096x1) zeros2, View.ld_unit_zero (S := S1x512) zeros2]
  funext j
  obtain ⟨p, q, rfl⟩ : ∃ (p : Fin 4096) (q : Fin 512), j = ix2 p q := ⟨j 0, j 1, eq_ix2 j⟩
  show k1_pay1 (iblk1 V c 0 t) (iblk1 V c 1 t) (iblk1 V c 2 t) (iblk1 V c 3 t) (iblk1 V c 4 t) (ix2 p q)
    = normOf (V c main_arg0) (V c main_v34) (V c main_v42) (V c main_arg1) (V c main_arg2) (((cfg1.win 5).blk t).view.emb (ix2 p q))
  obtain ⟨h0, h1⟩ := outEmb1 t p q
  generalize ((cfg1.win 5).blk t).view.emb (ix2 p q) = i at h0 h1
  rw [norm_pay_apply]
  unfold normOf
  rw [iblk1_0_apply V c t p q i h0 h1, iblk1_1_apply V c t p (ix2 (i 0) 0) h0, iblk1_2_apply V c t p (ix2 (i 0) 0) h0,
    iblk1_3_apply V c t q (ix2 0 (i 1)) h1, iblk1_4_apply V c t q (ix2 0 (i 1)) h1]

/-! ## The blocks cover the array -/

/-- An index of the array is in point `t`'s output block iff each coordinate is in the block's range on its axis. -/
theorem mem_outBlk1 (t : Fin cfg1.N) (i : S131072x512.Idx) :
    i ∈ ((cfg1.win 5).blk t).view.set
      ↔ ∀ a : Fin 2, win1_5.index t a * S4096x512.size a ≤ (i a).val ∧ (i a).val < win1_5.index t a * S4096x512.size a + S4096x512.size a := by
  show i ∈ ((View.whole main_v43).slice (win1_5.rect t)).set ↔ _
  rw [View.set_slice_whole, Rect.mem_set_unit]
  exact Iff.rfl

/-- Row `r` lies in block `r / 4096`, which is written back: every index is covered. -/
theorem norm_cover (i : S131072x512.Idx) :
    ∃ t : Fin cfg1.N, (cfg1.win 5).flush t = true ∧ i ∈ ((cfg1.win 5).blk t).view.set := by
  have hi0 : (i 0).val < 131072 := idx2_lt0 i
  have hi1 : (i 1).val < 512 := idx2_lt1 i
  have hN : cfg1.N = 32 := N_1
  let t : Fin cfg1.N := ⟨(i 0).val / 4096, by rw [hN]; omega⟩
  have ht : t.val = (i 0).val / 4096 := rfl
  obtain ⟨-, -, -, -, -, -, -, -, -, -, e0, e1⟩ := blockIdx1 t
  refine ⟨t, flush1_5 t, ?_⟩
  rw [mem_outBlk1]
  intro a
  match a with
  | ⟨0, _⟩ =>
    show win1_5.index t (0 : Fin 2) * 4096 ≤ (i 0).val ∧ (i 0).val < win1_5.index t (0 : Fin 2) * 4096 + 4096
    rw [e0, ht]; omega
  | ⟨1, _⟩ =>
    show win1_5.index t (1 : Fin 2) * 512 ≤ (i 1).val ∧ (i 1).val < win1_5.index t (1 : Fin 2) * 512 + 512
    rw [e1]; omega

/-! ## The array after the pass -/

/-- THE OUTPUT ARRAY after the 32 points: `normOf` of the five input arrays as the region finds them. -/
theorem norm_arr (c : Dev nD) :
    (dat1 (F := Ideal) V c).arrAt 5 cfg1.N
      = normOf (V c main_arg0) (V c main_v34) (V c main_v42) (V c main_arg1) (V c main_arg2) :=
  (dat1 (F := Ideal) V c).arrAt_eq_of_cover 5
    (normOf (V c main_arg0) (V c main_v34) (V c main_v42) (V c main_arg1) (V c main_arg2))
    (fun t _ => norm_flushed V c t) norm_cover

end Region1

end Cert.KernelIdeal.Hand

end
-- ==== Proof.HostValue.lean ====
/-
  The kernel's host stretches read at an index, at the ideal values. Between its two kernel regions @main clips the
  group indices into [0, 15], lays them out as a [1, 131072] row for the first region, and, from the first region's
  per-core partial sums (sum of the rows, sum of their squares, row count, per group), computes each group's mean and
  inverse standard deviation and gathers them per row for the second region. Here each of those arrays is read at an
  index over an arbitrary valuation of the buffers before the stretch.
-/
import proofs.«418694_j85023172591851_3_alg».proof.Proof.Gen.KernelIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Idealize.ShloMosaic Idealize.ShloMosaic.TcCoe
open Cert.KernelIdeal Cert.KernelIdeal.Gen Idealize.ShloMosaic.ValueIdx

/-! ## The group index: clipped by the host, then read by the gather -/

/-- The group index clipped into [0, 15]: the signed maximum with 0, then the signed minimum with 15. -/
def clip1 (v : BitVec 32) : BitVec 32 := IntOp.minsi 15#32 (IntOp.maxsi 0#32 v)

theorem clip1_of_lt (v : BitVec 32) (h : v.toNat < 16) : clip1 v = v := by
  have hv : v.toInt = (v.toNat : Int) := StableHlo.Predicate.toInt_eq_toNat_of_lt (by omega)
  have e0 : (0#32 : BitVec 32).toInt = 0 := by decide
  have e15 : (15#32 : BitVec 32).toInt = 15 := by decide
  have h0 : v.slt 0#32 = false := by
    rw [BitVec.slt_eq_decide, hv, e0]; exact decide_eq_false (by omega)
  have h1 : (15#32 : BitVec 32).slt v = false := by
    rw [BitVec.slt_eq_decide, hv, e15]; exact decide_eq_false (by omega)
  unfold clip1 IntOp.minsi IntOp.maxsi
  rw [h0, if_neg Bool.false_ne_true, h1, if_neg Bool.false_ne_true]

/-- The row of the 16-row table the gather reads for the index word `v`: a negative word wraps by 16 (the select),
    then the start index is read signed and clamped into [0, 15]. -/
def gix (v : BitVec 32) : Fin 16 :=
  ⟨min (Scalar.select (IntOp.cmpi .slt v 0#32) (IntOp.addi v 16#32) v).toInt.toNat 15, by omega⟩

theorem gix_of_lt (v : BitVec 32) (h : v.toNat < 16) : (gix v).val = v.toNat := by
  have hv : v.toInt = (v.toNat : Int) := StableHlo.Predicate.toInt_eq_toNat_of_lt (by omega)
  have e0 : (0#32 : BitVec 32).toInt = 0 := by decide
  have h0 : v.slt 0#32 = false := by
    rw [BitVec.slt_eq_decide, hv, e0]; exact decide_eq_false (by omega)
  have hc : IntOp.cmpi .slt v 0#32 = 0#1 := by
    unfold IntOp.cmpi; dsimp only; rw [h0]; rfl
  show min (Scalar.select (IntOp.cmpi .slt v 0#32) (IntOp.addi v 16#32) v).toInt.toNat 15 = v.toNat
  rw [hc, select_zero, hv, Int.toNat_natCast]
  omega

/-! ## The per-group statistics as the host computes them from the two cores' partial sums -/

/-- Group `s` of 16 as a row of the 128-row statistics array. -/
abbrev row128 (s : Fin 16) : Fin 128 := ⟨s.val, by omega⟩

/-- 512, the row width, as the f32 word the program prints. -/
abbrev c512 : EReal := Ideal.ofBits .f32 0x44000000#32
/-- The variance offset as the f32 word the program prints. -/
abbrev cEps : EReal := Ideal.ofBits .f32 0x3727C5AC#32

/-- Column `k` of group `s` summed over the two cores, from 0. -/
def kSum (st : S2x128x3.Idx → EReal) (s : Fin 16) (k : Fin 3) : EReal :=
  0 + ∑ c' : Fin 2, st (ix3 c' (row128 s) k)
/-- The group's row count, at least 1. -/
def kCnt (st : S2x128x3.Idx → EReal) (s : Fin 16) : EReal := max (kSum st s 2) 1
/-- The group's mean. -/
def kMean (st : S2x128x3.Idx → EReal) (s : Fin 16) : EReal := Ideal.div (kSum st s 0) (kCnt st s * c512)
/-- The group's variance, as mean of squares minus squared mean, at least 0. -/
def kVar (st : S2x128x3.Idx → EReal) (s : Fin 16) : EReal :=
  max (Ideal.div (kSum st s 1) (kCnt st s * c512) - kMean st s * kMean st s) 0
/-- The group's inverse standard deviation. -/
def kIstd (st : S2x128x3.Idx → EReal) (s : Fin 16) : EReal := Ideal.div 1 (Ideal.sqrt (kVar st s + cEps))

/-- The word of 512 is the real 512. -/
theorem c512_eq : c512 = ((512 : ℝ) : EReal) := by
  simp [c512, Ideal.ofBits, Ideal.ieee, -EReal.coe_mul]; norm_num

/-! ## The host's operations on the statistics, read at an index -/

theorem ofFin_eq_ix1 {n : Nat} (p : Fin n) : Shape.Idx.ofFin p = ix1 p := by
  funext a; match a with | ⟨0, _⟩ => exact Fin.ext rfl

/-- The two cores' partial sums added by the host: at (r, k), 0 plus the two cores' entries. -/
theorem ssum_apply (st : S2x128x3.Idx → EReal) (r : Fin 128) (k : Fin 3) :
    Host.reduceAdd (F := Ideal) (φ := .f32) st (constant (F := Ideal) S_ .f32 0x00000000#32) reducesTo_S2x128x3_S128x3_d0 h_S_ (ix2 r k)
      = 0 + ∑ c' : Fin 2, st (ix3 c' r k) := by
  rw [hostReduceAdd_apply, Ideal.hostReduceAdd_single reducesTo_S2x128x3_S128x3_d0 (by decide : S2x128x3.Reduces [0] S128x3),
    constant_apply, Ideal.ofBits_zero_f32]
  refine congrArg (fun z : EReal => 0 + z) (Finset.sum_congr rfl fun c' _ => congrArg st ?_)
  funext a
  match a with
  | ⟨0, _⟩ => rfl
  | ⟨1, _⟩ => rfl
  | ⟨2, _⟩ => rfl

/-- Column `k` of the first 16 rows of the summed statistics, as a vector of 16: at `s` the group's sum. -/
theorem col_sum (st : S2x128x3.Idx → EReal) (o : Nat) (h : S128x3.Slices ![0, o] S16x1) (k : Fin 3) (hk : k.val = o) (s : Fin 16) :
    shapeCast S16 (extractStridedSlice S16x1 ![0, o]
        (Host.reduceAdd (F := Ideal) (φ := .f32) st (constant (F := Ideal) S_ .f32 0x00000000#32) reducesTo_S2x128x3_S128x3_d0 h_S_) h)
      shapeCasts_S16x1_S16 (ix1 s) = kSum st s k := by
  refine (shapeCast_apply _ _ (ix1 s) (ix2 s (0 : Fin 1)) ?_).trans ?_
  · rw [Shape.rowMajor_val_two, Shape.rowMajor_val_one]
    show s.val * 1 + 0 = s.val
    omega
  refine (extractStridedSlice_apply _ _ _ (ix2 s (0 : Fin 1)) (ix2 (row128 s) k) (fun a => ?_)).trans (ssum_apply st (row128 s) k)
  match a with
  | ⟨0, _⟩ => show s.val = 0 + s.val; omega
  | ⟨1, _⟩ => show k.val = o + 0; omega

/-- The gather of a 16-entry table at the wrapped indices, as a column of start indices: row `p` reads the table at
    `gix` of row `p`'s index word. -/
theorem take_apply (x : S16.Idx → EReal) (g : S131072.Idx → BitVec 32) (p : Fin 131072) :
    Host.gather gather_S16_S131072x1_S131072_n_0_n_n_0_1_1 x
      (broadcastInDim S131072x1 ![0] bcast_S131072_S131072x1_0
        (select (cmpi .slt g (broadcastInDim S131072 ![] bcast_S_S131072 (constantI S_ 32 0#32)))
          (addi g (broadcastInDim S131072 ![] bcast_S_S131072 (constantI S_ 32 16#32))) g)) (ix1 p)
      = x (ix1 (gix (g (ix1 p)))) := by
  rw [← ofFin_eq_ix1 p,
    StableHlo.Predicate.gather_take gather_S16_S131072x1_S131072_n_0_n_n_0_1_1 rfl rfl rfl rfl x _ p (by decide)]
  refine congrArg x ?_
  rw [ofFin_eq_ix1, ofFin_eq_ix1]
  refine congrArg ix1 (Fin.ext ?_)
  show min (broadcastInDim S131072x1 ![0] bcast_S131072_S131072x1_0
        (select (cmpi .slt g (broadcastInDim S131072 ![] bcast_S_S131072 (constantI S_ 32 0#32)))
          (addi g (broadcastInDim S131072 ![] bcast_S_S131072 (constantI S_ 32 16#32))) g)
        (StableHlo.Predicate.ixP p)).toInt.toNat 15 = (gix (g (ix1 p))).val
  rw [StableHlo.Predicate.bcast_col1, ofFin_eq_ix1]
  rfl

/-- A vector of 131072 laid out as a [131072, 1] column reads, at (r, 0), the vector at r. -/
theorem col1_apply {α : Type} (X : S131072.Idx → α) (j : S131072x1.Idx) :
    shapeCast S131072x1 X shapeCasts_S131072_S131072x1 j = X (ix1 (j 0)) := by
  refine shapeCast_apply _ _ j (ix1 (j 0)) ?_
  rw [Shape.rowMajor_val_two, Shape.rowMajor_val_one]
  have h1 : (j 1).val < 1 := (j 1).isLt
  show (j 0).val = (j 0).val * 1 + (j 1).val
  omega

/-! ## The host's vectors of 16 group statistics, as the operations build them, and their entries -/

/-- Column `o` of the first 16 rows of the summed statistics, as a vector of 16. -/
abbrev hCol (st : S2x128x3.Idx → EReal) (o : Nat) (h : S128x3.Slices ![0, o] S16x1) : S16.Idx → EReal :=
  fun i => shapeCast S16 (extractStridedSlice S16x1 ![0, o]
      (Host.reduceAdd (F := Ideal) (φ := .f32) st (constant (F := Ideal) S_ .f32 0x00000000#32) reducesTo_S2x128x3_S128x3_d0 h_S_) h)
    shapeCasts_S16x1_S16 i
/-- The groups' row counts, at least 1. -/
abbrev hCnt (st : S2x128x3.Idx → EReal) : S16.Idx → EReal :=
  maximumf (F := Ideal) (φ := .f32) (hCol st 2 slices_S128x3_S16x1_0_2)
    (broadcastInDim S16 ![] bcast_S_S16 (constant (F := Ideal) S_ .f32 0x3F800000#32))
/-- The groups' entry counts: rows times the row width. -/
abbrev hDen (st : S2x128x3.Idx → EReal) : S16.Idx → EReal :=
  mulf (F := Ideal) (φ := .f32) (hCnt st) (broadcastInDim S16 ![] bcast_S_S16 (constant (F := Ideal) S_ .f32 0x44000000#32))
/-- The groups' means. -/
abbrev hMean (st : S2x128x3.Idx → EReal) : S16.Idx → EReal :=
  Host.divf (F := Ideal) (φ := .f32) (hCol st 0 slices_S128x3_S16x1_0_0) (hDen st)
/-- The groups' variances. -/
abbrev hVar (st : S2x128x3.Idx → EReal) : S16.Idx → EReal :=
  maximumf (F := Ideal) (φ := .f32)
    (subf (F := Ideal) (φ := .f32) (Host.divf (F := Ideal) (φ := .f32) (hCol st 1 slices_S128x3_S16x1_0_1) (hDen st))
      (mulf (F := Ideal) (φ := .f32) (hMean st) (hMean st)))
    (broadcastInDim S16 ![] bcast_S_S16 (constant (F := Ideal) S_ .f32 0x00000000#32))
/-- The groups' inverse standard deviations. -/
abbrev hIstd (st : S2x128x3.Idx → EReal) : S16.Idx → EReal :=
  Host.divf (F := Ideal) (φ := .f32) (broadcastInDim S16 ![] bcast_S_S16 (constant (F := Ideal) S_ .f32 0x3F800000#32))
    (Host.sqrt (F := Ideal) (φ := .f32)
      (addf (F := Ideal) (φ := .f32) (hVar st) (broadcastInDim S16 ![] bcast_S_S16 (constant (F := Ideal) S_ .f32 0x3727C5AC#32))))

theorem hCol_apply (st : S2x128x3.Idx → EReal) (o : Nat) (h : S128x3.Slices ![0, o] S16x1) (k : Fin 3) (hk : k.val = o) (s : Fin 16) :
    hCol st o h (ix1 s) = kSum st s k := col_sum st o h k hk s

theorem hCnt_apply (st : S2x128x3.Idx → EReal) (s : Fin 16) : hCnt st (ix1 s) = kCnt st s := by
  show max (hCol st 2 slices_S128x3_S16x1_0_2 (ix1 s)) (Ideal.ofBits .f32 0x3F800000#32) = _
  rw [hCol_apply st 2 slices_S128x3_S16x1_0_2 2 rfl s, Ideal.ofBits_one_f32]
  rfl

theorem hDen_apply (st : S2x128x3.Idx → EReal) (s : Fin 16) : hDen st (ix1 s) = kCnt st s * c512 := by
  show hCnt st (ix1 s) * Ideal.ofBits .f32 0x44000000#32 = _
  rw [hCnt_apply]

theorem hMean_apply (st : S2x128x3.Idx → EReal) (s : Fin 16) : hMean st (ix1 s) = kMean st s := by
  show Ideal.div (hCol st 0 slices_S128x3_S16x1_0_0 (ix1 s)) (hDen st (ix1 s)) = _
  rw [hCol_apply st 0 slices_S128x3_S16x1_0_0 0 rfl s, hDen_apply]
  rfl

theorem hVar_apply (st : S2x128x3.Idx → EReal) (s : Fin 16) : hVar st (ix1 s) = kVar st s := by
  show max (Ideal.div (hCol st 1 slices_S128x3_S16x1_0_1 (ix1 s)) (hDen st (ix1 s)) - hMean st (ix1 s) * hMean st (ix1 s))
    (Ideal.ofBits .f32 0x00000000#32) = _
  rw [hCol_apply st 1 slices_S128x3_S16x1_0_1 1 rfl s, hDen_apply, hMean_apply, Ideal.ofBits_zero_f32]
  rfl

theorem hIstd_apply (st : S2x128x3.Idx → EReal) (s : Fin 16) : hIstd st (ix1 s) = kIstd st s := by
  show Ideal.div (Ideal.ofBits .f32 0x3F800000#32) (Ideal.sqrt (hVar st (ix1 s) + Ideal.ofBits .f32 0x3727C5AC#32)) = _
  rw [hVar_apply, Ideal.ofBits_one_f32]
  rfl

variable (Wb : Valuation τ sig (Elt Ideal))

/-! ## The clipped indices and their row layout -/

/-- The clipped group indices: the clip of each input index. -/
theorem main_v0_eq :
    (StableHlo.after hostOps0_1 (StableHlo.after hostOps0 Wb)) main_v0 = fun i => clip1 (Wb main_arg3 i) := by
  show StableHlo.after hostOps0_1 (StableHlo.after hostOps0 Wb) (Proc.devRef .tc main_v0) = _
  after_results
  simp only [StableHlo.TRef.ofBuf, StableHlo.TRef.toBuf, cast_eq]
  funext i
  rfl

/-- The [1, 131072] row of the clipped indices reads, at (0, r), the index of row r. -/
theorem main_v1_eq :
    (StableHlo.after hostOps0_2 Wb) main_v1 = fun i => Wb main_v0 (ix1 (i 1)) := by
  show StableHlo.after hostOps0_2 Wb (Proc.devRef .tc main_v1) = _
  after_results
  funext i
  show shapeCast S1x131072 (Wb (Proc.devRef .tc main_v0)) shapeCasts_S131072_S1x131072 i = _
  rw [eq_ix2 i]
  exact shapeCast_a_1a_apply _ _ (i 0) (i 1)

/-! ## The per-row mean and inverse standard deviation columns -/

/-- The [131072, 1] column of means reads, at (r, 0), the mean of row r's group. -/
theorem main_v34_eq :
    (StableHlo.after hostOps1 Wb) main_v34 = fun i => kMean (Wb main_v2) (gix (Wb main_v0 (ix1 (i 0)))) := by
  show StableHlo.after hostOps1 Wb (Proc.devRef .tc main_v34) = _
  after_results_simp
  funext i
  refine (col1_apply _ i).trans ?_
  refine (take_apply (hMean (Wb main_v2)) (Wb main_v0) (i 0)).trans ?_
  exact hMean_apply (Wb main_v2) (gix (Wb main_v0 (ix1 (i 0))))

/-- The [131072, 1] column of inverse standard deviations reads, at (r, 0), that of row r's group. -/
theorem main_v42_eq :
    (StableHlo.after hostOps1 Wb) main_v42 = fun i => kIstd (Wb main_v2) (gix (Wb main_v0 (ix1 (i 0)))) := by
  show StableHlo.after hostOps1 Wb (Proc.devRef .tc main_v42) = _
  after_results_simp
  funext i
  refine (col1_apply _ i).trans ?_
  refine (take_apply (hIstd (Wb main_v2)) (Wb main_v0) (i 0)).trans ?_
  exact hIstd_apply (Wb main_v2) (gix (Wb main_v0 (ix1 (i 0))))

end Cert.KernelIdeal.Hand

end
-- ==== Proof.StatsSpec.lean ====
import Idealize.ShloMosaic.Lib.ValueIdx

/-!
# The statistics region's output, as a closed form

The first region of the kernel walks the 131072 rows of `x` in 32 blocks of 4096 rows, 16 blocks per core, and keeps
per lane `s` (128 lanes, of which the group numbers 0 … 15 are the ones that ever match) three running sums: the sum of
the entries of the rows whose group number is `s`, the sum of their squares, and the number of such rows. A row belongs
to lane `s` when its group word equals the 32-bit word of `s`; the kernel multiplies by the indicator of that event,
which at the extended reals is the integer `0` or `1` a one-bit compare gives when widened and converted.
This module names the indicator and the three sums; it mentions no program, only shapes written out.
-/

noncomputable section

open scoped BigOperators

namespace Cert.KernelIdeal.Hand

open Idealize.ShloMosaic Idealize.ShloMosaic.ValueIdx

/-- The indicator of "the word `w` is the lane number `s`" as an extended real: the one-bit equality compare, widened
    without sign to 32 bits, read as a signed integer. -/
def ohw (w : BitVec 32) (s : Fin 128) : EReal :=
  ((((IntOp.cmpi .eq (BitVec.ofNat 32 s.val) w).setWidth 32).toInt : ℝ) : EReal)

/-- The indicator is `1` where the word is the lane's and `0` elsewhere. -/
theorem ohw_eq_ite (w : BitVec 32) (s : Fin 128) : ohw w s = if BitVec.ofNat 32 s.val = w then 1 else 0 := by
  unfold ohw IntOp.cmpi
  by_cases h : BitVec.ofNat 32 s.val = w
  · rw [if_pos h]
    have hb : (BitVec.ofNat 32 s.val == w) = true := by rw [h]; exact beq_self_eq_true w
    have e : ((BitVec.ofBool true).setWidth 32).toInt = 1 := by decide
    rw [hb, e, Int.cast_one, EReal.coe_one]
  · rw [if_neg h]
    have hb : (BitVec.ofNat 32 s.val == w) = false := by
      rcases hb : (BitVec.ofNat 32 s.val == w) with _ | _
      · rfl
      · exact absurd (eq_of_beq hb) h
    have e : ((BitVec.ofBool false).setWidth 32).toInt = 0 := by decide
    rw [hb, e, Int.cast_zero, EReal.coe_zero]

/-- The indicator that row `r` of the group-number array `g : [1, 131072]` belongs to lane `s`. -/
def oh (g : (⟨2, ![1, 131072]⟩ : Shape).Idx → BitVec 32) (s : Fin 128) (r : Fin 131072) : EReal :=
  ohw (g (ix2 (0 : Fin 1) r)) s

theorem oh_eq_ite (g : (⟨2, ![1, 131072]⟩ : Shape).Idx → BitVec 32) (s : Fin 128) (r : Fin 131072) :
    oh g s r = if BitVec.ofNat 32 s.val = g (ix2 (0 : Fin 1) r) then 1 else 0 := ohw_eq_ite _ _

/-- Row `r` of block `j` of core `c'`: a core owns 16 consecutive blocks of 4096 rows. -/
def krow (c' : Fin 2) (j : Fin 16) (r : Fin 4096) : Fin 131072 :=
  ⟨4096 * (16 * c'.val + j.val) + r.val, by omega⟩

/-- What one block of 4096 rows adds to lane `s`: column 0 the sum over the 512 features of the indicator-weighted
    entries, column 1 the same of their squares, column 2 the number of the block's rows in lane `s`. -/
def kpart (x : (⟨2, ![131072, 512]⟩ : Shape).Idx → EReal) (g : (⟨2, ![1, 131072]⟩ : Shape).Idx → BitVec 32)
    (c' : Fin 2) (j : Fin 16) (s : Fin 128) (k : Fin 3) : EReal :=
  match k with
  | ⟨0, _⟩ => ∑ d : Fin 512, ∑ r : Fin 4096, oh g s (krow c' j r) * x (ix2 (krow c' j r) d)
  | ⟨1, _⟩ => ∑ d : Fin 512, ∑ r : Fin 4096, oh g s (krow c' j r) * (x (ix2 (krow c' j r) d) * x (ix2 (krow c' j r) d))
  | ⟨2, _⟩ => ∑ r : Fin 4096, oh g s (krow c' j r)

/-- The region's output `[2, 128, 3]`: at core `c'`, lane `s`, column `k`, the sum over the core's 16 blocks. -/
def kstats (x : (⟨2, ![131072, 512]⟩ : Shape).Idx → EReal) (g : (⟨2, ![1, 131072]⟩ : Shape).Idx → BitVec 32) :
    (⟨3, ![2, 128, 3]⟩ : Shape).Idx → EReal :=
  fun i => ∑ j : Fin 16, kpart x g (i 0) j (i 1) (i 2)

/-- The output at an index given by coordinates. -/
theorem kstats_apply (x : (⟨2, ![131072, 512]⟩ : Shape).Idx → EReal) (g : (⟨2, ![1, 131072]⟩ : Shape).Idx → BitVec 32)
    (c' : Fin 2) (s : Fin 128) (k : Fin 3) : kstats x g (ix3 c' s k) = ∑ j : Fin 16, kpart x g c' j s k := rfl

end Cert.KernelIdeal.Hand

end
-- ==== Proof.KernelSpec.lean ====
/-
  The kernel's result as ONE function of its four arguments, at the ideal instance: the segment ids are clipped into
  [0, 15]; the statistics pass leaves, per core, lane and column, the block sums of the data, of its squares and of the
  row counts; the host turns their sum over the two cores into each segment's centre and inverse deviation; and every row
  is centred, scaled, weighted and shifted by its own segment's pair.
-/
import proofs.«418694_j85023172591851_3_alg».proof.Proof.StatsSpec
import proofs.«418694_j85023172591851_3_alg».proof.Proof.HostValue
import proofs.«418694_j85023172591851_3_alg».proof.Proof.NormValue

noncomputable section

namespace Cert.KernelIdeal.Hand

open Cert.KernelIdeal Idealize.ShloMosaic Idealize.ShloMosaic.ValueIdx

/-- The clipped segment ids laid out as one row of 131072 lanes: what the statistics pass reads. -/
def gRow (g : S131072.Idx → BitVec 32) : S1x131072.Idx → BitVec 32 := fun i => clip1 (g (ix1 (i 1)))

/-- The kernel's result: row `r`, column `d` is `((x r d − μ s)·σ s)·w d + b d` with `s` the row's clipped segment,
    `μ` and `σ` the centre and the inverse deviation the host computes from the statistics pass's sums. -/
def kernelOut (x : S131072x512.Idx → EReal) (w b : S1x512.Idx → EReal) (g : S131072.Idx → BitVec 32) : S131072x512.Idx → EReal :=
  normOf x (fun i => kMean (kstats x (gRow g)) (gix (clip1 (g (ix1 (i 0))))))
    (fun i => kIstd (kstats x (gRow g)) (gix (clip1 (g (ix1 (i 0)))))) w b

end Cert.KernelIdeal.Hand

end
-- ==== Proof.StatsPayload.lean ====
import proofs.«418694_j85023172591851_3_alg».proof.Proof.Gen.KernelIdeal.Skeleton
import proofs.«418694_j85023172591851_3_alg».proof.Proof.StatsSpec
import Idealize.ShloMosaic.Lib.ValueLayout
import Idealize.ShloMosaic.PureOps.Ideal.Laws

/-!
# What one grid point of the statistics region stores, read at an index

At the extended reals the value the region's body stores into its carried `[128, 3]` accumulator is the accumulator's
old value plus, per lane `s`, three sums over the point's block of 4096 rows: the indicator-weighted entries summed over
rows and features, the same of the squares, and the count of the block's rows in the lane. The body computes them as
three matrix products of the `[128, 4096]` indicator matrix with the block, its entrywise square, and a column of ones,
sums the first two over the 512 features, and lays the three columns side by side.
-/

noncomputable section

open scoped BigOperators

namespace Cert.KernelIdeal.Hand

open Idealize.ShloMosaic Idealize.ShloMosaic.ValueIdx Cert.KernelIdeal Cert.KernelIdeal.Gen

/-- What a block `xb` of 4096 rows with group words `gb` adds to lane `s`, column `k`. -/
def bpart (xb : (⟨2, ![4096, 512]⟩ : Shape).Idx → EReal) (gb : (⟨2, ![1, 4096]⟩ : Shape).Idx → BitVec 32)
    (s : Fin 128) (k : Fin 3) : EReal :=
  match k with
  | ⟨0, _⟩ => ∑ d : Fin 512, ∑ r : Fin 4096, ohw (gb (ix2 (0 : Fin 1) r)) s * xb (ix2 r d)
  | ⟨1, _⟩ => ∑ d : Fin 512, ∑ r : Fin 4096, ohw (gb (ix2 (0 : Fin 1) r)) s * (xb (ix2 r d) * xb (ix2 r d))
  | ⟨2, _⟩ => ∑ r : Fin 4096, ohw (gb (ix2 (0 : Fin 1) r)) s

/-- The indicator matrix `[128, 4096]` the body builds from the block's group words, at lane `s` and row `r`. -/
theorem onehot_apply (v4 : Vec Ideal S1x4096 .i32) (s : Fin 128) (r : Fin 4096) :
    (sitofp .f32 (extui 32 (cmpi .eq (iota .tc S128x4096 32 [0] iota_S128x4096_d0_w32)
        (broadcastTo S128x4096 (shapeCast S1x4096 (shapeCast S4096 v4 shapeCasts_S1x4096_S4096) shapeCasts_S4096_S1x4096)
          broadcasts_S1x4096_S128x4096)) natLt_1_32) : FVec Ideal S128x4096 .f32) (ix2 s r)
      = ohw (v4 (ix2 (0 : Fin 1) r)) s := by
  show ((((IntOp.cmpi .eq (iota .tc S128x4096 32 [0] iota_S128x4096_d0_w32 (ix2 s r))
      (broadcastTo S128x4096 (shapeCast S1x4096 (shapeCast S4096 v4 shapeCasts_S1x4096_S4096) shapeCasts_S4096_S1x4096)
          broadcasts_S1x4096_S128x4096 (ix2 s r))).setWidth 32).toInt : ℝ) : EReal) = _
  rw [iota_single_apply, broadcastTo_1b_ab_apply, shapeCast_a_1a_apply, shapeCast_1a_a_apply]
  rfl

/-- A `[128]` vector viewed as a `[128, 1]` column reads, at `(s, u)`, the vector at `s`. -/
theorem col_apply {α : Type} (v : (⟨1, ![128]⟩ : Shape).Idx → α) (h : (⟨1, ![128]⟩ : Shape).ShapeCasts ⟨2, ![128, 1]⟩)
    (s : Fin 128) (u : Fin 1) : shapeCast ⟨2, ![128, 1]⟩ v h (ix2 s u) = v (ix1 s) :=
  shapeCast_apply v h _ _ (by
    have hu : u.val = 0 := by omega
    rw [Shape.rowMajor_val_two, Shape.rowMajor_val_one]
    show s.val = s.val * 1 + u.val
    rw [hu, Nat.mul_one, Nat.add_zero])

/-- The sum over the 512 features of a `[128, 512]` matrix, kept as a column: at `(s, u)` the sum of row `s`. -/
theorem rowsum_apply (M : FVec Ideal S128x512 .f32) (s : Fin 128) (u : Fin 1) :
    shapeCast S128x1 (multiReduction .add [1] S128 M 0x00000000#32 reduces_S128x512_S128 (.inl rfl) rfl) shapeCasts_S128_S128x1
        (ix2 s u) = ∑ d : Fin 512, M (ix2 s d) := by
  refine (col_apply _ _ s u).trans ?_
  refine (Ideal.multiReduction_add_single M 0x00000000#32 reduces_S128x512_S128 (.inl rfl) rfl (ix1 s)).trans ?_
  refine Finset.sum_congr rfl fun d _ => congrArg M ?_
  funext a
  match a with
  | ⟨0, _⟩ => rfl
  | ⟨1, _⟩ => rfl

/-! ## The three matrix products, read at an index

The contraction runs over the block's 4096 rows: axis 1 of the indicator matrix against axis 0 of the right operand. -/

theorem lhs_mm512_0 (i : S128x512.Idx) (q : dot_S128x4096_S4096x512_S128x512_1_0_0_1_n_n.contr.Idx) :
    (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem lhs_mm512_1 (i : S128x512.Idx) (q : dot_S128x4096_S4096x512_S128x512_1_0_0_1_n_n.contr.Idx) :
    (dot_S128x4096_S4096x512_S128x512_1_0_0_1_n_n.lhsIdx i q 1).val = (q ⟨0, by decide⟩).val :=
  dot_S128x4096_S4096x512_S128x512_1_0_0_1_n_n.lhsIdx_val_of_single rfl i q
theorem rhs_mm512_0 (i : S128x512.Idx) (q : dot_S128x4096_S4096x512_S128x512_1_0_0_1_n_n.contr.Idx) :
    (dot_S128x4096_S4096x512_S128x512_1_0_0_1_n_n.rhsIdx i q 0).val = (q ⟨0, by decide⟩).val :=
  dot_S128x4096_S4096x512_S128x512_1_0_0_1_n_n.rhsIdx_val_of_single rfl i q
theorem rhs_mm512_1 (i : S128x512.Idx) (q : dot_S128x4096_S4096x512_S128x512_1_0_0_1_n_n.contr.Idx) :
    (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-- The product of a `[128, 4096]` matrix with a `[4096, 512]` one into zeros, at `(s, d)`: the sum over the rows. -/
theorem mm512_apply (L : FVec Ideal S128x4096 .f32) (R : FVec Ideal S4096x512 .f32) (s : Fin 128) (d : Fin 512) :
    matmul dot_S128x4096_S4096x512_S128x512_1_0_0_1_n_n none L R (constant S128x512 .f32 0x00000000#32) (ix2 s d)
      = ∑ r : Fin 4096, L (ix2 s r) * R (ix2 r d) := by
  refine (Ideal.matmul_constant_zero_apply dot_S128x4096_S4096x512_S128x512_1_0_0_1_n_n none L R (ix2 s d)).trans ?_
  rw [← Equiv.sum_comp (ValueIdx.contrEquiv1 dot_S128x4096_S4096x512_S128x512_1_0_0_1_n_n 4096 rfl rfl).symm]
  refine Finset.sum_congr rfl fun k _ => ?_
  have hk := ValueIdx.contrEquiv1_symm_val dot_S128x4096_S4096x512_S128x512_1_0_0_1_n_n 4096 rfl rfl k
  have el : dot_S128x4096_S4096x512_S128x512_1_0_0_1_n_n.lhsIdx (ix2 s d) ((ValueIdx.contrEquiv1 dot_S128x4096_S4096x512_S128x512_1_0_0_1_n_n 4096 rfl rfl).symm k) = ix2 s k := funext fun a => Fin.ext (by
    match a with
    | ⟨0, _⟩ => exact lhs_mm512_0 _ _
    | ⟨1, _⟩ => exact (lhs_mm512_1 _ _).trans hk)
  have er : dot_S128x4096_S4096x512_S128x512_1_0_0_1_n_n.rhsIdx (ix2 s d) ((ValueIdx.contrEquiv1 dot_S128x4096_S4096x512_S128x512_1_0_0_1_n_n 4096 rfl rfl).symm k) = ix2 k d := funext fun a => Fin.ext (by
    match a with
    | ⟨0, _⟩ => exact (rhs_mm512_0 _ _).trans hk
    | ⟨1, _⟩ => exact rhs_mm512_1 _ _)
  rw [el, er]

theorem lhs_mm1_0 (i : S128x1.Idx) (q : dot_S128x4096_S4096x1_S128x1_1_0_0_1_n_n.contr.Idx) :
    (dot_S128x4096_S4096x1_S128x1_1_0_0_1_n_n.lhsIdx i q 0).val = (i 0).val := by
  unfold DotDims.lhsIdx
  rw [dif_neg (show ¬(0 : Fin S128x4096.rank) ∈ dot_S128x4096_S4096x1_S128x1_1_0_0_1_n_n.lhsBatch by decide), dif_pos (show (0 : Fin S128x4096.rank) ∈ dot_S128x4096_S4096x1_S128x1_1_0_0_1_n_n.lhsNonContracting by decide)]
  rfl
theorem lhs_mm1_1 (i : S128x1.Idx) (q : dot_S128x4096_S4096x1_S128x1_1_0_0_1_n_n.contr.Idx) :
    (dot_S128x4096_S4096x1_S128x1_1_0_0_1_n_n.lhsIdx i q 1).val = (q ⟨0, by decide⟩).val :=
  dot_S128x4096_S4096x1_S128x1_1_0_0_1_n_n.lhsIdx_val_of_single rfl i q
theorem rhs_mm1_0 (i : S128x1.Idx) (q : dot_S128x4096_S4096x1_S128x1_1_0_0_1_n_n.contr.Idx) :
    (dot_S128x4096_S4096x1_S128x1_1_0_0_1_n_n.rhsIdx i q 0).val = (q ⟨0, by decide⟩).val :=
  dot_S128x4096_S4096x1_S128x1_1_0_0_1_n_n.rhsIdx_val_of_single rfl i q
theorem rhs_mm1_1 (i : S128x1.Idx) (q : dot_S128x4096_S4096x1_S128x1_1_0_0_1_n_n.contr.Idx) :
    (dot_S128x4096_S4096x1_S128x1_1_0_0_1_n_n.rhsIdx i q 1).val = (i 1).val := by
  unfold DotDims.rhsIdx
  rw [dif_neg (show ¬(1 : Fin S4096x1.rank) ∈ dot_S128x4096_S4096x1_S128x1_1_0_0_1_n_n.rhsBatch by decide), dif_pos (show (1 : Fin S4096x1.rank) ∈ dot_S128x4096_S4096x1_S128x1_1_0_0_1_n_n.rhsNonContracting by decide)]
  rfl

/-- The product of a `[128, 4096]` matrix with a `[4096, 1]` column into zeros, at `(s, u)`: the sum over the rows. -/
theorem mm1_apply (L : FVec Ideal S128x4096 .f32) (R : FVec Ideal S4096x1 .f32) (s : Fin 128) (u : Fin 1) :
    matmul dot_S128x4096_S4096x1_S128x1_1_0_0_1_n_n none L R (constant S128x1 .f32 0x00000000#32) (ix2 s u)
      = ∑ r : Fin 4096, L (ix2 s r) * R (ix2 r u) := by
  refine (Ideal.matmul_constant_zero_apply dot_S128x4096_S4096x1_S128x1_1_0_0_1_n_n none L R (ix2 s u)).trans ?_
  rw [← Equiv.sum_comp (ValueIdx.contrEquiv1 dot_S128x4096_S4096x1_S128x1_1_0_0_1_n_n 4096 rfl rfl).symm]
  refine Finset.sum_congr rfl fun k _ => ?_
  have hk := ValueIdx.contrEquiv1_symm_val dot_S128x4096_S4096x1_S128x1_1_0_0_1_n_n 4096 rfl rfl k
  have el : dot_S128x4096_S4096x1_S128x1_1_0_0_1_n_n.lhsIdx (ix2 s u) ((ValueIdx.contrEquiv1 dot_S128x4096_S4096x1_S128x1_1_0_0_1_n_n 4096 rfl rfl).symm k) = ix2 s k := funext fun a => Fin.ext (by
    match a with
    | ⟨0, _⟩ => exact lhs_mm1_0 _ _
    | ⟨1, _⟩ => exact (lhs_mm1_1 _ _).trans hk)
  have er : dot_S128x4096_S4096x1_S128x1_1_0_0_1_n_n.rhsIdx (ix2 s u) ((ValueIdx.contrEquiv1 dot_S128x4096_S4096x1_S128x1_1_0_0_1_n_n 4096 rfl rfl).symm k) = ix2 k u := funext fun a => Fin.ext (by
    match a with
    | ⟨0, _⟩ => exact (rhs_mm1_0 _ _).trans hk
    | ⟨1, _⟩ => exact rhs_mm1_1 _ _)
  rw [el, er]

/-! ## Three columns side by side -/

/-- Three `[128, 1]` columns laid side by side, read at column 0: the first. -/
theorem cat3_apply_0 (A B C : FVec Ideal S128x1 .f32) (s : Fin 128) :
    concatenate S128x3 1 [⟨S128x1, A⟩, ⟨S128x1, B⟩, ⟨S128x1, C⟩] concatenates_S128x1_S128x1_S128x1_S128x3_d1 (ix2 s (⟨0, by decide⟩ : Fin 3))
      = A (ix2 s (0 : Fin 1)) :=
  concatenate_apply_piece (1 : Fin S128x3.rank) [⟨S128x1, A⟩, ⟨S128x1, B⟩, ⟨S128x1, C⟩] concatenates_S128x1_S128x1_S128x1_S128x3_d1
    (ix2 s (⟨0, by decide⟩ : Fin 3)) 0 (by show (0 : ℕ) < 3; decide) S128x1 A rfl rfl 0 rfl (ix2 s (0 : Fin 1))
    (fun b hb => by
      match b with
      | ⟨0, _⟩ => rfl
      | ⟨1, _⟩ => exact absurd rfl hb)
    rfl

/-- … at column 1: the second. -/
theorem cat3_apply_1 (A B C : FVec Ideal S128x1 .f32) (s : Fin 128) :
    concatenate S128x3 1 [⟨S128x1, A⟩, ⟨S128x1, B⟩, ⟨S128x1, C⟩] concatenates_S128x1_S128x1_S128x1_S128x3_d1 (ix2 s (⟨1, by decide⟩ : Fin 3))
      = B (ix2 s (0 : Fin 1)) :=
  concatenate_apply_piece (1 : Fin S128x3.rank) [⟨S128x1, A⟩, ⟨S128x1, B⟩, ⟨S128x1, C⟩] concatenates_S128x1_S128x1_S128x1_S128x3_d1
    (ix2 s (⟨1, by decide⟩ : Fin 3)) 1 (by show (1 : ℕ) < 3; decide) S128x1 B rfl rfl 1 rfl (ix2 s (0 : Fin 1))
    (fun b hb => by
      match b with
      | ⟨0, _⟩ => rfl
      | ⟨1, _⟩ => exact absurd rfl hb)
    rfl

/-- … at column 2: the third. -/
theorem cat3_apply_2 (A B C : FVec Ideal S128x1 .f32) (s : Fin 128) :
    concatenate S128x3 1 [⟨S128x1, A⟩, ⟨S128x1, B⟩, ⟨S128x1, C⟩] concatenates_S128x1_S128x1_S128x1_S128x3_d1 (ix2 s (⟨2, by decide⟩ : Fin 3))
      = C (ix2 s (0 : Fin 1)) :=
  concatenate_apply_piece (1 : Fin S128x3.rank) [⟨S128x1, A⟩, ⟨S128x1, B⟩, ⟨S128x1, C⟩] concatenates_S128x1_S128x1_S128x1_S128x3_d1
    (ix2 s (⟨2, by decide⟩ : Fin 3)) 2 (by show (2 : ℕ) < 3; decide) S128x1 C rfl rfl 2 rfl (ix2 s (0 : Fin 1))
    (fun b hb => by
      match b with
      | ⟨0, _⟩ => rfl
      | ⟨1, _⟩ => exact absurd rfl hb)
    rfl

/-! ## The three payloads at an index -/

/-- The word of `1.0` is the extended real `1`. -/
theorem one_f32 : Ideal.ofBits .f32 0x3F800000#32 = 1 := IdealRules.sign_bit.ideal_onePat .f32

/-- The reset stores zeros. -/
theorem pay1_apply (s : Fin 128) (k : Fin 3) : k0_pay1 (F := Ideal) (ix2 s k) = 0 := by
  unfold k0_pay1
  refine (congrFun (shapeCast_self _ _) _).trans ?_
  exact Ideal.ofBits_zero_f32

/-- The update stores the accumulator's old value plus the block's three sums. -/
theorem pay2_apply (v3 : Vec Ideal S4096x512 .f32) (v4 : Vec Ideal S1x4096 .i32) (v22 : Vec Ideal S128x3 .f32)
    (s : Fin 128) (k : Fin 3) :
    k0_pay2 (F := Ideal) v3 v4 v22 (ix2 s k) = v22 (ix2 s k) + bpart v3 v4 s k := by
  unfold k0_pay2
  dsimp only
  refine (congrFun (shapeCast_self _ _) _).trans ?_
  refine congrArg (v22 (ix2 s k) + ·) ?_
  match k with
  | ⟨0, _⟩ =>
    refine (cat3_apply_0 _ _ _ s).trans ?_
    refine (rowsum_apply _ s 0).trans ?_
    refine Finset.sum_congr rfl fun d _ => ?_
    refine (mm512_apply _ _ s d).trans ?_
    refine Finset.sum_congr rfl fun r _ => ?_
    exact congrArg (· * v3 (ix2 r d)) (onehot_apply v4 s r)
  | ⟨1, _⟩ =>
    refine (cat3_apply_1 _ _ _ s).trans ?_
    refine (rowsum_apply _ s 0).trans ?_
    refine Finset.sum_congr rfl fun d _ => ?_
    refine (mm512_apply _ _ s d).trans ?_
    refine Finset.sum_congr rfl fun r _ => ?_
    exact congrArg (· * (v3 (ix2 r d) * v3 (ix2 r d))) (onehot_apply v4 s r)
  | ⟨2, _⟩ =>
    refine (cat3_apply_2 _ _ _ s).trans ?_
    refine (mm1_apply _ _ s 0).trans ?_
    refine Finset.sum_congr rfl fun r _ => ?_
    refine (congrArg (· * Ideal.ofBits .f32 0x3F800000#32) (onehot_apply v4 s r)).trans ?_
    rw [one_f32, mul_one]

/-- The copy-out stores the accumulator under a leading unit axis. -/
theorem pay3_apply (v30 : Vec Ideal S128x3 .f32) (u : Fin 1) (s : Fin 128) (k : Fin 3) :
    k0_pay3 (F := Ideal) v30 (ix3 u s k) = v30 (ix2 s k) := by
  unfold k0_pay3
  exact shapeCast_ab_1ab_apply v30 _ u s k

/-- The same at any index of the `[1, 128, 3]` block. -/
theorem pay3_apply' (v30 : Vec Ideal S128x3 .f32) (i : S1x128x3.Idx) :
    k0_pay3 (F := Ideal) v30 i = v30 (ix2 (i 1) (i 2)) := by
  obtain ⟨u, s, k, rfl⟩ : ∃ (u : Fin 1) (s : Fin 128) (k : Fin 3), i = ix3 u s k := ⟨i 0, i 1, i 2, eq_ix3 i⟩
  exact pay3_apply v30 u s k

end Cert.KernelIdeal.Hand

end
-- ==== Proof.StatsBlocks.lean ====
import proofs.«418694_j85023172591851_3_alg».proof.Proof.StatsFrame
import proofs.«418694_j85023172591851_3_alg».proof.Proof.StatsPayload
import Idealize.ShloMosaic.Lib.Pipeline.Value

/-!
# The blocks a point of the statistics region reads, as entries of the arrays

Point `t = 16 c' + j` of the region's grid reads block `t` of the rows (`[4096, 512]` of `x : [131072, 512]`) and block `t` of
the group words (`[1, 4096]` of `[1, 131072]`): row `r` of either block is row `4096 (16 c' + j) + r` of the array. So the
three sums the body takes over its blocks are the closed form's sums over those rows.
-/

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- The two inputs' block indices, decided over the 32 points: the rows' block is block `t` along the rows, the group
    words' block is block `t` along the lanes. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, win0_0.index t (0 : Fin 2) = t.val ∧ win0_0.index t (1 : Fin 2) = 0
    ∧ win0_1.index t (0 : Fin 2) = 0 ∧ win0_1.index t (1 : Fin 2) = t.val)

/-- Entry `(r, d)` of the rows' block at point `t = 16 c' + j` is entry `(4096 (16 c' + j) + r, d)` of `x`. -/
theorem xblk_apply (c : Dev nD) (t : Fin cfg0.N) (c' : Fin 2) (j : Fin 16) (ht : t.val = 16 * c'.val + j.val)
    (r : Fin 4096) (d : Fin 512) :
    (iblk0 V c 0 t : Vec F S4096x512 .f32) (ix2 r d) = (V c main_arg0 : Vec F S131072x512 .f32) (ix2 (krow c' j r) d) := by
  obtain ⟨e0, e1, -, -⟩ := idx_facts0 t
  unfold iblk0
  rw [View.read_apply]
  show V c main_arg0 (((cfg0.win 0).blk t).view.emb (ix2 r d)) = V c main_arg0 (ix2 (krow c' j r) d)
  refine congrArg (V c main_arg0) ?_
  funext a
  apply Fin.ext
  match a with
  | ⟨0, _⟩ =>
    show win0_0.index t (0 : Fin 2) * 4096 + 1 * r.val = 4096 * (16 * c'.val + j.val) + r.val
    rw [e0, ht]; omega
  | ⟨1, _⟩ =>
    show win0_0.index t (1 : Fin 2) * 512 + 1 * d.val = d.val
    rw [e1]; omega

/-- Entry `(0, r)` of the group words' block at point `t = 16 c' + j` is entry `(0, 4096 (16 c' + j) + r)` of the group
    words. -/
theorem gblk_apply (c : Dev nD) (t : Fin cfg0.N) (c' : Fin 2) (j : Fin 16) (ht : t.val = 16 * c'.val + j.val)
    (u : Fin 1) (r : Fin 4096) :
    (iblk0 V c 1 t : Vec F S1x4096 .i32) (ix2 u r) = (V c main_v1 : Vec F S1x131072 .i32) (ix2 (0 : Fin 1) (krow c' j r)) := by
  obtain ⟨-, -, e0, e1⟩ := idx_facts0 t
  have hu : u.val = 0 := by omega
  unfold iblk0
  rw [View.read_apply]
  show V c main_v1 (((cfg0.win 1).blk t).view.emb (ix2 u r)) = V c main_v1 (ix2 (0 : Fin 1) (krow c' j r))
  refine congrArg (V c main_v1) ?_
  funext a
  apply Fin.ext
  match a with
  | ⟨0, _⟩ =>
    show win0_1.index t (0 : Fin 2) * 1 + 1 * u.val = 0
    rw [e0, hu]
  | ⟨1, _⟩ =>
    show win0_1.index t (1 : Fin 2) * 4096 + 1 * r.val = 4096 * (16 * c'.val + j.val) + r.val
    rw [e1, ht]; omega

/-- So, at the extended reals, what the body adds at point `t = 16 c' + j` is the closed form's summand for block `j` of
    core `c'`. -/
theorem bpart_blk (V : (c : Dev nD) → (b : Ref sig .tc) → Buf (Elt Ideal) ((c : Thread nD τ).loc b)) (c : Dev nD)
    (t : Fin cfg0.N) (c' : Fin 2) (j : Fin 16) (ht : t.val = 16 * c'.val + j.val) (s : Fin 128) (k : Fin 3) :
    bpart (iblk0 (F := Ideal) V c 0 t) (iblk0 (F := Ideal) V c 1 t) s k = kpart (V c main_arg0) (V c main_v1) c' j s k := by
  have hx : ∀ (r : Fin 4096) (d : Fin 512), (iblk0 (F := Ideal) V c 0 t : Vec Ideal S4096x512 .f32) (ix2 r d)
      = (V c main_arg0 : Vec Ideal S131072x512 .f32) (ix2 (krow c' j r) d) := xblk_apply V c t c' j ht
  have hg : ∀ r : Fin 4096, ohw ((iblk0 (F := Ideal) V c 1 t : Vec Ideal S1x4096 .i32) (ix2 (0 : Fin 1) r)) s
      = oh (V c main_v1) s (krow c' j r) := fun r => congrArg (ohw · s) (gblk_apply V c t c' j ht 0 r)
  match k with
  | ⟨0, _⟩ =>
    exact Finset.sum_congr rfl fun d _ => Finset.sum_congr rfl fun r _ => by rw [hg r, hx r d]
  | ⟨1, _⟩ =>
    exact Finset.sum_congr rfl fun d _ => Finset.sum_congr rfl fun r _ => by rw [hg r, hx r d]
  | ⟨2, _⟩ =>
    exact Finset.sum_congr rfl fun r _ => hg r

end Cert.KernelIdeal.Hand

end
-- ==== Proof.StatsAcc.lean ====
/- The statistics region's accumulator, read: what each control case's stores leave as the body's payloads of the input
   blocks (any float type), then, at the extended reals, the accumulator's value after every point by induction on the
   point, and the output block as the accumulator's copy. -/
import proofs.«418694_j85023172591851_3_alg».proof.Proof.StatsFrame
import proofs.«418694_j85023172591851_3_alg».proof.Proof.StatsPayload
import proofs.«418694_j85023172591851_3_alg».proof.Proof.StatsBlocks
import Idealize.ShloMosaic.Lib.Pipeline.Value

-- the runs' witnesses are opened here, over rectangles of long extents: the structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, as the body's payloads of the blocks

The pieces a run found are the body's stores; read back, the accumulator holds the update's payload of the two input
blocks and of its own old value (the zeros of the reset in case A), and the output block the copy of that. -/

/-- The origin of a rank-2 rectangle is the zero offset. -/
theorem origin2 : (![0, 0] : Fin 2 → ℕ) = fun _ => 0 := by funext a; fin_cases a <;> rfl
/-- The origin of a rank-3 rectangle is the zero offset. -/
theorem origin3 : (![0, 0, 0] : Fin 3 → ℕ) = fun _ => 0 := by funext a; fin_cases a <;> rfl

/-- Case A leaves in the accumulator the zeros of the reset plus the block's sums: the update's payload over the reset's. -/
theorem sout0_A_0_eq (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : cond0_0 i) (hc1 : ¬cond0_1 i)
    (x0 : Vec F S4096x512 .f32) (x1 : Vec F S1x4096 .i32) :
    sout0_A_0 c i arg2 harg2 arg3 harg3 arg4 harg4 arg5 harg5 hc0 hc1 x0 x1 = k0_pay2 x0 x1 (k0_pay1 (F := F)) := by
  unfold sout0_A_0; rw [View.read_writes_eq_canon _ _ _ (scover0_A_0 c i arg2 harg2 arg3 harg3 arg4 harg4 arg5 harg5 hc0 hc1 x0 x1)]
  unfold kernelRun0_A; dsimp only; sl_unfold_words
  rw [View.canon_cons_unit_zero (S := S128x3) origin2, View.readCov_unit_zero (S := S128x3) _ origin2]
  simp only [View.readAt_eq_ld, harg2.read_unread, harg3.read_unread, harg5.read_unread, View.ld_unit_zero (S := S4096x512) origin2, View.ld_unit_zero (S := S1x4096) origin2, View.ld_unit_zero (S := S128x3) origin2]

/-- Case B leaves in the accumulator its old value plus the block's sums. -/
theorem sout0_B_0_eq (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : ¬cond0_1 i)
    (x0 : Vec F S4096x512 .f32) (x1 : Vec F S1x4096 .i32) (xs0 : Vec F S128x3 .f32) :
    sout0_B_0 c i arg2 harg2 arg3 harg3 arg4 harg4 arg5 harg5 hc0 hc1 x0 x1 xs0 = k0_pay2 x0 x1 xs0 := by
  unfold sout0_B_0; rw [View.read_writes_eq_canon _ _ _ (scover0_B_0 c i arg2 harg2 arg3 harg3 arg4 harg4 arg5 harg5 hc0 hc1 x0 x1 xs0)]
  unfold kernelRun0_B; dsimp only; sl_unfold_words
  rw [View.canon_unit_zero (S := S128x3) origin2]
  simp only [View.readAt_eq_ld, harg2.read_unread, harg3.read_unread, harg5.read_unread, View.ld_unit_zero (S := S4096x512) origin2, View.ld_unit_zero (S := S1x4096) origin2, View.ld_unit_zero (S := S128x3) origin2]

/-- Case C leaves in the accumulator the same as case B, -/
theorem sout0_C_0_eq (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) :
    sout0_C_0 c i arg2 harg2 arg3 harg3 arg4 harg4 arg5 harg5 hc0 hc1 x0 x1 xs0 = k0_pay2 x0 x1 xs0 := by
  unfold sout0_C_0; rw [View.read_writes_eq_canon _ _ _ (scover0_C_0 c i arg2 harg2 arg3 harg3 arg4 harg4 arg5 harg5 hc0 hc1 x0 x1 xs0)]
  unfold kernelRun0_C; dsimp only; sl_unfold_words
  rw [View.canon_unit_zero (S := S128x3) origin2]
  simp only [View.readAt_eq_ld, harg2.read_unread, harg3.read_unread, harg5.read_unread, View.ld_unit_zero (S := S4096x512) origin2, View.ld_unit_zero (S := S1x4096) origin2, View.ld_unit_zero (S := S128x3) origin2]

/-- and in the output block the copy of that accumulator under a leading unit axis. -/
theorem out0_C_2_eq (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x128x3 .f32) (harg4 : arg4.IsWhole) (arg5 : Memref sig .tc .vmem S128x3 .f32) (harg5 : arg5.IsWhole) (hc0 : ¬cond0_0 i) (hc1 : cond0_1 i)
    (x0 : Vec F S4096x512 .f32) (x1 : Vec F S1x4096 .i32) (xs0 : Vec F S128x3 .f32) :
    out0_C_2 c i arg2 harg2 arg3 harg3 arg4 harg4 arg5 harg5 hc0 hc1 x0 x1 xs0 = k0_pay3 (k0_pay2 x0 x1 xs0) := by
  unfold out0_C_2; rw [View.read_writes_eq_canon _ _ _ (cover0_C_2 c i arg2 harg2 arg3 harg3 arg4 harg4 arg5 harg5 hc0 hc1 x0 x1 xs0)]
  unfold kernelRun0_C; dsimp only; sl_unfold_words
  rw [View.canon_unit_zero (S := S1x128x3) origin3, View.readCov_unit_zero (S := S128x3) _ origin2]
  simp only [View.readAt_eq_ld, harg2.read_unread, harg3.read_unread, harg5.read_unread, View.ld_unit_zero (S := S4096x512) origin2, View.ld_unit_zero (S := S1x4096) origin2, View.ld_unit_zero (S := S128x3) origin2]

/-! # The accumulator's value, point by point (at the extended reals)

After the body at point `t` of core-half `t / 16`, the accumulator holds, per lane and column, the sum of what the blocks
`0 … t % 16` of that core-half add: the reset at step 0 makes the sum start afresh, every step adds its block's part. -/

section AtIdeal

variable (V : (c : Dev nD) → (b : Ref sig .tc) → Buf (Elt Ideal) ((c : Thread nD τ).loc b))

/-- The invariant of the accumulation, by induction on the point; the core-half is named `c'` so that the step before
    (same core-half) is an instance of the same statement. -/
theorem acc_at_aux (c : Dev nD) : ∀ (n : ℕ) (t : Fin cfg0.N), t.val = n → ∀ (c' : Fin 2), c'.val = t.val / 16 → ∀ (s : Fin 128) (k : Fin 3),
    (outsAt0 (F := Ideal) V c t.val t.isLt).2 (ix2 s k)
      = ∑ j' ∈ Finset.range (t.val % 16 + 1), (if h : j' < 16 then kpart (V c main_arg0) (V c main_v1) c' ⟨j', h⟩ s k else 0) := by
  intro n
  induction n using Nat.strong_induction_on with
  | _ n ih =>
    intro t ht c' hc s k
    have hN : t.val < 32 := lt_of_lt_of_eq t.isLt (show cfg0.N = 32 from N_0)
    by_cases h0 : t.val % 16 = 0
    · -- step 0 of a core-half: the reset, then this block's part alone
      have h1 : ¬t.val % 16 = 15 := by omega
      rw [outsAt0_A V c t h0 h1]; dsimp only
      refine (congrFun (sout0_A_0_eq (F := Ideal) c (grid0.coords t) (ms0_0 t) (hs0_0 t) (ms0_1 t) (hs0_1 t) (ms0_2 t) (hs0_2 t) scM0_0 (Memref.isWhole_whole cc0_scratch0) ((hcond0_0 t).mpr h0) (fun h => h1 ((hcond0_1 t).mp h)) (iblk0 (F := Ideal) V c 0 t) (iblk0 (F := Ideal) V c 1 t)) (ix2 s k)).trans ?_
      refine (pay2_apply (iblk0 (F := Ideal) V c 0 t) (iblk0 (F := Ideal) V c 1 t) (k0_pay1 (F := Ideal)) s k).trans ?_
      rw [pay1_apply s k, zero_add, bpart_blk V c t c' ⟨0, by decide⟩ (by show t.val = 16 * c'.val + 0; omega) s k,
        show t.val % 16 + 1 = 1 by omega, Finset.sum_range_one, dif_pos (by decide : (0 : ℕ) < 16)]
    · -- a later step: what the step before left, plus this block's part
      have hprev : t.val - 1 < cfg0.N := Nat.lt_of_le_of_lt (Nat.sub_le _ _) t.isLt
      have ih' : (outsAt0 (F := Ideal) V c (t.val - 1) (Nat.lt_of_le_of_lt (Nat.sub_le _ _) t.isLt)).2 (ix2 s k)
          = ∑ j' ∈ Finset.range ((t.val - 1) % 16 + 1), (if h : j' < 16 then kpart (V c main_arg0) (V c main_v1) c' ⟨j', h⟩ s k else 0) :=
        ih (t.val - 1) (by omega) ⟨t.val - 1, hprev⟩ rfl c' (by show c'.val = (t.val - 1) / 16; omega) s k
      have hlt : t.val % 16 < 16 := Nat.mod_lt _ (by decide)
      have hb := bpart_blk V c t c' ⟨t.val % 16, hlt⟩ (by show t.val = 16 * c'.val + t.val % 16; omega) s k
      by_cases h1 : t.val % 16 = 15
      · rw [outsAt0_C V c t h0 h1]; dsimp only
        refine (congrFun (sout0_C_0_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk0 (F := Ideal) V c 0 t) (iblk0 (F := Ideal) V c 1 t) (outsAt0 (F := Ideal) V c (t.val - 1) (Nat.lt_of_le_of_lt (Nat.sub_le _ _) t.isLt)).2) (ix2 s k)).trans ?_
        refine (pay2_apply (iblk0 (F := Ideal) V c 0 t) (iblk0 (F := Ideal) V c 1 t) (outsAt0 (F := Ideal) V c (t.val - 1) (Nat.lt_of_le_of_lt (Nat.sub_le _ _) t.isLt)).2 s k).trans ?_
        rw [ih', hb, show (t.val - 1) % 16 + 1 = t.val % 16 by omega, Finset.sum_range_succ, dif_pos hlt]
      · rw [outsAt0_B V c t h0 h1]; dsimp only
        refine (congrFun (sout0_B_0_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) (fun h => h1 ((hcond0_1 t).mp h)) (iblk0 (F := Ideal) V c 0 t) (iblk0 (F := Ideal) V c 1 t) (outsAt0 (F := Ideal) V c (t.val - 1) (Nat.lt_of_le_of_lt (Nat.sub_le _ _) t.isLt)).2) (ix2 s k)).trans ?_
        refine (pay2_apply (iblk0 (F := Ideal) V c 0 t) (iblk0 (F := Ideal) V c 1 t) (outsAt0 (F := Ideal) V c (t.val - 1) (Nat.lt_of_le_of_lt (Nat.sub_le _ _) t.isLt)).2 s k).trans ?_
        rw [ih', hb, show (t.val - 1) % 16 + 1 = t.val % 16 by omega, Finset.sum_range_succ, dif_pos hlt]

/-- THE ACCUMULATOR after point `t`: lane `s`, column `k` holds the parts of the blocks `0 … t % 16` of core-half `t / 16`. -/
theorem acc_at (c : Dev nD) (t : Fin cfg0.N) (s : Fin 128) (k : Fin 3) :
    (outsAt0 (F := Ideal) V c t.val t.isLt).2 (ix2 s k)
      = ∑ j' ∈ Finset.range (t.val % 16 + 1), (if h : j' < 16 then kpart (V c main_arg0) (V c main_v1) ⟨t.val / 16, by have := t.isLt; have : cfg0.N = 32 := N_0; omega⟩ ⟨j', h⟩ s k else 0) :=
  acc_at_aux V c t.val t rfl ⟨t.val / 16, by have := t.isLt; have : cfg0.N = 32 := N_0; omega⟩ rfl s k

/-- THE OUTPUT BLOCK after the last step of a core-half: the accumulator, under a leading unit axis. -/
theorem out_at (c : Dev nD) (t : Fin cfg0.N) (h : t.val % 16 = 15) (i : S1x128x3.Idx) :
    (outsAt0 (F := Ideal) V c t.val t.isLt).1 i = (outsAt0 (F := Ideal) V c t.val t.isLt).2 (ix2 (i 1) (i 2)) := by
  have h0 : ¬t.val % 16 = 0 := by omega
  rw [outsAt0_C V c t h0 h]; dsimp only
  refine (congrFun (out0_C_2_eq (F := Ideal) c (grid0.coords t) (ms0_0 t) (hs0_0 t) (ms0_1 t) (hs0_1 t) (ms0_2 t) (hs0_2 t) scM0_0 (Memref.isWhole_whole cc0_scratch0) (fun h' => h0 ((hcond0_0 t).mp h')) ((hcond0_1 t).mpr h) (iblk0 (F := Ideal) V c 0 t) (iblk0 (F := Ideal) V c 1 t) (outsAt0 (F := Ideal) V c (t.val - 1) (Nat.lt_of_le_of_lt (Nat.sub_le _ _) t.isLt)).2) i).trans ?_
  refine (pay3_apply' (k0_pay2 (F := Ideal) (iblk0 (F := Ideal) V c 0 t) (iblk0 (F := Ideal) V c 1 t) (outsAt0 (F := Ideal) V c (t.val - 1) (Nat.lt_of_le_of_lt (Nat.sub_le _ _) t.isLt)).2) i).trans ?_
  exact (congrFun (sout0_C_0_eq (F := Ideal) c (grid0.coords t) (ms0_0 t) (hs0_0 t) (ms0_1 t) (hs0_1 t) (ms0_2 t) (hs0_2 t) scM0_0 (Memref.isWhole_whole cc0_scratch0) (fun h' => h0 ((hcond0_0 t).mp h')) ((hcond0_1 t).mpr h) (iblk0 (F := Ideal) V c 0 t) (iblk0 (F := Ideal) V c 1 t) (outsAt0 (F := Ideal) V c (t.val - 1) (Nat.lt_of_le_of_lt (Nat.sub_le _ _) t.isLt)).2) (ix2 (i 1) (i 2))).symm

end AtIdeal

end Cert.KernelIdeal.Hand

end
-- ==== Proof.StatsValue.lean ====
/- The statistics region of the kernel, its VALUE at the extended reals: the array the region leaves in its output
   window, as ONE function of the region-entry contents of the data and of the group numbers, index by index.

   The grid is (2, 16): point `t` is core-half `c' = t / 16`, step `t % 16`. The output `[2, 128, 3]` is written back only
   at the last step of each half, `t = 16·c' + 15`, through block `c'` (one `[1, 128, 3]` slab); what is written there is the
   accumulator after the half's 16 steps, the sum over the half's 16 row blocks of each block's three per-lane sums. So
   a written-back block is its slab of `kstats`, and the two slabs cover the array. -/
import proofs.«418694_j85023172591851_3_alg».proof.Proof.StatsAcc
import proofs.«418694_j85023172591851_3_alg».proof.Proof.StatsSpec
import Idealize.ShloMosaic.Lib.Pipeline.Value
import Idealize.ShloMosaic.Lib.ValueIdx
import Idealize.ShloMosaic.Lib.ValueIdxCoords
import Idealize.ShloMosaic.Lib.Tactic

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region0
variable (V : (c : Dev nD) → (b : Ref sig .tc) → Buf (Elt Ideal) ((c : Thread nD τ).loc b))

/-! ## The printed index map of the output window, decided once over the grid -/

/-- Point `t`'s output block is slab `t / 16`. -/
theorem outIdx0 : ∀ t : Fin cfg0.N,
    win0_2.index t (0 : Fin 3) = t.val / 16 ∧ win0_2.index t (1 : Fin 3) = 0 ∧ win0_2.index t (2 : Fin 3) = 0 :=
  (by decide +kernel : ∀ t : Fin grid0.N, _)

/-- Where element `(u, s, k)` of point `t`'s output block sits in the array: slab `t / 16`, lane `s`, column `k`. -/
theorem outEmb0 (t : Fin cfg0.N) (u : Fin 1) (s : Fin 128) (k : Fin 3) :
    ((cfg0.win 2).blk t).view.emb (ix3 u s k)
      = (ix3 (⟨t.val / 16, by have := t.isLt; have : cfg0.N = 32 := N_0; omega⟩ : Fin 2) s k : S2x128x3.Idx) := by
  obtain ⟨e0, e1, e2⟩ := outIdx0 t
  funext a
  apply Fin.ext
  match a with
  | ⟨0, _⟩ => show win0_2.index t (0 : Fin 3) * 1 + 1 * u.val = t.val / 16; rw [e0]; have := u.isLt; omega
  | ⟨1, _⟩ => show win0_2.index t (1 : Fin 3) * 128 + 1 * s.val = s.val; rw [e1]; omega
  | ⟨2, _⟩ => show win0_2.index t (2 : Fin 3) * 3 + 1 * k.val = k.val; rw [e2]; omega

/-! ## What a half's last point writes back -/

/-- The partial sums of a half's steps `0 … 15`, summed, are the half's slab of `kstats`. -/
theorem sum_steps (x : S131072x512.Idx → EReal) (g : S1x131072.Idx → BitVec 32) (c' : Fin 2) (s : Fin 128) (k : Fin 3)
    (n : ℕ) (hn : n = 16) :
    (∑ j' ∈ Finset.range n, (if h : j' < 16 then kpart x g c' ⟨j', h⟩ s k else 0)) = kstats x g (ix3 c' s k) := by
  subst hn
  rw [kstats_apply, ← Fin.sum_univ_eq_sum_range (fun j' => if h : j' < 16 then kpart x g c' ⟨j', h⟩ s k else 0) 16]
  exact Finset.sum_congr rfl fun j _ => dif_pos j.isLt

/-- WHAT A WRITING POINT WRITES BACK is its slab of `kstats` of the data and the group numbers as the region finds them. -/
theorem stats_flushed (c : Dev nD) (t : Fin cfg0.N) (hf : (cfg0.win 2).flush t = true) :
    (dat0 (F := Ideal) V c).flushed 2 t
      = ((cfg0.win 2).blk t).view.read (Elt Ideal) (kstats (V c main_arg0) (V c main_v1)) := by
  have h15 : t.val % 16 = 15 := (flush0_2 t).mp hf
  show (cfg0.win 2).cut (grid0.coords t) ((dat0 (F := Ideal) V c).after 2 t) = _
  rw [after0_2]
  funext j
  obtain ⟨u, s, k, rfl⟩ : ∃ (u : Fin 1) (s : Fin 128) (k : Fin 3), j = ix3 u s k := ⟨j 0, j 1, j 2, eq_ix3 j⟩
  show (outsAt0 (F := Ideal) V c t.val t.isLt).1 (ix3 u s k)
    = kstats (V c main_arg0) (V c main_v1) (((cfg0.win 2).blk t).view.emb (ix3 u s k))
  rw [outEmb0 t u s k, out_at V c t h15 (ix3 u s k)]
  show (outsAt0 (F := Ideal) V c t.val t.isLt).2 (ix2 s k) = _
  rw [acc_at V c t s k]
  exact sum_steps (V c main_arg0) (V c main_v1) ⟨t.val / 16, by have := t.isLt; have : cfg0.N = 32 := N_0; omega⟩ s k _ (by omega)

/-! ## The two slabs cover the array -/

/-- An index of the array is in point `t`'s output block iff each coordinate is in the block's range on its axis. -/
theorem mem_outBlk0 (t : Fin cfg0.N) (i : S2x128x3.Idx) :
    i ∈ ((cfg0.win 2).blk t).view.set
      ↔ ∀ a : Fin 3, win0_2.index t a * S1x128x3.size a ≤ (i a).val ∧ (i a).val < win0_2.index t a * S1x128x3.size a + S1x128x3.size a := by
  show i ∈ ((View.whole main_v2).slice (win0_2.rect t)).set ↔ _
  rw [View.set_slice_whole, Rect.mem_set_unit]
  exact Iff.rfl

/-- Slab `c'` is written back at the last step of half `c'`, point `16·c' + 15`: every index is covered. -/
theorem stats_cover (i : S2x128x3.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 3 := (i 2).isLt
  have hN : cfg0.N = 32 := N_0
  let t : Fin cfg0.N := ⟨16 * (i 0).val + 15, by rw [hN]; omega⟩
  have ht : t.val = 16 * (i 0).val + 15 := rfl
  obtain ⟨e0, e1, e2⟩ := outIdx0 t
  refine ⟨t, (flush0_2 t).mpr (by rw [ht]; omega), ?_⟩
  rw [mem_outBlk0]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 128 ≤ (i 1).val ∧ (i 1).val < win0_2.index t (1 : Fin 3) * 128 + 128
    rw [e1]; omega
  | ⟨2, _⟩ =>
    show win0_2.index t (2 : Fin 3) * 3 ≤ (i 2).val ∧ (i 2).val < win0_2.index t (2 : Fin 3) * 3 + 3
    rw [e2]; omega

/-! ## The array after the region -/

/-- THE OUTPUT ARRAY after the 32 points: `kstats` of the data and the group numbers as the region finds them. -/
theorem stats_arr (c : Dev nD) :
    (dat0 (F := Ideal) V c).arrAt 2 cfg0.N = kstats (V c main_arg0) (V c main_v1) :=
  (dat0 (F := Ideal) V c).arrAt_eq_of_cover 2 (kstats (V c main_arg0) (V c main_v1))
    (fun t hf => stats_flushed V c t hf) stats_cover

end Region0

end Cert.KernelIdeal.Hand

end
-- ==== Proof.KernelValue.lean ====
import proofs.«418694_j85023172591851_3_alg».proof.Proof.Run
import proofs.«418694_j85023172591851_3_alg».proof.Proof.NormValue
import proofs.«418694_j85023172591851_3_alg».proof.Proof.HostValue
import proofs.«418694_j85023172591851_3_alg».proof.Proof.StatsSpec
import proofs.«418694_j85023172591851_3_alg».proof.Proof.KernelSpec
import proofs.«418694_j85023172591851_3_alg».proof.Proof.StatsValue

/-!
  THE KERNEL'S RESULT AS ONE FUNCTION OF THE LAUNCH MEMORY, at the extended reals.

  The result array is what the normalisation pass leaves: `normOf` of the data, of the rows' centres and scales,
  and of the weight and bias rows, each as that pass finds them. The data, weight and bias are as launched: no host
  stretch writes them and the statistics pass only reads the data. The centres and scales are the per-group mean and
  inverse deviation the host computes from the statistics pass's per-core sums, gathered per row at the row's clipped
  group index; the per-core sums are `kstats` of the data and of the clipped group indices laid out as one row. So the
  result is `kernelOut` of the four launch arrays, with no condition on them.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD)

/-! ## The arrays no stretch and no pass changes -/

/-- The data as the statistics pass finds it: as launched. -/
theorem E3_main_arg0 : E3 m c main_arg0 = m ((c : Thread nD τ).loc main_arg0) :=
  V3_launch m c main_arg0 (by decide) (by decide) (by decide)

/-- The data as the normalisation pass finds it: as launched (the statistics pass only reads it). -/
theorem E5_main_arg0 : E5 m c main_arg0 = m ((c : Thread nD τ).loc main_arg0) :=
  calc Bd5 m c (Proc.devRef .tc main_arg0)
    _ = Bd4 m c (Proc.devRef .tc main_arg0) := Bd5_of m c main_arg0 (by decide)
    _ = Gen.V3 m c (Proc.devRef .tc main_arg0) := (Bd4_arr m c 0).trans (((dat0 (E3 m) c).arrAt_in 0 rfl _).trans (A_eq0 (E3 m) c 0))
    _ = m ((c : Thread nD τ).loc main_arg0) := V3_launch m c main_arg0 (by decide) (by decide) (by decide)

/-- The weight row as the normalisation pass finds it: as launched. -/
theorem E5_main_arg1 : E5 m c main_arg1 = m ((c : Thread nD τ).loc main_arg1) :=
  calc Bd5 m c (Proc.devRef .tc main_arg1)
    _ = Bd4 m c (Proc.devRef .tc main_arg1) := Bd5_of m c main_arg1 (by decide)
    _ = Gen.V3 m c (Proc.devRef .tc main_arg1) := Bd4_of_ne m c main_arg1 (by decide)
    _ = m ((c : Thread nD τ).loc main_arg1) := V3_launch m c main_arg1 (by decide) (by decide) (by decide)

/-- The bias row as the normalisation pass finds it: as launched. -/
theorem E5_main_arg2 : E5 m c main_arg2 = m ((c : Thread nD τ).loc main_arg2) :=
  calc Bd5 m c (Proc.devRef .tc main_arg2)
    _ = Bd4 m c (Proc.devRef .tc main_arg2) := Bd5_of m c main_arg2 (by decide)
    _ = Gen.V3 m c (Proc.devRef .tc main_arg2) := Bd4_of_ne m c main_arg2 (by decide)
    _ = m ((c : Thread nD τ).loc main_arg2) := V3_launch m c main_arg2 (by decide) (by decide) (by decide)

/-! ## The clipped group indices -/

/-- After the first two host stretches the clipped indices are the clip of each launched group index. -/
theorem V2_main_v0 : Gen.V2 m c main_v0 = fun i => clip1 (m ((c : Thread nD τ).loc main_arg3) i) :=
  main_v0_eq (Gen.V0 m c)

/-- The row of clipped indices the statistics pass reads. -/
theorem E3_main_v1 : E3 m c main_v1 = gRow (m ((c : Thread nD τ).loc main_arg3)) := by
  show (StableHlo.after hostOps0_2 (Gen.V2 m c)) main_v1 = _
  rw [main_v1_eq (Gen.V2 m c), V2_main_v0 m c]
  rfl

/-- The clipped indices are still there when the host gathers by them: the reshape and the statistics pass leave them. -/
theorem Bd4_main_v0 : Bd4 m c main_v0 = fun i => clip1 (m ((c : Thread nD τ).loc main_arg3) i) :=
  calc Bd4 m c (Proc.devRef .tc main_v0)
    _ = Gen.V3 m c (Proc.devRef .tc main_v0) := Bd4_of_ne m c main_v0 (by decide)
    _ = Gen.V2 m c (Proc.devRef .tc main_v0) := Gen.V3_of m c main_v0 (by decide)
    _ = _ := V2_main_v0 m c

/-! ## The per-core sums -/

/-- What the statistics pass leaves: the per-core sums of the launched data over the clipped group indices. -/
theorem Bd4_main_v2 :
    Bd4 m c main_v2 = kstats (m ((c : Thread nD τ).loc main_arg0)) (gRow (m ((c : Thread nD τ).loc main_arg3))) :=
  calc Bd4 m c (Proc.devRef .tc main_v2)
    _ = (dat0 (E3 m) c).arrAt 2 cfg0.N := Bd4_arr m c 2
    _ = kstats (E3 m c main_arg0) (E3 m c main_v1) := stats_arr (E3 m) c
    _ = _ := by rw [E3_main_arg0 m c, E3_main_v1 m c]

/-! ## The rows' centres and scales -/

/-- The centre of each row: the mean of the row's group. -/
theorem E5_main_v34 : E5 m c main_v34 = fun i =>
    kMean (kstats (m ((c : Thread nD τ).loc main_arg0)) (gRow (m ((c : Thread nD τ).loc main_arg3))))
      (gix (clip1 (m ((c : Thread nD τ).loc main_arg3) (ix1 (i 0))))) := by
  show (StableHlo.after hostOps1 (Bd4 m c)) main_v34 = _
  rw [main_v34_eq (Bd4 m c), Bd4_main_v2 m c, Bd4_main_v0 m c]

/-- The scale of each row: the inverse deviation of the row's group. -/
theorem E5_main_v42 : E5 m c main_v42 = fun i =>
    kIstd (kstats (m ((c : Thread nD τ).loc main_arg0)) (gRow (m ((c : Thread nD τ).loc main_arg3))))
      (gix (clip1 (m ((c : Thread nD τ).loc main_arg3) (ix1 (i 0))))) := by
  show (StableHlo.after hostOps1 (Bd4 m c)) main_v42 = _
  rw [main_v42_eq (Bd4 m c), Bd4_main_v2 m c, Bd4_main_v0 m c]

/-! ## The result -/

/-- THE RESULT ARRAY after the normalisation pass is `kernelOut` of the four launch arrays. -/
theorem kernel_value :
    (dat1 (F := Ideal) (E5 m) c).arrAt 5 cfg1.N
      = kernelOut (m ((c.tc : Thread nD τ).loc main_arg0)) (m ((c.tc : Thread nD τ).loc main_arg1))
          (m ((c.tc : Thread nD τ).loc main_arg2)) (m ((c.tc : Thread nD τ).loc main_arg3)) := by
  rw [norm_arr (E5 m) c, E5_main_arg0 m c, E5_main_arg1 m c, E5_main_arg2 m c, E5_main_v34 m c, E5_main_v42 m c]
  rfl

end Cert.KernelIdeal.Hand

end
-- ==== Proof.RefSpec.lean ====
/-
  The reference's result, written as one function of the four argument arrays.

  The rows are grouped into sixteen segments by an integer word per row. A segment's count is the number of rows whose
  word, read as a signed integer, is the segment's number (a word outside 0..15 lands nowhere), and at least one. A row's
  mean is the sum of its 512 entries over 512; a segment's mean is the sum of its rows' means over its count. Every entry
  has the mean of its row's segment taken off it — the segment a row READS is its word with a negative value wrapped by
  sixteen and then clamped into 0..15 —, a segment's variance is the mean over the 512 columns of the per-column sum of
  squared centred entries over the count, and the result is the centred entry times the reciprocal root of the variance
  plus a small constant, times a per-column weight, plus a per-column offset.
-/
import Idealize.ShloMosaic.Lib.ValueIdx
import Idealize.ShloMosaic.PureOps.Ideal.Laws

noncomputable section

open scoped BigOperators

namespace Cert.ReferenceIdeal.Hand

open Idealize.ShloMosaic Idealize.ShloMosaic.ValueIdx

/-- The word a row's segment word becomes before it is used to read a table of sixteen entries: a negative word has
    sixteen added. -/
def gwrap (v : BitVec 32) : BitVec 32 := Scalar.select (IntOp.cmpi .slt v 0#32) (IntOp.addi v 16#32) v

/-- The table entry a row's segment word reads: the wrapped word, as a signed integer, clamped into 0..15. -/
def gixr (v : BitVec 32) : Fin 16 := ⟨min (gwrap v).toInt.toNat (16 - 1), by omega⟩

/-- A word already in 0..15 reads its own entry. -/
theorem gixr_of_lt (v : BitVec 32) (h : v.toNat < 16) : (gixr v).val = v.toNat := by
  have hs : v.slt 0#32 = false := by
    rw [BitVec.slt_eq_decide]
    have : v.toInt = (v.toNat : Int) := by rw [BitVec.toInt_eq_toNat_cond]; split <;> omega
    simp [this]
  have hw : gwrap v = v := by
    unfold gwrap IntOp.cmpi
    simp only [hs]
    exact if_neg (by decide)
  have hi : v.toInt = (v.toNat : Int) := by rw [BitVec.toInt_eq_toNat_cond]; split <;> omega
  show min (gwrap v).toInt.toNat (16 - 1) = v.toNat
  rw [hw, hi]
  omega

/-- The rows of segment `s`: those whose word, read signed, is `s`. -/
def rSel (g : (⟨1, ![131072]⟩ : Shape).Idx → BitVec 32) (s : Fin 16) : Finset (Fin 131072) :=
  Finset.univ.filter fun r => (g (ix1 r)).toInt = (s.val : Int)

/-- Among words in 0..15 the rows of segment `s` are those whose word is `s` as a natural number. -/
theorem mem_rSel_iff (g : (⟨1, ![131072]⟩ : Shape).Idx → BitVec 32)
    (hg : ∀ r : Fin 131072, (g (ix1 r)).toNat < 16) (s : Fin 16) (r : Fin 131072) :
    r ∈ rSel g s ↔ (g (ix1 r)).toNat = s.val := by
  have hi : (g (ix1 r)).toInt = ((g (ix1 r)).toNat : Int) := by
    have := hg r
    rw [BitVec.toInt_eq_toNat_cond]; split <;> omega
  unfold rSel
  rw [Finset.mem_filter, hi]
  constructor
  · rintro ⟨_, h⟩; exact_mod_cast h
  · intro h; exact ⟨Finset.mem_univ _, by exact_mod_cast h⟩

/-- A segment's count: one per row of the segment, and at least one. -/
def rCnt (g : (⟨1, ![131072]⟩ : Shape).Idx → BitVec 32) (s : Fin 16) : EReal :=
  max (∑ _r ∈ rSel g s, Ideal.ofBits .f32 0x3F800000#32) (Ideal.ofBits .f32 0x3F800000#32)

/-- A row's mean over its 512 entries. -/
def rPP (x : (⟨2, ![131072, 512]⟩ : Shape).Idx → EReal) (r : Fin 131072) : EReal :=
  Ideal.div (∑ d : Fin 512, x (ix2 r d)) (Ideal.ofBits .f32 0x44000000#32)

/-- A segment's mean: the sum of its rows' means over its count. -/
def rMean (x : (⟨2, ![131072, 512]⟩ : Shape).Idx → EReal) (g : (⟨1, ![131072]⟩ : Shape).Idx → BitVec 32) (s : Fin 16) :
    EReal :=
  Ideal.div (∑ r ∈ rSel g s, rPP x r) (rCnt g s)

/-- An entry with the mean of the segment its row reads taken off. -/
def rXh (x : (⟨2, ![131072, 512]⟩ : Shape).Idx → EReal) (g : (⟨1, ![131072]⟩ : Shape).Idx → BitVec 32)
    (r : Fin 131072) (d : Fin 512) : EReal :=
  x (ix2 r d) - rMean x g (gixr (g (ix1 r)))

/-- A segment's variance: over the 512 columns, the mean of the column's sum of squared centred entries over the count. -/
def rVar (x : (⟨2, ![131072, 512]⟩ : Shape).Idx → EReal) (g : (⟨1, ![131072]⟩ : Shape).Idx → BitVec 32) (s : Fin 16) :
    EReal :=
  Ideal.div (∑ d : Fin 512, Ideal.div (∑ r ∈ rSel g s, rXh x g r d * rXh x g r d) (rCnt g s))
    (Ideal.ofBits .f32 0x44000000#32)

/-- A segment's reciprocal standard deviation. -/
def rIstd (x : (⟨2, ![131072, 512]⟩ : Shape).Idx → EReal) (g : (⟨1, ![131072]⟩ : Shape).Idx → BitVec 32) (s : Fin 16) :
    EReal :=
  Ideal.div (Ideal.ofBits .f32 0x3F800000#32) (Ideal.sqrt (rVar x g s + Ideal.ofBits .f32 0x3727C5AC#32))

/-- The reference's result at row `r`, column `d`. -/
def refAt (x : (⟨2, ![131072, 512]⟩ : Shape).Idx → EReal) (w b : (⟨2, ![1, 512]⟩ : Shape).Idx → EReal)
    (g : (⟨1, ![131072]⟩ : Shape).Idx → BitVec 32) (r : Fin 131072) (d : Fin 512) : EReal :=
  rXh x g r d * rIstd x g (gixr (g (ix1 r))) * w (ix2 (0 : Fin 1) d) + b (ix2 (0 : Fin 1) d)

/-- The reference's result array. -/
def refOut (x : (⟨2, ![131072, 512]⟩ : Shape).Idx → EReal) (w b : (⟨2, ![1, 512]⟩ : Shape).Idx → EReal)
    (g : (⟨1, ![131072]⟩ : Shape).Idx → BitVec 32) : (⟨2, ![131072, 512]⟩ : Shape).Idx → EReal :=
  fun i => refAt x w b g (i 0) (i 1)

theorem refOut_ix2 (x : (⟨2, ![131072, 512]⟩ : Shape).Idx → EReal) (w b : (⟨2, ![1, 512]⟩ : Shape).Idx → EReal)
    (g : (⟨1, ![131072]⟩ : Shape).Idx → BitVec 32) (r : Fin 131072) (d : Fin 512) :
    refOut x w b g (ix2 r d) = refAt x w b g r d := rfl

end Cert.ReferenceIdeal.Hand

end
-- ==== Proof.Algebra.lean ====
/-
  The real and extended-real algebra that joins the two sides of the grouped row normalisation.

  Both programs compute, for each of sixteen groups s, the mean and the variance of the entries x r d of the rows r
  whose group index is s (512 columns d), with the count of rows clamped below at 1. One side sums deviations
  from the mean; the other sums the entries and their squares and subtracts the squared mean. On finite reals the
  two agree:  Σ_{r ∈ S, d} (y r d − μ)² / (n · 512) = Σ_{r ∈ S, d} (y r d)² / (n · 512) − μ²  for μ the mean, and that
  quantity is not negative. This module states that law on the reals, the re-indexing of a sum over
  (core, step, row in block) as the sum over all rows, the reading of a sum weighted by a 0/1 membership factor as a
  sum over the members, and the few facts that move a computation on finite extended reals to the reals.
-/
import Idealize.ShloMosaic.PureOps.Ideal
import Idealize.ShloMosaic.PureOps.Ideal.Laws
import Idealize.ShloMosaic.Lib.ValueIdx
import Mathlib.Data.EReal.Inv
import Mathlib.Algebra.BigOperators.Field
import Mathlib.Algebra.BigOperators.Fin
import Mathlib.Logic.Equiv.Fin.Basic
import Mathlib.Tactic.Ring
import Mathlib.Tactic.FieldSimp
import Mathlib.Tactic.Linarith
import Mathlib.Tactic.Positivity

noncomputable section

open scoped BigOperators

namespace Cert.Spec

open Idealize.ShloMosaic

/-! ## Finite extended reals are the reals -/

/-- The coercion of the reals into the extended reals keeps max. -/
theorem coe_max (a b : ℝ) : ((max a b : ℝ) : EReal) = max (a : EReal) (b : EReal) :=
  EReal.coe_strictMono.monotone.map_max

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two finite extended reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The pattern of 512.0 denotes the real 512. -/
theorem ofBits_512 : Ideal.ofBits .f32 0x44000000#32 = ((512 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- The pattern of +0.0 denotes the real 0. -/
theorem ofBits_zero : Ideal.ofBits .f32 0x00000000#32 = ((0 : ℝ) : EReal) := by
  rw [Ideal.ofBits_zero_f32, EReal.coe_zero]

/-- A sum of ones over a finite set is its number of elements. -/
theorem sum_one {ι : Type*} (s : Finset ι) : ∑ _r ∈ s, (1 : EReal) = ((s.card : ℝ) : EReal) := by
  rw [← EReal.coe_one, coe_sum, Finset.sum_const, nsmul_eq_mul, mul_one]

/-! ## Sums weighted by a membership factor -/

/-- A sum whose terms carry the factor 1 on the members of P and 0 elsewhere is the sum over the members. -/
theorem sum_onehot_mul {ι : Type*} (s : Finset ι) (P : ι → Prop) [DecidablePred P] (f : ι → EReal) :
    ∑ r ∈ s, (if P r then (1 : EReal) else 0) * f r = ∑ r ∈ s.filter P, f r := by
  rw [Finset.sum_filter]
  refine Finset.sum_congr rfl fun r _ => ?_
  split_ifs
  · rw [one_mul]
  · rw [zero_mul]

/-- The same with the factor given as a function known to be that indicator. -/
theorem sum_onehot_mul_of {ι : Type*} (s : Finset ι) (P : ι → Prop) [DecidablePred P] (c f : ι → EReal)
    (hc : ∀ r, c r = if P r then 1 else 0) :
    ∑ r ∈ s, c r * f r = ∑ r ∈ s.filter P, f r := by
  rw [← sum_onehot_mul]
  exact Finset.sum_congr rfl fun r _ => by rw [hc r]

/-- With every term 1 the weighted sum counts the members. -/
theorem sum_onehot_one {ι : Type*} (s : Finset ι) (P : ι → Prop) [DecidablePred P] :
    ∑ r ∈ s, (if P r then (1 : EReal) else 0) * 1 = (((s.filter P).card : ℝ) : EReal) := by
  rw [sum_onehot_mul, sum_one]

/-! ## All rows, block by block -/

/-- Row 4096 · (16 · c + j) + r of the array, for the core c, the step j and the row r of the block. -/
def rowEquiv : Fin 2 × Fin 16 × Fin 4096 ≃ Fin 131072 where
  toFun p := ⟨4096 * (16 * p.1.val + p.2.1.val) + p.2.2.val, by
    have := p.1.isLt; have := p.2.1.isLt; have := p.2.2.isLt; omega⟩
  invFun R := (⟨R.val / 65536, by have := R.isLt; omega⟩, ⟨R.val / 4096 % 16, by omega⟩, ⟨R.val % 4096, by omega⟩)
  left_inv p := by
    obtain ⟨c, j, r⟩ := p
    have := c.isLt; have := j.isLt; have := r.isLt
    refine Prod.ext (Fin.ext ?_) (Prod.ext (Fin.ext ?_) (Fin.ext ?_)) <;> simp only <;> omega
  right_inv R := by
    have := R.isLt
    refine Fin.ext ?_
    simp only
    omega

theorem rowEquiv_val (c : Fin 2) (j : Fin 16) (r : Fin 4096) :
    (rowEquiv (c, j, r)).val = 4096 * (16 * c.val + j.val) + r.val := rfl

/-- The sum over the two cores, the sixteen steps of each and the 4096 rows of each block is the sum over all rows. -/
theorem sum_rows {M : Type*} [AddCommMonoid M] (idx : Fin 2 → Fin 16 → Fin 4096 → Fin 131072)
    (hidx : ∀ c j r, (idx c j r).val = 4096 * (16 * c.val + j.val) + r.val) (f : Fin 131072 → M) :
    ∑ c, ∑ j, ∑ r, f (idx c j r) = ∑ R, f R := by
  have h : ∀ c j r, idx c j r = rowEquiv (c, j, r) := fun c j r => Fin.ext (hidx c j r)
  simp only [h]
  rw [← Fintype.sum_equiv rowEquiv (fun p => f (rowEquiv p)) f (fun _ => rfl), Fintype.sum_prod_type]
  refine Finset.sum_congr rfl fun c _ => ?_
  rw [Fintype.sum_prod_type]

/-- The same with the rows written out. -/
theorem sum_rows_mk {M : Type*} [AddCommMonoid M] (f : Fin 131072 → M) :
    ∑ c : Fin 2, ∑ j : Fin 16, ∑ r : Fin 4096,
        f ⟨4096 * (16 * c.val + j.val) + r.val, by have := c.isLt; have := j.isLt; have := r.isLt; omega⟩
      = ∑ R, f R :=
  sum_rows (fun c j r => ⟨4096 * (16 * c.val + j.val) + r.val, by
    have := c.isLt; have := j.isLt; have := r.isLt; omega⟩) (fun _ _ _ => rfl) f

/-! ## The law of the two variances, on the reals -/

section Law

variable {ι : Type*} (S : Finset ι) (y : ι → Fin 512 → ℝ)

/-- (a) The mean of the row means is the total over the clamped count times the width. -/
theorem mean_law :
    (∑ r ∈ S, (∑ d, y r d) / 512) / max (S.card : ℝ) 1
      = (∑ r ∈ S, ∑ d, y r d) / (max (S.card : ℝ) 1 * 512) := by
  rw [← Finset.sum_div, div_div, mul_comm]

/-- (b) The mean of the squared deviations from the mean is the mean of the squares less the squared mean. -/
theorem var_law (μ : ℝ) (hμ : μ = (∑ r ∈ S, ∑ d, y r d) / (max (S.card : ℝ) 1 * 512)) :
    (∑ d, (∑ r ∈ S, (y r d - μ) * (y r d - μ)) / max (S.card : ℝ) 1) / 512
      = (∑ r ∈ S, ∑ d, y r d * y r d) / (max (S.card : ℝ) 1 * 512) - μ * μ := by
  classical
  have hct1 : (1 : ℝ) ≤ max (S.card : ℝ) 1 := le_max_right _ _
  have hct0 : max (S.card : ℝ) 1 ≠ 0 := by positivity
  -- with no row the mean is zero; with a row the clamp does nothing
  have hnμ : (S.card : ℝ) * μ = max (S.card : ℝ) 1 * μ := by
    rcases Finset.eq_empty_or_nonempty S with hS | hS
    · rw [hμ, hS]; simp
    · have h1 : (1 : ℝ) ≤ (S.card : ℝ) := by exact_mod_cast Finset.card_pos.mpr hS
      rw [max_eq_left h1]
  have hT1 : (∑ r ∈ S, ∑ d, y r d) = max (S.card : ℝ) 1 * 512 * μ := by
    rw [hμ]; field_simp
  have expand : ∑ d, ∑ r ∈ S, (y r d - μ) * (y r d - μ)
      = (∑ r ∈ S, ∑ d, y r d * y r d) - 2 * μ * (∑ r ∈ S, ∑ d, y r d) + 512 * ((S.card : ℝ) * μ) * μ := by
    rw [Finset.sum_comm]
    have hsq : ∀ r d, (y r d - μ) * (y r d - μ) = y r d * y r d - 2 * μ * y r d + μ * μ := fun r d => by ring
    simp only [hsq, Finset.sum_add_distrib, Finset.sum_sub_distrib, ← Finset.mul_sum, Finset.sum_const,
      Finset.card_univ, Fintype.card_fin, nsmul_eq_mul]
    push_cast; ring
  rw [← Finset.sum_div, div_div, expand, hnμ, hT1]
  field_simp
  ring

/-- (c) That quantity is not negative. -/
theorem var_nonneg (μ : ℝ) (hμ : μ = (∑ r ∈ S, ∑ d, y r d) / (max (S.card : ℝ) 1 * 512)) :
    0 ≤ (∑ r ∈ S, ∑ d, y r d * y r d) / (max (S.card : ℝ) 1 * 512) - μ * μ := by
  rw [← var_law S y μ hμ]
  have hct0 : (0 : ℝ) < max (S.card : ℝ) 1 := lt_of_lt_of_le one_pos (le_max_right _ _)
  refine div_nonneg (Finset.sum_nonneg fun d _ => div_nonneg (Finset.sum_nonneg fun r _ => mul_self_nonneg _) hct0.le)
    (by norm_num)

/-- So clamping it below at zero changes nothing. -/
theorem var_max (μ : ℝ) (hμ : μ = (∑ r ∈ S, ∑ d, y r d) / (max (S.card : ℝ) 1 * 512)) :
    max ((∑ r ∈ S, ∑ d, y r d * y r d) / (max (S.card : ℝ) 1 * 512) - μ * μ) 0
      = (∑ r ∈ S, ∑ d, y r d * y r d) / (max (S.card : ℝ) 1 * 512) - μ * μ :=
  max_eq_left (var_nonneg S y μ hμ)

end Law

/-! ## The two sides' expressions on finite entries, as coerced reals

  The entries are finite: x r d is the coercion of a real y r d. Each expression below is written with the operations and
  the constant patterns the programs use, over an arbitrary finite set S of rows, and equals the coercion of the real
  quantity the law is about. -/

section Coerced

variable {ι : Type*} (S : Finset ι) (y : ι → Fin 512 → ℝ)

theorem max_card_one_ne_zero : max (S.card : ℝ) 1 ≠ 0 :=
  (lt_of_lt_of_le one_pos (le_max_right _ _)).ne'

theorem max_card_one_mul_ne_zero : max (S.card : ℝ) 1 * 512 ≠ 0 :=
  mul_ne_zero (max_card_one_ne_zero S) (by norm_num)

/-- One per row of S, and at least one: the clamped count. -/
theorem cnt_coe :
    max (∑ _r ∈ S, Ideal.ofBits .f32 0x3F800000#32) (Ideal.ofBits .f32 0x3F800000#32)
      = ((max (S.card : ℝ) 1 : ℝ) : EReal) := by
  rw [ofBits_one, coe_sum, Finset.sum_const, nsmul_eq_mul, mul_one, ← coe_max]

/-- A row's mean over its 512 entries. -/
theorem rowmean_coe (z : Fin 512 → ℝ) :
    Ideal.div (∑ d, ((z d : ℝ) : EReal)) (Ideal.ofBits .f32 0x44000000#32) = (((∑ d, z d) / 512 : ℝ) : EReal) := by
  rw [coe_sum, ofBits_512, div_coe_coe _ (by norm_num)]

/-- The sum of the row means of S over its clamped count is the total over count times width. -/
theorem mean_coe :
    Ideal.div (∑ r ∈ S, Ideal.div (∑ d, ((y r d : ℝ) : EReal)) (Ideal.ofBits .f32 0x44000000#32))
        (max (∑ _r ∈ S, Ideal.ofBits .f32 0x3F800000#32) (Ideal.ofBits .f32 0x3F800000#32))
      = (((∑ r ∈ S, ∑ d, y r d) / (max (S.card : ℝ) 1 * 512) : ℝ) : EReal) := by
  simp only [rowmean_coe]
  rw [coe_sum, cnt_coe, div_coe_coe _ (max_card_one_ne_zero S), mean_law]

/-- Over the columns, the mean of the column's sum of squared deviations over the clamped count: the mean of the squares
    less the squared mean. -/
theorem var_coe (μ : ℝ) (hμ : μ = (∑ r ∈ S, ∑ d, y r d) / (max (S.card : ℝ) 1 * 512)) :
    Ideal.div
        (∑ d, Ideal.div (∑ r ∈ S, (((y r d : ℝ) : EReal) - (μ : EReal)) * (((y r d : ℝ) : EReal) - (μ : EReal)))
          (max (∑ _r ∈ S, Ideal.ofBits .f32 0x3F800000#32) (Ideal.ofBits .f32 0x3F800000#32)))
        (Ideal.ofBits .f32 0x44000000#32)
      = (((∑ r ∈ S, ∑ d, y r d * y r d) / (max (S.card : ℝ) 1 * 512) - μ * μ : ℝ) : EReal) := by
  simp only [← EReal.coe_sub, ← EReal.coe_mul]
  simp only [coe_sum, cnt_coe, div_coe_coe _ (max_card_one_ne_zero S)]
  rw [ofBits_512, div_coe_coe _ (by norm_num), var_law S y μ hμ]

end Coerced

/-! ## The block sums of the first pass

  Each block of 4096 rows adds, per column, the sum of its rows' entries weighted by a 0/1 membership factor; the
  sixteen blocks of a core are added up, then the two cores. Over all 32 blocks this is, per column, the sum over the
  member rows; summed over the columns, and with finite entries, the coerced real totals of the law. -/

section Blocks

variable (idx : Fin 2 → Fin 16 → Fin 4096 → Fin 131072)
  (hidx : ∀ c j r, (idx c j r).val = 4096 * (16 * c.val + j.val) + r.val)
  (P : Fin 131072 → Prop) [DecidablePred P] (w : Fin 131072 → EReal) (hw : ∀ R, w R = if P R then 1 else 0)

include hidx hw

/-- Cores, blocks, columns, rows of the block: per column, the sum over the member rows. -/
theorem sum_blocks_weighted (f : Fin 131072 → Fin 512 → EReal) :
    ∑ c, ∑ j, ∑ d : Fin 512, ∑ r, w (idx c j r) * f (idx c j r) d
      = ∑ d : Fin 512, ∑ R ∈ Finset.univ.filter P, f R d := by
  have h1 : ∀ c : Fin 2, ∑ j : Fin 16, ∑ d : Fin 512, ∑ r : Fin 4096, w (idx c j r) * f (idx c j r) d
      = ∑ d : Fin 512, ∑ j : Fin 16, ∑ r : Fin 4096, w (idx c j r) * f (idx c j r) d := fun c => Finset.sum_comm
  simp only [h1]
  rw [Finset.sum_comm]
  refine Finset.sum_congr rfl fun d _ => ?_
  rw [sum_rows idx hidx (fun R => w R * f R d)]
  exact sum_onehot_mul_of _ P w (fun R => f R d) hw

/-- Cores, blocks, rows of the block: the membership factors add up to the number of member rows. -/
theorem sum_blocks_count :
    ∑ c, ∑ j, ∑ r, w (idx c j r) = (((Finset.univ.filter P).card : ℝ) : EReal) := by
  rw [sum_rows idx hidx w]
  calc ∑ R, w R = ∑ R, (if P R then (1 : EReal) else 0) * 1 :=
        Finset.sum_congr rfl fun R _ => by rw [hw R, mul_one]
    _ = _ := sum_onehot_one _ P

/-- With finite entries the weighted block sums of the entries are the coerced total over the member rows. -/
theorem sum_blocks_coe (y : Fin 131072 → Fin 512 → ℝ) :
    ∑ c, ∑ j, ∑ d : Fin 512, ∑ r, w (idx c j r) * ((y (idx c j r) d : ℝ) : EReal)
      = ((∑ R ∈ Finset.univ.filter P, ∑ d, y R d : ℝ) : EReal) := by
  rw [sum_blocks_weighted idx hidx P w hw (fun R d => ((y R d : ℝ) : EReal))]
  simp only [coe_sum]
  rw [Finset.sum_comm]

/-- And those of the squared entries the coerced total of the squares. -/
theorem sum_blocks_sq_coe (y : Fin 131072 → Fin 512 → ℝ) :
    ∑ c, ∑ j, ∑ d : Fin 512, ∑ r,
        w (idx c j r) * (((y (idx c j r) d : ℝ) : EReal) * ((y (idx c j r) d : ℝ) : EReal))
      = ((∑ R ∈ Finset.univ.filter P, ∑ d, y R d * y R d : ℝ) : EReal) := by
  rw [sum_blocks_weighted idx hidx P w hw (fun R d => ((y R d : ℝ) : EReal) * ((y R d : ℝ) : EReal))]
  simp only [← EReal.coe_mul, coe_sum]
  rw [Finset.sum_comm]

end Blocks

end Cert.Spec

end
-- ==== Proof.Bridge.lean ====
/-
  The kernel's result function is the reference's, on finite entries and segment words in 0..15.

  Finite entries are coerced reals, so every sum, quotient and clamp of either side is the coercion of the real one.
  The statistics pass's block sums, added over the sixteen blocks of a core and the two cores, are the totals over the
  segment's rows: of the entries (T1), of their squares (T2), and the number n of rows. With ct = max n 1 the kernel's
  centre is T1 / (ct · 512), which is the reference's mean of row means over ct; the kernel's spread
  max (T2 / (ct · 512) − μ²) 0 is the reference's mean over the columns of the summed squared deviations over ct, by the
  law of the two variances and because that quantity is not negative. A word in 0..15 is untouched by the clip and
  reads its own table entry on both sides, so the two results agree element by element.
-/
import proofs.«418694_j85023172591851_3_alg».proof.Proof.KernelSpec
import proofs.«418694_j85023172591851_3_alg».proof.Proof.RefSpec
import proofs.«418694_j85023172591851_3_alg».proof.Proof.Algebra
import Idealize.ShloMosaic.Lib.IdealHost

noncomputable section

open scoped BigOperators

namespace Cert.KernelIdeal.Hand

open Cert.KernelIdeal Idealize.ShloMosaic Idealize.ShloMosaic.ValueIdx
open Cert.ReferenceIdeal.Hand Cert.Spec

/-! ## The two sides' statistics on finite entries and segment words in 0..15 -/

section Stats

variable (xr : S131072x512.Idx → ℝ) (g : S131072.Idx → BitVec 32) (hg : ∀ i, (g i).toNat < 16)

include hg

/-- A row's clipped word is the lane's word exactly when the row is in the segment. -/
theorem lane_iff (s : Fin 16) (R : Fin 131072) :
    BitVec.ofNat 32 (row128 s).val = gRow g (ix2 (0 : Fin 1) R) ↔ R ∈ rSel g s := by
  rw [mem_rSel_iff g (fun r => hg (ix1 r)) s R]
  have h1 := hg (ix1 R)
  have h2 := s.isLt
  show BitVec.ofNat 32 s.val = clip1 (g (ix1 R)) ↔ _
  rw [clip1_of_lt _ h1]
  constructor
  · intro h
    rw [← h, BitVec.toNat_ofNat]
    omega
  · intro h
    apply BitVec.eq_of_toNat_eq
    rw [BitVec.toNat_ofNat, h]
    omega

/-- The rows a lane of the statistics pass counts are the segment's rows. -/
theorem filter_lane (s : Fin 16) :
    (Finset.univ.filter fun R : Fin 131072 => BitVec.ofNat 32 (row128 s).val = gRow g (ix2 (0 : Fin 1) R)) = rSel g s := by
  ext R
  rw [Finset.mem_filter]
  exact ⟨fun h => (lane_iff g hg s R).mp h.2, fun h => ⟨Finset.mem_univ _, (lane_iff g hg s R).mpr h⟩⟩

/-- The two cores' sums of the segment's entries: the total over the segment's rows and the columns. -/
theorem kSum0_eq (s : Fin 16) :
    kSum (kstats (fun i => ((xr i : ℝ) : EReal)) (gRow g)) s 0
      = ((∑ R ∈ rSel g s, ∑ d, xr (ix2 R d) : ℝ) : EReal) := by
  unfold kSum
  rw [zero_add]
  simp only [kstats_apply]
  show ∑ c' : Fin 2, ∑ j : Fin 16, ∑ d : Fin 512, ∑ r : Fin 4096,
      oh (gRow g) (row128 s) (krow c' j r) * ((xr (ix2 (krow c' j r) d) : ℝ) : EReal) = _
  rw [sum_blocks_coe krow (fun _ _ _ => rfl) (fun R => BitVec.ofNat 32 (row128 s).val = gRow g (ix2 (0 : Fin 1) R))
    (oh (gRow g) (row128 s)) (oh_eq_ite (gRow g) (row128 s)) (fun R d => xr (ix2 R d)), filter_lane g hg s]

/-- The same of the squared entries. -/
theorem kSum1_eq (s : Fin 16) :
    kSum (kstats (fun i => ((xr i : ℝ) : EReal)) (gRow g)) s 1
      = ((∑ R ∈ rSel g s, ∑ d, xr (ix2 R d) * xr (ix2 R d) : ℝ) : EReal) := by
  unfold kSum
  rw [zero_add]
  simp only [kstats_apply]
  show ∑ c' : Fin 2, ∑ j : Fin 16, ∑ d : Fin 512, ∑ r : Fin 4096,
      oh (gRow g) (row128 s) (krow c' j r)
        * (((xr (ix2 (krow c' j r) d) : ℝ) : EReal) * ((xr (ix2 (krow c' j r) d) : ℝ) : EReal)) = _
  rw [sum_blocks_sq_coe krow (fun _ _ _ => rfl) (fun R => BitVec.ofNat 32 (row128 s).val = gRow g (ix2 (0 : Fin 1) R))
    (oh (gRow g) (row128 s)) (oh_eq_ite (gRow g) (row128 s)) (fun R d => xr (ix2 R d)), filter_lane g hg s]

/-- The two cores' counts: the number of the segment's rows. -/
theorem kSum2_eq (s : Fin 16) :
    kSum (kstats (fun i => ((xr i : ℝ) : EReal)) (gRow g)) s 2 = (((rSel g s).card : ℝ) : EReal) := by
  unfold kSum
  rw [zero_add]
  simp only [kstats_apply]
  show ∑ c' : Fin 2, ∑ j : Fin 16, ∑ r : Fin 4096, oh (gRow g) (row128 s) (krow c' j r) = _
  rw [sum_blocks_count krow (fun _ _ _ => rfl) (fun R => BitVec.ofNat 32 (row128 s).val = gRow g (ix2 (0 : Fin 1) R))
    (oh (gRow g) (row128 s)) (oh_eq_ite (gRow g) (row128 s)), filter_lane g hg s]

/-- The kernel's clamped count. -/
theorem kCnt_eq (s : Fin 16) :
    kCnt (kstats (fun i => ((xr i : ℝ) : EReal)) (gRow g)) s = ((max ((rSel g s).card : ℝ) 1 : ℝ) : EReal) := by
  unfold kCnt
  rw [kSum2_eq xr g hg s, ← EReal.coe_one, ← coe_max]

/-- The kernel's centre: the total over count times width. -/
theorem kMean_eq (s : Fin 16) :
    kMean (kstats (fun i => ((xr i : ℝ) : EReal)) (gRow g)) s
      = (((∑ R ∈ rSel g s, ∑ d, xr (ix2 R d)) / (max ((rSel g s).card : ℝ) 1 * 512) : ℝ) : EReal) := by
  unfold kMean
  rw [kSum0_eq xr g hg s, kCnt_eq xr g hg s, c512_eq, ← EReal.coe_mul,
    div_coe_coe _ (max_card_one_mul_ne_zero (rSel g s))]

/-- The kernel's spread: the mean of the squares less the squared centre; the clamp at zero does nothing. -/
theorem kVar_eq (s : Fin 16) (μ : ℝ)
    (hμ : μ = (∑ R ∈ rSel g s, ∑ d, xr (ix2 R d)) / (max ((rSel g s).card : ℝ) 1 * 512)) :
    kVar (kstats (fun i => ((xr i : ℝ) : EReal)) (gRow g)) s
      = (((∑ R ∈ rSel g s, ∑ d, xr (ix2 R d) * xr (ix2 R d)) / (max ((rSel g s).card : ℝ) 1 * 512) - μ * μ : ℝ) : EReal) := by
  unfold kVar
  rw [kSum1_eq xr g hg s, kCnt_eq xr g hg s, kMean_eq xr g hg s, c512_eq, ← EReal.coe_mul,
    div_coe_coe _ (max_card_one_mul_ne_zero (rSel g s)), ← hμ, ← EReal.coe_mul, ← EReal.coe_sub, ← EReal.coe_zero,
    ← coe_max, var_max (rSel g s) (fun R d => xr (ix2 R d)) μ hμ]

/-- The reference's segment mean. -/
theorem rMean_eq (s : Fin 16) :
    rMean (fun i => ((xr i : ℝ) : EReal)) g s
      = (((∑ R ∈ rSel g s, ∑ d, xr (ix2 R d)) / (max ((rSel g s).card : ℝ) 1 * 512) : ℝ) : EReal) := by
  unfold rMean rPP rCnt
  exact mean_coe (rSel g s) (fun R d => xr (ix2 R d))

/-- A row of the segment reads the segment's own table entry. -/
theorem gixr_of_mem (s : Fin 16) (R : Fin 131072) (hR : R ∈ rSel g s) : gixr (g (ix1 R)) = s :=
  Fin.ext ((gixr_of_lt _ (hg (ix1 R))).trans ((mem_rSel_iff g (fun r => hg (ix1 r)) s R).mp hR))

/-- The reference's segment variance. -/
theorem rVar_eq (s : Fin 16) (μ : ℝ)
    (hμ : μ = (∑ R ∈ rSel g s, ∑ d, xr (ix2 R d)) / (max ((rSel g s).card : ℝ) 1 * 512)) :
    rVar (fun i => ((xr i : ℝ) : EReal)) g s
      = (((∑ R ∈ rSel g s, ∑ d, xr (ix2 R d) * xr (ix2 R d)) / (max ((rSel g s).card : ℝ) 1 * 512) - μ * μ : ℝ) : EReal) := by
  unfold rVar
  have h : ∀ d : Fin 512,
      ∑ r ∈ rSel g s, rXh (fun i => ((xr i : ℝ) : EReal)) g r d * rXh (fun i => ((xr i : ℝ) : EReal)) g r d
        = ∑ r ∈ rSel g s, (((xr (ix2 r d) : ℝ) : EReal) - (μ : EReal)) * (((xr (ix2 r d) : ℝ) : EReal) - (μ : EReal)) :=
    fun d => Finset.sum_congr rfl fun r hr => by
      unfold rXh
      rw [gixr_of_mem g hg s r hr, rMean_eq xr g hg s, ← hμ]
  simp only [h]
  unfold rCnt
  exact var_coe (rSel g s) (fun R d => xr (ix2 R d)) μ hμ

/-- The two centres agree. -/
theorem kMean_eq_rMean (s : Fin 16) :
    kMean (kstats (fun i => ((xr i : ℝ) : EReal)) (gRow g)) s = rMean (fun i => ((xr i : ℝ) : EReal)) g s := by
  rw [kMean_eq xr g hg s, rMean_eq xr g hg s]

/-- The two spreads agree. -/
theorem kVar_eq_rVar (s : Fin 16) :
    kVar (kstats (fun i => ((xr i : ℝ) : EReal)) (gRow g)) s = rVar (fun i => ((xr i : ℝ) : EReal)) g s := by
  rw [kVar_eq xr g hg s _ rfl, rVar_eq xr g hg s _ rfl]

/-- So do the two inverse deviations: the same quotient, root and offset of equal spreads. -/
theorem kIstd_eq_rIstd (s : Fin 16) :
    kIstd (kstats (fun i => ((xr i : ℝ) : EReal)) (gRow g)) s = rIstd (fun i => ((xr i : ℝ) : EReal)) g s := by
  unfold kIstd rIstd
  rw [kVar_eq_rVar xr g hg s, Ideal.ofBits_one_f32]

end Stats

/-! ## The two results -/

/-- On finite entries and segment words in 0..15 the kernel's result is the reference's. -/
theorem kernelOut_eq_refOut (x : S131072x512.Idx → EReal) (w b : S1x512.Idx → EReal) (g : S131072.Idx → BitVec 32)
    (hx : ∀ i, ∃ r : ℝ, x i = r) (hg : ∀ i, (g i).toNat < 16) :
    kernelOut x w b g = refOut x w b g := by
  choose xr hxr using hx
  obtain rfl : x = fun i => ((xr i : ℝ) : EReal) := funext hxr
  funext i
  obtain ⟨r, d, rfl⟩ : ∃ (r : Fin 131072) (d : Fin 512), i = ix2 r d := ⟨i 0, i 1, eq_ix2 i⟩
  have hs : gix (clip1 (g (ix1 r))) = gixr (g (ix1 r)) := by
    rw [clip1_of_lt _ (hg _)]
    exact Fin.ext ((gix_of_lt _ (hg _)).trans (gixr_of_lt _ (hg _)).symm)
  show ((((xr (ix2 r d) : ℝ) : EReal)
          - kMean (kstats (fun i => ((xr i : ℝ) : EReal)) (gRow g)) (gix (clip1 (g (ix1 r)))))
        * kIstd (kstats (fun i => ((xr i : ℝ) : EReal)) (gRow g)) (gix (clip1 (g (ix1 r)))))
      * w (ix2 (0 : Fin 1) d) + b (ix2 (0 : Fin 1) d)
    = (((xr (ix2 r d) : ℝ) : EReal) - rMean (fun i => ((xr i : ℝ) : EReal)) g (gixr (g (ix1 r))))
        * rIstd (fun i => ((xr i : ℝ) : EReal)) g (gixr (g (ix1 r)))
      * w (ix2 (0 : Fin 1) d) + b (ix2 (0 : Fin 1) d)
  rw [hs, kMean_eq_rMean xr g hg, kIstd_eq_rIstd xr g hg]

end Cert.KernelIdeal.Hand

end
-- ==== Proof.RefValue.lean ====
/-
  The reference's result at the ideal instance, read one operation at a time.

  Three operations add rows into a table of sixteen segments (a scatter): an update lands on the segment its row's word
  names when that word, read as a signed integer, is in 0..15, and nowhere otherwise; two operations read a table of sixteen
  entries at a row's wrapped and clamped word (a gather). With those five read by hand and the other operations read by
  their generated equations, the result array is the function `refOut` of the four arguments.
-/
import proofs.«418694_j85023172591851_3_alg».proof.Proof.Gen.ReferenceIdeal.Run
import proofs.«418694_j85023172591851_3_alg».proof.Proof.Gen.ReferenceIdeal.Read
import proofs.«418694_j85023172591851_3_alg».proof.Proof.RefSpec
import Idealize.ShloMosaic.Lib.ValueIdx
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The scatters' landing rule -/

/-- The start-index table's entry of row `r`. -/
abbrev ixC (r : Fin 131072) : S131072x1.Idx := ix2 r (0 : Fin 1)

theorem scat1_start (j : S131072.Idx) (idx : IVec S131072x1 32) :
    scatter_S16_S131072x1_S131072_n_0_0_1.start j idx (0 : Fin 1) = (idx (ixC (j 0))).toInt := by
  unfold ScatterDims.start
  rw [dif_pos (show (0 : Fin 1) ∈ scatter_S16_S131072x1_S131072_n_0_0_1.scatterDimsToOperandDims from List.mem_singleton.mpr rfl)]
  have hsi : scatter_S16_S131072x1_S131072_n_0_0_1.siIdx j ⟨List.idxOf (0 : Fin 1) scatter_S16_S131072x1_S131072_n_0_0_1.scatterDimsToOperandDims,
      List.idxOf_lt_length_iff.2 (List.mem_singleton.mpr rfl)⟩ = ixC (j 0) := by
    funext b; refine Fin.ext ?_
    match b with
    | ⟨0, _⟩ => rfl
    | ⟨1, _⟩ => rfl
  rw [hsi]

theorem scat1_window (j : S131072.Idx) :
    scatter_S16_S131072x1_S131072_n_0_0_1.window j (0 : Fin 1) = 0 := by
  unfold ScatterDims.window
  exact dif_neg (by decide)

/-- An update of the one-axis scatter lands on segment entry `i` exactly when its row's word, read signed, is `i`. -/
theorem scat1_resultIdx (j : S131072.Idx) (idx : IVec S131072x1 32) (i : S16.Idx) :
    scatter_S16_S131072x1_S131072_n_0_0_1.resultIdx? j idx = some i ↔ (idx (ixC (j 0))).toInt = ((i 0).val : Int) := by
  have hi : (i 0).val < 16 := (i 0).isLt
  unfold ScatterDims.resultIdx?
  split
  · rename_i h
    rw [Option.some.injEq]
    constructor
    · intro e
      have h0 := h 0
      have e0 : (scatter_S16_S131072x1_S131072_n_0_0_1.start j idx (0 : Fin 1)
          + (scatter_S16_S131072x1_S131072_n_0_0_1.window j (0 : Fin 1) : Int)).toNat = (i 0).val :=
        congrArg Fin.val (congrFun e 0)
      rw [scat1_start, scat1_window] at h0 e0
      omega
    · intro e
      funext a
      obtain rfl : a = 0 := Subsingleton.elim _ _
      refine Fin.ext ?_
      show (scatter_S16_S131072x1_S131072_n_0_0_1.start j idx (0 : Fin 1)
          + (scatter_S16_S131072x1_S131072_n_0_0_1.window j (0 : Fin 1) : Int)).toNat = (i 0).val
      rw [scat1_start, scat1_window, e]
      omega
  · rename_i h
    constructor
    · intro e; cases e
    · intro e
      exfalso
      apply h
      intro a
      obtain rfl : a = 0 := Subsingleton.elim _ _
      rw [scat1_start, scat1_window, e]
      show 0 ≤ ((i 0).val : Int) + ((0 : Nat) : Int) ∧ ((i 0).val : Int) + ((0 : Nat) : Int) < ((16 : Nat) : Int)
      omega

/-! The two-axis scatter: rows of 512 entries added into the sixteen rows of a table. -/

theorem scat2_start0 (j : S131072x512.Idx) (idx : IVec S131072x1 32) :
    scatter_S16x512_S131072x1_S131072x512_1_0_0_1.start j idx (0 : Fin 2) = (idx (ixC (j 0))).toInt := by
  unfold ScatterDims.start
  rw [dif_pos (show (0 : Fin 2) ∈ scatter_S16x512_S131072x1_S131072x512_1_0_0_1.scatterDimsToOperandDims from List.mem_singleton.mpr rfl)]
  have hsi : scatter_S16x512_S131072x1_S131072x512_1_0_0_1.siIdx j ⟨List.idxOf (0 : Fin 2) scatter_S16x512_S131072x1_S131072x512_1_0_0_1.scatterDimsToOperandDims,
      List.idxOf_lt_length_iff.2 (List.mem_singleton.mpr rfl)⟩ = ixC (j 0) := by
    funext b; refine Fin.ext ?_
    match b with
    | ⟨0, _⟩ => rfl
    | ⟨1, _⟩ => rfl
  rw [hsi]

theorem scat2_start1 (j : S131072x512.Idx) (idx : IVec S131072x1 32) :
    scatter_S16x512_S131072x1_S131072x512_1_0_0_1.start j idx (1 : Fin 2) = 0 := by
  unfold ScatterDims.start
  exact dif_neg (by decide)

theorem scat2_window0 (j : S131072x512.Idx) :
    scatter_S16x512_S131072x1_S131072x512_1_0_0_1.window j (0 : Fin 2) = 0 := by
  unfold ScatterDims.window
  exact dif_neg (by decide)

theorem scat2_window1 (j : S131072x512.Idx) :
    scatter_S16x512_S131072x1_S131072x512_1_0_0_1.window j (1 : Fin 2) = (j 1).val := by
  unfold ScatterDims.window
  rw [dif_pos (by decide)]
  rfl

/-- An update of the two-axis scatter lands on table entry `i` exactly when its row's word, read signed, is `i`'s row and
    its column is `i`'s column. -/
theorem scat2_resultIdx (j : S131072x512.Idx) (idx : IVec S131072x1 32) (i : S16x512.Idx) :
    scatter_S16x512_S131072x1_S131072x512_1_0_0_1.resultIdx? j idx = some i
      ↔ (idx (ixC (j 0))).toInt = ((i 0).val : Int) ∧ (j 1).val = (i 1).val := by
  have hi0 : (i 0).val < 16 := (i 0).isLt
  have hi1 : (i 1).val < 512 := (i 1).isLt
  have hj1 : (j 1).val < 512 := (j 1).isLt
  unfold ScatterDims.resultIdx?
  split
  · rename_i h
    rw [Option.some.injEq]
    constructor
    · intro e
      have h0 := h 0
      have e0 : (scatter_S16x512_S131072x1_S131072x512_1_0_0_1.start j idx (0 : Fin 2)
          + (scatter_S16x512_S131072x1_S131072x512_1_0_0_1.window j (0 : Fin 2) : Int)).toNat = (i 0).val :=
        congrArg Fin.val (congrFun e 0)
      have e1 : (scatter_S16x512_S131072x1_S131072x512_1_0_0_1.start j idx (1 : Fin 2)
          + (scatter_S16x512_S131072x1_S131072x512_1_0_0_1.window j (1 : Fin 2) : Int)).toNat = (i 1).val :=
        congrArg Fin.val (congrFun e 1)
      rw [scat2_start0, scat2_window0] at h0 e0
      rw [scat2_start1, scat2_window1] at e1
      omega
    · rintro ⟨e, e'⟩
      funext a
      refine Fin.ext ?_
      match a with
      | ⟨0, _⟩ =>
        show (scatter_S16x512_S131072x1_S131072x512_1_0_0_1.start j idx (0 : Fin 2)
          + (scatter_S16x512_S131072x1_S131072x512_1_0_0_1.window j (0 : Fin 2) : Int)).toNat = (i 0).val
        rw [scat2_start0, scat2_window0, e]
        omega
      | ⟨1, _⟩ =>
        show (scatter_S16x512_S131072x1_S131072x512_1_0_0_1.start j idx (1 : Fin 2)
          + (scatter_S16x512_S131072x1_S131072x512_1_0_0_1.window j (1 : Fin 2) : Int)).toNat = (i 1).val
        rw [scat2_start1, scat2_window1]
        omega
  · rename_i h
    constructor
    · intro e; cases e
    · rintro ⟨e, e'⟩
      exfalso
      apply h
      intro a
      match a with
      | ⟨0, _⟩ =>
        show 0 ≤ scatter_S16x512_S131072x1_S131072x512_1_0_0_1.start j idx (0 : Fin 2)
            + (scatter_S16x512_S131072x1_S131072x512_1_0_0_1.window j (0 : Fin 2) : Int)
          ∧ scatter_S16x512_S131072x1_S131072x512_1_0_0_1.start j idx (0 : Fin 2)
            + (scatter_S16x512_S131072x1_S131072x512_1_0_0_1.window j (0 : Fin 2) : Int) < ((16 : Nat) : Int)
        rw [scat2_start0, scat2_window0, e]
        omega
      | ⟨1, _⟩ =>
        show 0 ≤ scatter_S16x512_S131072x1_S131072x512_1_0_0_1.start j idx (1 : Fin 2)
            + (scatter_S16x512_S131072x1_S131072x512_1_0_0_1.window j (1 : Fin 2) : Int)
          ∧ scatter_S16x512_S131072x1_S131072x512_1_0_0_1.start j idx (1 : Fin 2)
            + (scatter_S16x512_S131072x1_S131072x512_1_0_0_1.window j (1 : Fin 2) : Int) < ((512 : Nat) : Int)
        rw [scat2_start1, scat2_window1]
        omega

/-! ## The scatters as sums over rows -/

/-- The one-axis scatter at the ideal instance: entry `i` gains the updates of the rows whose word, read signed, is `i`. -/
theorem scat1_apply (x : S16.Idx → EReal) (idx : IVec S131072x1 32) (upd : S131072.Idx → EReal) (i : S16.Idx) :
    Ideal.hostScatterAdd scatter_S16_S131072x1_S131072_n_0_0_1 x idx upd i
      = x i + ∑ r ∈ Finset.univ.filter (fun r : Fin 131072 => (idx (ixC r)).toInt = ((i 0).val : Int)), upd (ix1 r) := by
  unfold Ideal.hostScatterAdd
  refine congrArg (x i + ·) ?_
  refine Finset.sum_bij (fun j _ => (j 0 : Fin 131072)) ?_ ?_ ?_ ?_
  · intro j hj
    exact Finset.mem_filter.mpr ⟨Finset.mem_univ _, (scat1_resultIdx j idx i).mp (Finset.mem_filter.mp hj).2⟩
  · intro j _ j' _ e
    rw [eq_ix1 j, eq_ix1 j']
    exact congrArg ix1 e
  · intro r hr
    exact ⟨ix1 r, Finset.mem_filter.mpr ⟨Finset.mem_univ _, (scat1_resultIdx (ix1 r) idx i).mpr (Finset.mem_filter.mp hr).2⟩, rfl⟩
  · intro j _
    exact congrArg upd (eq_ix1 j)

/-- The two-axis scatter at the ideal instance: entry `(s, d)` gains column `d` of the rows whose word, read signed, is `s`. -/
theorem scat2_apply (x : S16x512.Idx → EReal) (idx : IVec S131072x1 32) (upd : S131072x512.Idx → EReal) (i : S16x512.Idx) :
    Ideal.hostScatterAdd scatter_S16x512_S131072x1_S131072x512_1_0_0_1 x idx upd i
      = x i + ∑ r ∈ Finset.univ.filter (fun r : Fin 131072 => (idx (ixC r)).toInt = ((i 0).val : Int)),
          upd (ix2 r (i 1 : Fin 512)) := by
  unfold Ideal.hostScatterAdd
  refine congrArg (x i + ·) ?_
  refine Finset.sum_bij (fun j _ => (j 0 : Fin 131072)) ?_ ?_ ?_ ?_
  · intro j hj
    exact Finset.mem_filter.mpr ⟨Finset.mem_univ _, ((scat2_resultIdx j idx i).mp (Finset.mem_filter.mp hj).2).1⟩
  · intro j hj j' hj' e
    have h1 := ((scat2_resultIdx j idx i).mp (Finset.mem_filter.mp hj).2).2
    have h1' := ((scat2_resultIdx j' idx i).mp (Finset.mem_filter.mp hj').2).2
    have e1 : j 1 = j' 1 := Fin.ext (h1.trans h1'.symm)
    funext a
    match a with
    | ⟨0, _⟩ => exact e
    | ⟨1, _⟩ => exact e1
  · intro r hr
    exact ⟨ix2 r (i 1 : Fin 512), Finset.mem_filter.mpr ⟨Finset.mem_univ _,
      (scat2_resultIdx (ix2 r (i 1 : Fin 512)) idx i).mpr ⟨(Finset.mem_filter.mp hr).2, rfl⟩⟩, rfl⟩
  · intro j hj
    have h1 := ((scat2_resultIdx j idx i).mp (Finset.mem_filter.mp hj).2).2
    refine congrArg upd ?_
    funext a
    match a with
    | ⟨0, _⟩ => rfl
    | ⟨1, _⟩ => exact Fin.ext h1

/-! ## The gather: a table of sixteen read at a row's clamped word -/

theorem gather_apply (x : S16.Idx → EReal) (idx : IVec S131072x1 32) (r : Fin 131072) :
    Host.gather gather_S16_S131072x1_S131072_n_0_n_n_0_1_1 x idx (ix1 r)
      = x (ix1 (⟨min (idx (ixC r)).toInt.toNat (16 - 1), by omega⟩ : Fin 16)) := by
  have hj : (ix1 r : S131072.Idx) = Shape.Idx.ofFin r := by
    funext a; match a with | ⟨0, _⟩ => rfl
  have hP : StableHlo.Predicate.ixP r = ixC r := by
    funext a; match a with | ⟨0, _⟩ => rfl | ⟨1, _⟩ => rfl
  refine (congrArg (Host.gather gather_S16_S131072x1_S131072_n_0_n_n_0_1_1 x idx) hj).trans ?_
  refine (StableHlo.Predicate.gather_take gather_S16_S131072x1_S131072_n_0_n_n_0_1_1 rfl rfl rfl rfl x idx r (by decide)).trans ?_
  refine congrArg x ?_
  funext a
  match a with
  | ⟨0, _⟩ => exact Fin.ext (by show min (idx (StableHlo.Predicate.ixP r)).toInt.toNat (16 - 1) = min (idx (ixC r)).toInt.toNat (16 - 1); rw [hP])

/-- The same with the table's entry at the row named: the form the stages use. -/
theorem gather_at (x : S16.Idx → EReal) (idx : IVec S131072x1 32) (r : Fin 131072) (v : BitVec 32) (hv : idx (ixC r) = v) :
    Host.gather gather_S16_S131072x1_S131072_n_0_n_n_0_1_1 x idx (ix1 r)
      = x (ix1 (⟨min v.toInt.toNat (16 - 1), by omega⟩ : Fin 16)) := by
  subst hv
  exact gather_apply x idx r

/-! ## The stages, each at an index given by its coordinates -/

section Stages

variable (x : S131072x512.Idx → EReal) (w b : S1x512.Idx → EReal) (g : S131072.Idx → BitVec 32)

/-- Rows selected through a start-index table that holds the rows' words are the rows of the segment. -/
theorem sel_eq (idx : IVec S131072x1 32) (hidx : ∀ r : Fin 131072, idx (ixC r) = g (ix1 r)) (s : Fin 16) :
    Finset.univ.filter (fun r : Fin 131072 => (idx (ixC r)).toInt = (((ix1 s : S16.Idx) 0).val : Int)) = rSel g s := by
  unfold rSel
  refine Finset.filter_congr (fun r _ => ?_)
  rw [hidx r]

theorem sel_eq2 (idx : IVec S131072x1 32) (hidx : ∀ r : Fin 131072, idx (ixC r) = g (ix1 r)) (s : Fin 16) (d : Fin 512) :
    Finset.univ.filter (fun r : Fin 131072 => (idx (ixC r)).toInt = (((ix2 s d : S16x512.Idx) 0).val : Int)) = rSel g s := by
  unfold rSel
  refine Finset.filter_congr (fun r _ => ?_)
  rw [hidx r]

/-- The three start-index tables of the scatters hold the rows' words as they are. -/
theorem v2_at (r : Fin 131072) : Read.val_main_v2 (F := Ideal) g (ixC r) = g (ix1 r) := by
  rw [Read.val_main_v2_apply]
  exact congrArg g (funext fun a => by match a with | ⟨0, _⟩ => rfl)

theorem v10_at (r : Fin 131072) : Read.val_main_v10 (F := Ideal) g (ixC r) = g (ix1 r) := by
  rw [Read.val_main_v10_apply]
  exact congrArg g (funext fun a => by match a with | ⟨0, _⟩ => rfl)

theorem v25_at (r : Fin 131072) : Read.val_main_v25 (F := Ideal) g (ixC r) = g (ix1 r) := by
  rw [Read.val_main_v25_apply]
  exact congrArg g (funext fun a => by match a with | ⟨0, _⟩ => rfl)

/-- The segment counts, at least one. -/
theorem v5_at (s : Fin 16) : Read.val_main_v5 (F := Ideal) g (ix1 s) = rCnt g s := by
  have h3 : Read.val_main_v3 (F := Ideal) g (ix1 s) = ∑ _r ∈ rSel g s, Ideal.ofBits .f32 0x3F800000#32 := by
    unfold Read.val_main_v3 Host.scatterAdd
    rw [Ideal.hostScatterAdd_def, scat1_apply, sel_eq g _ (v2_at g) s, Read.val_main_v1_apply, Read.val_main_cst_0_apply,
      Ideal.ofBits_def, Ideal.ofBits_zero_f32, zero_add]
    refine Finset.sum_congr rfl fun r _ => ?_
    rw [Read.val_main_v0_apply, Read.val_main_cst_apply, Ideal.ofBits_def]
  rw [Read.val_main_v5_apply, h3, Read.val_main_v4_apply, Read.val_main_cst_1_apply, Ideal.ofBits_def, Ideal.maximumf_def]
  rfl

/-- A row's mean. -/
theorem v8_at (r : Fin 131072) : Read.val_main_v8 (F := Ideal) x (ix1 r) = rPP x r := by
  rw [Read.val_main_v8_apply, Read.val_main_v6_apply, Read.val_main_v7_apply, Read.val_main_cst_3_apply,
    Read.val_main_cst_2_apply, Ideal.hostDivf_def, Ideal.ofBits_def, Ideal.ofBits_def, Ideal.ofBits_zero_f32, zero_add]
  unfold rPP
  refine congrArg (Ideal.div · _) (Finset.sum_congr rfl fun k _ => congrArg x ?_)
  funext a
  match a with
  | ⟨0, _⟩ => rfl
  | ⟨1, _⟩ => rfl

/-- A segment's mean. -/
theorem v12_at (s : Fin 16) : Read.val_main_v12 (F := Ideal) x g (ix1 s) = rMean x g s := by
  have h11 : Read.val_main_v11 (F := Ideal) x g (ix1 s) = ∑ r ∈ rSel g s, rPP x r := by
    unfold Read.val_main_v11 Host.scatterAdd
    rw [Ideal.hostScatterAdd_def, scat1_apply, sel_eq g _ (v10_at g) s, Read.val_main_v9_apply, Read.val_main_cst_4_apply,
      Ideal.ofBits_def, Ideal.ofBits_zero_f32, zero_add]
    exact Finset.sum_congr rfl fun r _ => v8_at x r
  rw [Read.val_main_v12_apply, h11, v5_at, Ideal.hostDivf_def]
  rfl

/-- The gathers' start-index tables hold the rows' wrapped words. -/
theorem v18_at (r : Fin 131072) : Read.val_main_v18 (F := Ideal) g (ixC r) = gwrap (g (ix1 r)) := by
  have e : Read.idx_main_v18 (ixC r) = ix1 r := funext fun a => by match a with | ⟨0, _⟩ => rfl
  rw [Read.val_main_v18_apply, e, Read.val_main_v17_apply, Read.val_main_v14_apply, Read.val_main_v16_apply,
    Read.val_main_v13_apply, Read.val_main_v15_apply, Read.val_main_c_apply, Read.val_main_c_5_apply]
  rfl

theorem v43_at (r : Fin 131072) : Read.val_main_v43 (F := Ideal) g (ixC r) = gwrap (g (ix1 r)) := by
  have e : Read.idx_main_v43 (ixC r) = ix1 r := funext fun a => by match a with | ⟨0, _⟩ => rfl
  rw [Read.val_main_v43_apply, e, Read.val_main_v42_apply, Read.val_main_v39_apply, Read.val_main_v41_apply,
    Read.val_main_v38_apply, Read.val_main_v40_apply, Read.val_main_c_11_apply, Read.val_main_c_12_apply]
  rfl

/-- A row's segment mean, read from the table. -/
theorem v19_at (r : Fin 131072) : Read.val_main_v19 (F := Ideal) x g (ix1 r) = rMean x g (gixr (g (ix1 r))) := by
  unfold Read.val_main_v19
  rw [gather_at _ _ r _ (v18_at g r)]
  exact v12_at x g (gixr (g (ix1 r)))

/-- A centred entry. -/
theorem v22_at (r : Fin 131072) (d : Fin 512) : Read.val_main_v22 (F := Ideal) x g (ix2 r d) = rXh x g r d := by
  have e : Read.idx_main_v20 (Read.idx_main_v21 (ix2 r d)) = ix1 r := funext fun a => by match a with | ⟨0, _⟩ => rfl
  rw [Read.val_main_v22_apply, Read.val_main_v21_apply, Read.val_main_v20_apply, e, v19_at, Ideal.subf_def]
  rfl

/-- A segment's column sum of squared centred entries over its count. -/
theorem v29_at (s : Fin 16) (d : Fin 512) :
    Read.val_main_v29 (F := Ideal) x g (ix2 s d)
      = Ideal.div (∑ r ∈ rSel g s, rXh x g r d * rXh x g r d) (rCnt g s) := by
  have h26 : Read.val_main_v26 (F := Ideal) x g (ix2 s d) = ∑ r ∈ rSel g s, rXh x g r d * rXh x g r d := by
    unfold Read.val_main_v26 Host.scatterAdd
    rw [Ideal.hostScatterAdd_def, scat2_apply, sel_eq2 g _ (v25_at g) s d, Read.val_main_v24_apply, Read.val_main_cst_6_apply,
      Ideal.ofBits_def, Ideal.ofBits_zero_f32, zero_add]
    refine Finset.sum_congr rfl fun r _ => ?_
    show Read.val_main_v23 (F := Ideal) x g (ix2 r d) = _
    rw [Read.val_main_v23_apply, v22_at, Ideal.mulf_def]
  have e : Read.idx_main_v27 (Read.idx_main_v28 (ix2 s d)) = ix1 s := funext fun a => by match a with | ⟨0, _⟩ => rfl
  rw [Read.val_main_v29_apply, h26, Read.val_main_v28_apply, Read.val_main_v27_apply, e, v5_at, Ideal.hostDivf_def]

/-- A segment's variance. -/
theorem v32_at (s : Fin 16) : Read.val_main_v32 (F := Ideal) x g (ix1 s) = rVar x g s := by
  have e : ∀ k : Fin 512, Read.idx_main_v30 (ix1 s) k = ix2 s k := fun k =>
    funext fun a => by match a with | ⟨0, _⟩ => rfl | ⟨1, _⟩ => rfl
  have hsum : (∑ k : Fin 512, Read.val_main_v29 (F := Ideal) x g (Read.idx_main_v30 (ix1 s) k))
      = ∑ d : Fin 512, Ideal.div (∑ r ∈ rSel g s, rXh x g r d * rXh x g r d) (rCnt g s) :=
    Finset.sum_congr rfl fun k _ => by rw [e k, v29_at]
  rw [Read.val_main_v32_apply, Read.val_main_v30_apply, hsum, Read.val_main_v31_apply, Read.val_main_cst_8_apply,
    Read.val_main_cst_7_apply, Ideal.hostDivf_def, Ideal.ofBits_def, Ideal.ofBits_def, Ideal.ofBits_zero_f32, zero_add]
  rfl

/-- A segment's reciprocal standard deviation. -/
theorem v37_at (s : Fin 16) : Read.val_main_v37 (F := Ideal) x g (ix1 s) = rIstd x g s := by
  rw [Read.val_main_v37_apply, Read.val_main_v36_apply, Read.val_main_cst_10_apply, Read.val_main_v35_apply,
    Read.val_main_v34_apply, v32_at, Read.val_main_v33_apply, Read.val_main_cst_9_apply, Ideal.hostDivf_def,
    Ideal.hostUnary_sqrt_def, Ideal.addf_def, Ideal.ofBits_def, Ideal.ofBits_def]
  rfl

/-- A row's reciprocal standard deviation, read from the table. -/
theorem v44_at (r : Fin 131072) : Read.val_main_v44 (F := Ideal) x g (ix1 r) = rIstd x g (gixr (g (ix1 r))) := by
  unfold Read.val_main_v44
  rw [gather_at _ _ r _ (v43_at g r)]
  exact v37_at x g (gixr (g (ix1 r)))

/-- THE REFERENCE'S RESULT is `refOut` of the four arguments. -/
theorem ref_out : Read.val_main_v51 (F := Ideal) x w b g = refOut x w b g := by
  funext i
  obtain ⟨r, d, rfl⟩ : ∃ (r : Fin 131072) (d : Fin 512), i = ix2 r d := ⟨i 0, i 1, eq_ix2 i⟩
  have e46 : Read.idx_main_v45 (Read.idx_main_v46 (ix2 r d)) = ix1 r := funext fun a => by match a with | ⟨0, _⟩ => rfl
  have e48 : Read.idx_main_v48 (ix2 r d) = ix2 (0 : Fin 1) d := funext fun a => by match a with | ⟨0, _⟩ => rfl | ⟨1, _⟩ => rfl
  have e50 : Read.idx_main_v50 (ix2 r d) = ix2 (0 : Fin 1) d := funext fun a => by match a with | ⟨0, _⟩ => rfl | ⟨1, _⟩ => rfl
  rw [Read.val_main_v51_apply, Read.val_main_v49_apply, Read.val_main_v50_apply, Read.val_main_v47_apply,
    Read.val_main_v48_apply, Read.val_main_v46_apply, Read.val_main_v45_apply, e46, e48, e50, v22_at, v44_at,
    Ideal.addf_def, Ideal.mulf_def, Ideal.mulf_def, refOut_ix2]
  rfl

end Stages

/-! ## The reference's run, with its result stated as `refOut` of the launch contents -/

section Run

open Idealize.ShloMosaic.TcCoe Idealize.SL.Sem Idealize.ShloMosaic.StableHlo

/-- On every device, from any memory with zero counters: every weakly fair execution of the reference terminates with its
    result array at `refOut` of the four arguments' launch contents, the arguments unchanged. -/
theorem ref_run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v51)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.ReferenceIdeal.defs _ _).mono
    (fun _ h c => ⟨(h c).1.trans ((Read.val_main_v51_eq m c).trans (ref_out _ _ _ _)), (h c).2⟩)
    (Cert.ReferenceIdeal.Value.run (F := Ideal) m ρ)

end Run

end Cert.ReferenceIdeal.Hand
end
-- ==== Proof.PreFacts.lean ====
import proofs.«418694_j85023172591851_3_alg».proof.Pre_finite_inputs
import proofs.«418694_j85023172591851_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
  THE PRECONDITION DECODED. The printed predicate is the conjunction of four "for all" statements, each a
  reduction by `and` of a mask to one bit: |x| < +∞ at every entry of x, of w and of b, and 0 ≤ g r < 16
  at every row r. Read at the exact instance (floats are extended reals) the first three say that every
  entry of x, w, b is a real number: an extended real a with max a (-a) < ⊤ is neither ⊤ nor ⊥. The last
  says that every word g r, read signed, lies in [0, 16), hence read unsigned is below 16.
-/

noncomputable section

namespace Cert.PreHand

open Idealize.ShloMosaic Cert.Pre_finite_inputs

/-- The rank-0 shape has one index. -/
instance : Subsingleton S_.Idx := ⟨fun a b => funext fun d => d.elim0⟩

/-- An extended real whose absolute value lies below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

/-- The pattern 0x7F800000 (sign 0, exponent all ones, fraction 0) denotes +∞. -/
theorem inf_bits : Ideal.ofBits .f32 0x7F800000#32 = (⊤ : EReal) := by
  simp [Ideal.ofBits, Ideal.ieee]

/-- The mask bit "|a| < +∞" set means a is a real. -/
theorem real_of_cmp (a : EReal)
    (h : Ideal.cmp .olt (max a (-a)) (Ideal.ofBits .f32 0x7F800000#32) = 1#1) : ∃ r : ℝ, a = (r : EReal) := by
  rw [inf_bits] at h
  refine real_of_abs_lt_top a ?_
  simpa [Ideal.cmp, StableHlo.Predicate.ofBool_eq_one_iff] using h

/-- A word in [0, 16) read signed is below 16 read unsigned. -/
theorem toNat_lt_16 (v : BitVec 32) (h0 : IntOp.cmpi .sge v 0#32 = 1#1) (h1 : IntOp.cmpi .slt v 16#32 = 1#1) :
    v.toNat < 16 := by
  rw [IntOp.cmpi_sge] at h0
  rw [IntOp.cmpi_slt] at h1
  have e0 : (0#32 : BitVec 32).toInt = 0 := by decide
  have e16 : (16#32 : BitVec 32).toInt = 16 := by decide
  rw [e0] at h0
  rw [e16] at h1
  have hv := BitVec.toInt_eq_toNat_cond v
  split at hv <;> omega

variable [Facts]
variable {x : FVec Ideal S131072x512 .f32} {w b : FVec Ideal S1x512 .f32} {g : IVec S131072 32}

/-- The predicate all ones, read entry by entry: x, w, b real everywhere and every g r below 16. -/
theorem decoded (h : Cert.Pre_finite_inputs.fn (F := Ideal) x w b g = fun _ => 1#1) :
    (∀ i, ∃ r : ℝ, x i = (r : EReal)) ∧ (∀ i, ∃ r : ℝ, w i = (r : EReal)) ∧ (∀ i, ∃ r : ℝ, b i = (r : EReal))
      ∧ ∀ i, (g i).toNat < 16 := by
  -- the one bit of the result, then the three `and`s that join the four reductions
  have e := congrFun h ValueIdx.ix0
  dsimp only [Cert.Pre_finite_inputs.fn, Cert.Pre_finite_inputs.fn_part1] at e
  obtain ⟨h3, hg⟩ := IntOp.andi_eq_one.1 e
  obtain ⟨h2, hb⟩ := IntOp.andi_eq_one.1 h3
  obtain ⟨hx, hw⟩ := IntOp.andi_eq_one.1 h2
  -- a reduction by `and` to one bit that is 1 met a 1 at every index
  refine ⟨fun i => real_of_cmp (x i) (Host.reduce_andi_all _ _ _ _ ValueIdx.ix0 hx i),
    fun i => real_of_cmp (w i) (Host.reduce_andi_all _ _ _ _ ValueIdx.ix0 hw i),
    fun i => real_of_cmp (b i) (Host.reduce_andi_all _ _ _ _ ValueIdx.ix0 hb i), fun i => ?_⟩
  obtain ⟨a0, a1⟩ := IntOp.andi_eq_one.1 (Host.reduce_andi_all _ _ _ _ ValueIdx.ix0 hg i)
  exact toNat_lt_16 (g i) a0 a1

theorem finite_x (h : Cert.Pre_finite_inputs.fn (F := Ideal) x w b g = fun _ => 1#1) :
    ∀ i, ∃ r : ℝ, x i = (r : EReal) := (decoded h).1

theorem finite_w (h : Cert.Pre_finite_inputs.fn (F := Ideal) x w b g = fun _ => 1#1) :
    ∀ i, ∃ r : ℝ, w i = (r : EReal) := (decoded h).2.1

theorem finite_b (h : Cert.Pre_finite_inputs.fn (F := Ideal) x w b g = fun _ => 1#1) :
    ∀ i, ∃ r : ℝ, b i = (r : EReal) := (decoded h).2.2.1

theorem range_g (h : Cert.Pre_finite_inputs.fn (F := Ideal) x w b g = fun _ => 1#1) :
    ∀ i, (g i).toNat < 16 := (decoded h).2.2.2

end Cert.PreHand

end
-- ==== Proof.lean ====
/-
  THE CLAIM. The kernel normalises each row of `x` (131072 × 512) by the statistics of the row's segment (16 segments,
  ids in `bidx`): two passes over the data. The first accumulates, per core and per lane, the segment's sum, sum of
  squares and row count by a one-hot matrix product over blocks of 4096 rows; the host adds the two cores' partial sums
  and forms the centre `μ = Σx / (n·512)` and the inverse deviation `1/√(max(Σx²/(n·512) − μ², 0) + ε)`, `n` the count
  kept at least one; the second pass stores `((x − μ)·σ)·w + b`. The reference computes the centre as the segment mean
  of the row means and the variance from the CENTRED squares. Over the extended reals, with every float input finite and
  every segment id in [0, 16) (outside it the reference's scatters drop rows and its gathers clamp, while the kernel
  clips: the precondition is the domain on which the reference indexes in range), the two results are one function:
  a sum over the blocks and cores is the sum over all rows, `Σ (x − μ)² / (n·D) = Σ x² / (n·D) − μ²`, and this is
  nonnegative, so the kernel's guard `max(·, 0)` is the identity.

  Frames: both printed kernels (word level and idealized) are run through the launch over their six segments — three
  host stretches, the statistics region, a host stretch, the normalisation region; the reference is a host program, its
  frame is its run. The idealization rewrote nothing, so `preserves` is trivial.
-/
import proofs.«418694_j85023172591851_3_alg».proof.Defs
import proofs.«418694_j85023172591851_3_alg».proof.Proof.Gen.Kernel
import proofs.«418694_j85023172591851_3_alg».proof.Proof.Gen.KernelIdeal
import proofs.«418694_j85023172591851_3_alg».proof.Proof.Gen.ReferenceIdeal
import proofs.«418694_j85023172591851_3_alg».proof.Proof.Gen.Pre_finite_inputs
import proofs.«418694_j85023172591851_3_alg».proof.Proof.Run
import proofs.«418694_j85023172591851_3_alg».proof.Proof.KRun
import proofs.«418694_j85023172591851_3_alg».proof.Proof.KernelValue
import proofs.«418694_j85023172591851_3_alg».proof.Proof.Bridge
import proofs.«418694_j85023172591851_3_alg».proof.Proof.RefValue
import proofs.«418694_j85023172591851_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its four arguments unchanged. -/
theorem frame_k : Cert.frame_Kernel (hKernel := Cert.Kernel.Gen.facts) (hPre_finite_inputs := Cert.Pre_finite_inputs.Gen.facts) :=
  fun m ρ _ => Cert.Kernel.Hand.frame m ρ

/-- The same of the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a host program: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result: the kernel's array is
    `kernelOut` of the arguments, the reference's is `refOut` of them, and under the precondition these are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Hand.ref_run m' ρ')
    rw [(hagree c).1, (hagree c).2.1, (hagree c).2.2.1, (hagree c).2.2.2]
    exact (Cert.KernelIdeal.Hand.kernelOut_eq_refOut _ _ _ _ (Cert.PreHand.finite_x (hpre c)) (Cert.PreHand.range_g (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
